-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg6 : FVec F S32 .f32) (main_arg7 : FVec F S32x1 .f32) (main_arg8 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg7
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S128x32 .f32) (main_arg4 : FVec F S32 .f32) (main_arg5 : FVec F S32x32 .f32) (main_arg6 : FVec F S32 .f32) (main_arg7 : FVec F S32x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x32 .f32 := Host.absf main_arg3
  let main_cst_0 : FVec F S_ .f32 := constant S_ .f32 0x7F800000#32
  let main_v5 : FVec F S128x32 .f32 := broadcastInDim S128x32 ![] bcast_S_S128x32 main_cst_0
  let main_v6 : IVec S128x32 1 := cmpf .olt main_v4 main_v5
  let main_c_1 : IVec S_ 1 := constantI S_ 1 1#1
  let main_v7 : IVec S_ 1 := (fun x v => Host.reduce IntOp.andi x v reducesTo_S128x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x1 : Shape := ⟨2, ![100000, 1]⟩
abbrev S100000x2 : Shape := ⟨2, ![100000, 2]⟩
abbrev S1x32 : Shape := ⟨2, ![1, 32]⟩
abbrev S1x1 : Shape := ⟨2, ![1, 1]⟩
abbrev S100000x32 : Shape := ⟨2, ![100000, 32]⟩
abbrev S2000x128 : Shape := ⟨2, ![2000, 128]⟩
abbrev S2000x2 : Shape := ⟨2, ![2000, 2]⟩
abbrev S2000x32 : Shape := ⟨2, ![2000, 32]⟩
abbrev S2000x1 : Shape := ⟨2, ![2000, 1]⟩
abbrev S1600000x32 : Shape := ⟨2, ![1600000, 32]⟩
abbrev S512x1 : Shape := ⟨2, ![512, 1]⟩
abbrev S512x32 : Shape := ⟨2, ![512, 32]⟩
abbrev S1x512 : Shape := ⟨2, ![1, 512]⟩
abbrev S2000x512 : Shape := ⟨2, ![2000, 512]⟩
abbrev S512x2000 : Shape := ⟨2, ![512, 2000]⟩

abbrev nBuf : Space → Nat
  | .hbm => 62
  | .vmem => 35
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S100000, .i32⟩
  | .hbm, ⟨3, _⟩ => ⟨S128x32, .f32⟩
  | .hbm, ⟨4, _⟩ => ⟨S32, .f32⟩
  | .hbm, ⟨5, _⟩ => ⟨S32x32, .f32⟩
  | .hbm, ⟨6, _⟩ => ⟨S32, .f32⟩
  | .hbm, ⟨7, _⟩ => ⟨S32x1, .f32⟩
  | .hbm, ⟨8, _⟩ => ⟨S1, .f32⟩
  | .hbm, ⟨9, _⟩ => ⟨S1x1600000, .i32⟩
  | .hbm, ⟨10, _⟩ => ⟨S1600000, .i32⟩
  | .hbm, ⟨11, _⟩ => ⟨S1x1600000, .i32⟩
  | .hbm, ⟨12, _⟩ => ⟨S1600000, .i32⟩
  | .hbm, ⟨13, _⟩ => ⟨S_, .f32⟩
  | .hbm, ⟨14, _⟩ => ⟨S1600000, .f32⟩
  | .hbm, ⟨15, _⟩ => ⟨S_, .f32⟩
  | .hbm, ⟨16, _⟩ => ⟨S100000, .f32⟩
  | .hbm, ⟨17, _⟩ => ⟨S1600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000, .f32⟩
  | .hbm, ⟨24, _⟩ => ⟨S100000x1, .f32⟩
  | .hbm, ⟨25, _⟩ => ⟨S100000x1, .f32⟩
  | .hbm, ⟨26, _⟩ => ⟨S100000x2, .f32⟩
  | .hbm, ⟨27, _⟩ => ⟨S1x32, .f32⟩
  | .hbm, ⟨28, _⟩ => ⟨S1x32, .f32⟩
  | .hbm, ⟨29, _⟩ => ⟨S100000x1, .i32⟩
  | .hbm, ⟨30, _⟩ => ⟨S1x1, .f32⟩
  | .hbm, ⟨31, _⟩ => ⟨S100000x32, .f32⟩
  | .hbm, ⟨32, _⟩ => ⟨S100000x32, .f32⟩
  | .hbm, ⟨33, _⟩ => ⟨S_, .i32⟩
  | .hbm, ⟨34, _⟩ => ⟨S1600000, .i32⟩
  | .hbm, ⟨35, _⟩ => ⟨S1600000, .i1⟩
  | .hbm, ⟨36, _⟩ => ⟨S_, .i32⟩
  | .hbm, ⟨37, _⟩ => ⟨S1600000, .i32⟩
  | .hbm, ⟨38, _⟩ => ⟨S1600000, .i32⟩
  | .hbm, ⟨39, _⟩ => ⟨S1600000, .i32⟩
  | .hbm, ⟨40, _⟩ => ⟨S1600000x1, .i32⟩
  | .hbm, ⟨41, _⟩ => ⟨S1600000x32, .f32⟩
  | .hbm, ⟨42, _⟩ => ⟨S_, .f32⟩
  | .hbm, ⟨43, _⟩ => ⟨S100000x32, .f32⟩
  | .hbm, ⟨44, _⟩ => ⟨S1600000x1, .i32⟩
  | .hbm, ⟨45, _⟩ => ⟨S100000x32, .f32⟩
  | .hbm, ⟨46, _⟩ => ⟨S100000x32, .f32⟩
  | .hbm, ⟨47, _⟩ => ⟨S100000x32, .f32⟩
  | .hbm, ⟨48, _⟩ => ⟨S_, .i32⟩
  | .hbm, ⟨49, _⟩ => ⟨S1600000, .i32⟩
  | .hbm, ⟨50, _⟩ => ⟨S1600000, .i1⟩
  | .hbm, ⟨51, _⟩ => ⟨S_, .i32⟩
  | .hbm, ⟨52, _⟩ => ⟨S1600000, .i32⟩
  | .hbm, ⟨53, _⟩ => ⟨S1600000, .i32⟩
  | .hbm, ⟨54, _⟩ => ⟨S1600000, .i32⟩
  | .hbm, ⟨55, _⟩ => ⟨S1600000x1, .i32⟩
  | .hbm, ⟨56, _⟩ => ⟨S1600000x32, .f32⟩
  | .hbm, ⟨57, _⟩ => ⟨S_, .f32⟩
  | .hbm, ⟨58, _⟩ => ⟨S100000x32, .f32⟩
  | .hbm, ⟨59, _⟩ => ⟨S1600000x1, .i32⟩
  | .hbm, ⟨60, _⟩ => ⟨S100000x32, .f32⟩
  | .hbm, ⟨61, _⟩ => ⟨S512x1, .f32⟩
  | .local _ .vmem, ⟨0, _⟩ => ⟨S2000x128, .f32⟩
  | .local _ .vmem, ⟨1, _⟩ => ⟨S2000x128, .f32⟩
  | .local _ .vmem, ⟨2, _⟩ => ⟨S128x32, .f32⟩
  | .local _ .vmem, ⟨3, _⟩ => ⟨S2000x2, .f32⟩
  | .local _ .vmem, ⟨4, _⟩ => ⟨S2000x2, .f32⟩
  | .local _ .vmem, ⟨5, _⟩ => ⟨S2000x32, .f32⟩
  | .local _ .vmem, ⟨6, _⟩ => ⟨S2000x32, .f32⟩
  | .local _ .vmem, ⟨7, _⟩ => ⟨S2000x32, .f32⟩
  | .local _ .vmem, ⟨8, _⟩ => ⟨S2000x32, .f32⟩
  | .local _ .vmem, ⟨9, _⟩ => ⟨S2000x32, .f32⟩
  | .local _ .vmem, ⟨10, _⟩ => ⟨S2000x32, .f32⟩
  | .local _ .vmem, ⟨11, _⟩ => ⟨S2000x32, .f32⟩
  | .local _ .vmem, ⟨12, _⟩ => ⟨S2000x32, .f32⟩
  | .local _ .vmem, ⟨13, _⟩ => ⟨S2000x2, .f32⟩
  | .local _ .vmem, ⟨14, _⟩ => ⟨S2000x2, .f32⟩
  | .local _ .vmem, ⟨15, _⟩ => ⟨S1x32, .f32⟩
  | .local _ .vmem, ⟨16, _⟩ => ⟨S32x32, .f32⟩
  | .local _ .vmem, ⟨17, _⟩ => ⟨S2000x32, .f32⟩
  | .local _ .vmem, ⟨18, _⟩ => ⟨S2000x32, .f32⟩
  | .local _ .vmem, ⟨19, _⟩ => ⟨S2000x32, .f32⟩
  | .local _ .vmem, ⟨20, _⟩ => ⟨S2000x32, .f32⟩
  | .local _ .vmem, ⟨21, _⟩ => ⟨S2000x32, .f32⟩
  | .local _ .vmem, ⟨22, _⟩ => ⟨S2000x32, .f32⟩
  | .local _ .vmem, ⟨23, _⟩ => ⟨S2000x32, .f32⟩
  | .local _ .vmem, ⟨24, _⟩ => ⟨S2000x32, .f32⟩
  | .local _ .vmem, ⟨25, _⟩ => ⟨S2000x2, .f32⟩
  | .local _ .vmem, ⟨26, _⟩ => ⟨S2000x2, .f32⟩
  | .local _ .vmem, ⟨27, _⟩ => ⟨S1x32, .f32⟩
  | .local _ .vmem, ⟨28, _⟩ => ⟨S2000x1, .i32⟩
  | .local _ .vmem, ⟨29, _⟩ => ⟨S2000x1, .i32⟩
  | .local _ .vmem, ⟨30, _⟩ => ⟨S32x1, .f32⟩
  | .local _ .vmem, ⟨31, _⟩ => ⟨S1x1, .f32⟩
  | .local _ .vmem, ⟨32, _⟩ => ⟨S512x1, .f32⟩
  | .local _ .vmem, ⟨33, _⟩ => ⟨S512x32, .f32⟩
  | .local _ .vmem, ⟨34, _⟩ => ⟨S512x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19_0 : Ref sig .tc := ⟨.hbm, 31, rfl⟩
abbrev main_v19_1 : Ref sig .tc := ⟨.hbm, 32, rfl⟩
abbrev main_c : Ref sig .tc := ⟨.hbm, 33, rfl⟩
abbrev main_v20 : Ref sig .tc := ⟨.hbm, 34, rfl⟩
abbrev main_v21 : Ref sig .tc := ⟨.hbm, 35, rfl⟩
abbrev main_c_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30_0 : Ref sig .tc := ⟨.hbm, 46, rfl⟩
abbrev main_v30_1 : Ref sig .tc := ⟨.hbm, 47, rfl⟩
abbrev main_c_4 : Ref sig .tc := ⟨.hbm, 48, rfl⟩
abbrev main_v31 : Ref sig .tc := ⟨.hbm, 49, rfl⟩
abbrev main_v32 : Ref sig .tc := ⟨.hbm, 50, rfl⟩
abbrev main_c_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_6 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg4_1 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_scratch0 : Ref sig .tc := ⟨.vmem, 33, rfl⟩
abbrev cc2_scratch1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem5_0 : DmaSem sig := 17
abbrev cc1_sem5_1 : DmaSem sig := 18
abbrev cc1_sem6_0 : DmaSem sig := 19
abbrev cc1_sem6_1 : DmaSem sig := 20
abbrev cc2_sem0_0 : DmaSem sig := 21
abbrev cc2_sem0_1 : DmaSem sig := 22
abbrev cc2_sem1_0 : DmaSem sig := 23
abbrev cc2_sem1_1 : DmaSem sig := 24
abbrev cc2_sem2_0 : DmaSem sig := 25
abbrev cc2_sem2_1 : DmaSem sig := 26
abbrev cc2_sem3_0 : DmaSem sig := 27
abbrev cc2_sem4_0 : DmaSem sig := 28
abbrev cc2_sem4_1 : DmaSem sig := 29
abbrev cc2_sem5_0 : DmaSem sig := 30
abbrev cc2_sem6_0 : DmaSem sig := 31
abbrev cc2_sem7_0 : DmaSem sig := 32

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x2 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x32 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x32 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def k2_cond2 (i : grid2.Coords) : BitVec 1 :=
  let arg0 : BitVec 32 := BitVec.ofNat 32 (i 0).val
  let c49_i32 : BitVec 32 := 49#32
  let v46 : BitVec 1 := Scalar.cmpi .eq arg0 c49_i32
  let v47 : BitVec 32 := Scalar.extui v46
  let c0_i32_21 : BitVec 32 := 0#32
  let v48 : BitVec 1 := Scalar.cmpi .ne v47 c0_i32_21
  v48

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S2000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2000x2 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S32x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x1 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S512x1 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  concatenates_S100000x1_S100000x1_S100000x2_d1 : Shape.Concatenates [S100000x1, S100000x1] S100000x2 1
  shapeCasts_S32_S1x32 : S32.ShapeCasts S1x32
  shapeCasts_S100000_S100000x1 : S100000.ShapeCasts S100000x1
  shapeCasts_S1_S1x1 : S1.ShapeCasts S1x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S2000x2_S2000x2_0_0 : ∀ a, (![0, 0] : Fin 2 → Nat) a + S2000x2.size a ≤ S2000x2.size a
  h_S2000x2 : 0 < S2000x2.numel
  shapeCasts_S2000x2_S2000x2 : S2000x2.ShapeCasts S2000x2
  slices_S2000x2_o0_0_S2000x1 : S2000x2.Slices ![0, 0] S2000x1
  inb_S2000x32_S2000x32_0_0 : ∀ a, (![0, 0] : Fin 2 → Nat) a + S2000x32.size a ≤ S2000x32.size a
  h_S2000x32 : 0 < S2000x32.numel
  broadcasts_S2000x1_S2000x32 : S2000x1.Broadcasts S2000x32
  bcast_S_S100000x32 : S_.BroadcastsInDim S100000x32 (![] : Fin 0 → Fin S100000x32.rank)
  slices_S2000x2_o0_1_S2000x1 : S2000x2.Slices ![0, 1] S2000x1
  shapeCasts_S2000x32_S2000x32 : S2000x32.ShapeCasts S2000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2000x32 : S1x32.Broadcasts S2000x32
  inb_S32x32_S32x32_0_0 : ∀ a, (![0, 0] : Fin 2 → Nat) a + S32x32.size a ≤ S32x32.size a
  h_S32x32 : 0 < S32x32.numel
  inb_S512x32_S512x32_0_0 : ∀ a, (![0, 0] : Fin 2 → Nat) a + S512x32.size a ≤ S512x32.size a
  h_S512x32 : 0 < S512x32.numel
  shapeCasts_S512x32_S512x32 : S512x32.ShapeCasts S512x32
  inb_S512x1_S512x1_0_0 : ∀ a, (![0, 0] : Fin 2 → Nat) a + S512x1.size a ≤ S512x1.size a
  h_S512x1 : 0 < S512x1.numel
  shapeCasts_S512x1_S512x1 : S512x1.ShapeCasts S512x1
  iota_S1x512_d1_w32 : S1x512.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x512 : S2000x1.Broadcasts S2000x512
  broadcasts_S1x512_S2000x512 : S1x512.Broadcasts S2000x512
  natLt_1_32 : 1 < 32
  transposes_S2000x512_p1_0_S512x2000 : S2000x512.Transposes [1, 0] S512x2000
  broadcasts_S512x1_S512x32 : S512x1.Broadcasts S512x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  scatter_S100000_S1600000x1_S1600000_n_0_0_1_wf : ScatterDims.WF S100000 S1600000x1 S1600000 [] [0] [0] 1
  dot_S2000x128_S128x32_S2000x32_1_0_0_1_n_n_wf : DotDims.WF S2000x128 S128x32 S2000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S2000x32_S32x32_S2000x32_1_0_0_1_n_n_wf : DotDims.WF S2000x32 S32x32 S2000x32 [1] [0] [0] [1] [] []
  dot_S512x2000_S2000x32_S512x32_1_0_0_1_n_n_wf : DotDims.WF S512x2000 S2000x32 S512x32 [1] [0] [0] [1] [] []
  dot_S512x2000_S2000x1_S512x1_1_0_0_1_n_n_wf : DotDims.WF S512x2000 S2000x1 S512x1 [1] [0] [0] [1] [] []
  dot_S512x32_S32x1_S512x1_1_0_0_1_n_n_wf : DotDims.WF S512x32 S32x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x2.size a ≤ S100000x2.size a
  hwx0_2 : ∀ i : grid0.Coords, EltTy.bits .f32 = 32 ∨ (Rect.block (s := S100000x2) S2000x2.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x32.size a ≤ S100000x32.size a
  hwx0_3 : ∀ i : grid0.Coords, EltTy.bits .f32 = 32 ∨ (Rect.block (s := S100000x32) S2000x32.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x32.size a ≤ S100000x32.size a
  hwx0_4 : ∀ i : grid0.Coords, EltTy.bits .f32 = 32 ∨ (Rect.block (s := S100000x32) S2000x32.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x32.size a ≤ S100000x32.size a
  hwx1_0 : ∀ i : grid1.Coords, EltTy.bits .f32 = 32 ∨ (Rect.block (s := S100000x32) S2000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x32.size a ≤ S100000x32.size a
  hwx1_1 : ∀ i : grid1.Coords, EltTy.bits .f32 = 32 ∨ (Rect.block (s := S100000x32) S2000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x2.size a ≤ S100000x2.size a
  hwx1_2 : ∀ i : grid1.Coords, EltTy.bits .f32 = 32 ∨ (Rect.block (s := S100000x2) S2000x2.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x32.size a ≤ S100000x32.size a
  hwx1_5 : ∀ i : grid1.Coords, EltTy.bits .f32 = 32 ∨ (Rect.block (s := S100000x32) S2000x32.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x32.size a ≤ S100000x32.size a
  hwx1_6 : ∀ i : grid1.Coords, EltTy.bits .f32 = 32 ∨ (Rect.block (s := S100000x32) S2000x32.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x32.size a ≤ S100000x32.size a
  hwx2_0 : ∀ i : grid2.Coords, EltTy.bits .f32 = 32 ∨ (Rect.block (s := S100000x32) S2000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x32.size a ≤ S100000x32.size a
  hwx2_1 : ∀ i : grid2.Coords, EltTy.bits .f32 = 32 ∨ (Rect.block (s := S100000x32) S2000x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x2.size a ≤ S100000x2.size a
  hwx2_2 : ∀ i : grid2.Coords, EltTy.bits .f32 = 32 ∨ (Rect.block (s := S100000x2) S2000x2.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x1.size a ≤ S100000x1.size a
  hwx2_4 : ∀ i : grid2.Coords, EltTy.bits .i32 = 32 ∨ (Rect.block (s := S100000x1) S2000x1.size (cc2_transform_4 i) (hinb2_4 i)).WholeWords (EltTy.packing .i32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S32x1.size a ≤ S32x1.size a
  hwx2_5 : ∀ i : grid2.Coords, EltTy.bits .f32 = 32 ∨ (Rect.block (s := S32x1) S32x1.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x1.size a ≤ S1x1.size a
  hwx2_6 : ∀ i : grid2.Coords, EltTy.bits .f32 = 32 ∨ (Rect.block (s := S1x1) S1x1.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S512x1.size a ≤ S512x1.size a
  hwx2_7 : ∀ i : grid2.Coords, EltTy.bits .f32 = 32 ∨ (Rect.block (s := S512x1) S512x1.size (cc2_transform_7 i) (hinb2_7 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x32_S2000x32_1_0_0_1_n_n : DotDims S2000x128 S128x32 S2000x32 where
  lhsContracting := [1]
  rhsContracting := [0]
  lhsNonContracting := [0]
  rhsNonContracting := [1]
  lhsBatch := []
  rhsBatch := []
  wf := dot_S2000x128_S128x32_S2000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S2000x32_S32x32_S2000x32_1_0_0_1_n_n : DotDims S2000x32 S32x32 S2000x32 where
  lhsContracting := [1]
  rhsContracting := [0]
  lhsNonContracting := [0]
  rhsNonContracting := [1]
  lhsBatch := []
  rhsBatch := []
  wf := dot_S2000x32_S32x32_S2000x32_1_0_0_1_n_n_wf
def dot_S512x2000_S2000x32_S512x32_1_0_0_1_n_n : DotDims S512x2000 S2000x32 S512x32 where
  lhsContracting := [1]
  rhsContracting := [0]
  lhsNonContracting := [0]
  rhsNonContracting := [1]
  lhsBatch := []
  rhsBatch := []
  wf := dot_S512x2000_S2000x32_S512x32_1_0_0_1_n_n_wf
def dot_S512x2000_S2000x1_S512x1_1_0_0_1_n_n : DotDims S512x2000 S2000x1 S512x1 where
  lhsContracting := [1]
  rhsContracting := [0]
  lhsNonContracting := [0]
  rhsNonContracting := [1]
  lhsBatch := []
  rhsBatch := []
  wf := dot_S512x2000_S2000x1_S512x1_1_0_0_1_n_n_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S2000x2.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19_0) S2000x32.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v19_1) S2000x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v29) S2000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19_0) S2000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v14) S2000x2.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v30_0) S2000x32.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30_1) S2000x32.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v40) S2000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v30_0) S2000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v14) S2000x2.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v16) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v17) S2000x1.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S32x1.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v18) S1x1.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v41) S512x1.size cc2_transform_7 reads2_7 true true 1 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x32 : Shape := ⟨2, ![32, 32]⟩
abbrev S32x1 : Shape := ⟨2, ![32, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S100000x32 : Shape := ⟨2, ![100000, 32]⟩
abbrev S1600000x32 : Shape := ⟨2, ![1600000, 32]⟩
abbrev S100000x1 : Shape := ⟨2, ![100000, 1]⟩
abbrev S1x32 : Shape := ⟨2, ![1, 32]⟩
abbrev S512x32 : Shape := ⟨2, ![512, 32]⟩
abbrev S512 : Shape := ⟨1, ![512]⟩
abbrev S512x1 : Shape := ⟨2, ![512, 1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S128x32, .f32⟩
  | 4 => ⟨S32, .f32⟩
  | 5 => ⟨S32x32, .f32⟩
  | 6 => ⟨S32, .f32⟩
  | 7 => ⟨S32x1, .f32⟩
  | 8 => ⟨S1, .f32⟩
  | 9 => ⟨S1x1600000, .i32⟩
  | 10 => ⟨S1600000, .i32⟩
  | 11 => ⟨S1x1600000, .i32⟩
  | 12 => ⟨S1600000, .i32⟩
  | 13 => ⟨S_, .f32⟩
  | 14 => ⟨S1600000, .f32⟩
  | 15 => ⟨S_, .f32⟩
  | 16 => ⟨S100000, .f32⟩
  | 17 => ⟨S1600000x1, .i32⟩
  | 18 => ⟨S100000, .f32⟩
  | 19 => ⟨S_, .f32⟩
  | 20 => ⟨S100000, .f32⟩
  | 21 => ⟨S100000, .f32⟩
  | 22 => ⟨S100000, .f32⟩
  | 23 => ⟨S100000x32, .f32⟩
  | 24 => ⟨S_, .i32⟩
  | 25 => ⟨S1600000, .i32⟩
  | 26 => ⟨S1600000, .i1⟩
  | 27 => ⟨S_, .i32⟩
  | 28 => ⟨S1600000, .i32⟩
  | 29 => ⟨S1600000, .i32⟩
  | 30 => ⟨S1600000, .i32⟩
  | 31 => ⟨S1600000x1, .i32⟩
  | 32 => ⟨S1600000, .f32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000, .f32⟩
  | 42 => ⟨S1600000, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1600000x32, .f32⟩
  | 52 => ⟨S1600000x1, .f32⟩
  | 53 => ⟨S1600000x32, .f32⟩
  | 54 => ⟨S1600000x32, .f32⟩
  | 55 => ⟨S_, .f32⟩
  | 56 => ⟨S100000x32, .f32⟩
  | 57 => ⟨S1600000x1, .i32⟩
  | 58 => ⟨S100000x32, .f32⟩
  | 59 => ⟨S100000, .f32⟩
  | 60 => ⟨S100000x1, .f32⟩
  | 61 => ⟨S100000x32, .f32⟩
  | 62 => ⟨S100000x32, .f32⟩
  | 63 => ⟨S100000x32, .f32⟩
  | 64 => ⟨S1x32, .f32⟩
  | 65 => ⟨S100000x32, .f32⟩
  | 66 => ⟨S100000x32, .f32⟩
  | 67 => ⟨S_, .f32⟩
  | 68 => ⟨S100000x32, .f32⟩
  | 69 => ⟨S100000x32, .f32⟩
  | 70 => ⟨S100000x32, .f32⟩
  | 71 => ⟨S_, .i32⟩
  | 72 => ⟨S1600000, .i32⟩
  | 73 => ⟨S1600000, .i1⟩
  | 74 => ⟨S_, .i32⟩
  | 75 => ⟨S1600000, .i32⟩
  | 76 => ⟨S1600000, .i32⟩
  | 77 => ⟨S1600000, .i32⟩
  | 78 => ⟨S1600000x1, .i32⟩
  | 79 => ⟨S1600000, .f32⟩
  | 80 => ⟨S_, .i32⟩
  | 81 => ⟨S1600000, .i32⟩
  | 82 => ⟨S1600000, .i1⟩
  | 83 => ⟨S_, .i32⟩
  | 84 => ⟨S1600000, .i32⟩
  | 85 => ⟨S1600000, .i32⟩
  | 86 => ⟨S1600000, .i32⟩
  | 87 => ⟨S1600000x1, .i32⟩
  | 88 => ⟨S1600000, .f32⟩
  | 89 => ⟨S1600000, .f32⟩
  | 90 => ⟨S_, .i32⟩
  | 91 => ⟨S1600000, .i32⟩
  | 92 => ⟨S1600000, .i1⟩
  | 93 => ⟨S_, .i32⟩
  | 94 => ⟨S1600000, .i32⟩
  | 95 => ⟨S1600000, .i32⟩
  | 96 => ⟨S1600000, .i32⟩
  | 97 => ⟨S1600000x1, .i32⟩
  | 98 => ⟨S1600000x32, .f32⟩
  | 99 => ⟨S1600000x1, .f32⟩
  | 100 => ⟨S1600000x32, .f32⟩
  | 101 => ⟨S1600000x32, .f32⟩
  | 102 => ⟨S_, .f32⟩
  | 103 => ⟨S100000x32, .f32⟩
  | 104 => ⟨S1600000x1, .i32⟩
  | 105 => ⟨S100000x32, .f32⟩
  | 106 => ⟨S100000, .f32⟩
  | 107 => ⟨S100000x1, .f32⟩
  | 108 => ⟨S100000x32, .f32⟩
  | 109 => ⟨S100000x32, .f32⟩
  | 110 => ⟨S100000x32, .f32⟩
  | 111 => ⟨S1x32, .f32⟩
  | 112 => ⟨S100000x32, .f32⟩
  | 113 => ⟨S100000x32, .f32⟩
  | 114 => ⟨S_, .f32⟩
  | 115 => ⟨S100000x32, .f32⟩
  | 116 => ⟨S100000x32, .f32⟩
  | 117 => ⟨S_, .f32⟩
  | 118 => ⟨S512x32, .f32⟩
  | 119 => ⟨S100000x1, .i32⟩
  | 120 => ⟨S512x32, .f32⟩
  | 121 => ⟨S_, .f32⟩
  | 122 => ⟨S100000, .f32⟩
  | 123 => ⟨S_, .f32⟩
  | 124 => ⟨S512, .f32⟩
  | 125 => ⟨S100000x1, .i32⟩
  | 126 => ⟨S512, .f32⟩
  | 127 => ⟨S_, .f32⟩
  | _ => ⟨S100000x128, .f32⟩

abbrev hbmTy0_1 (i : Nat) : BufTy := match i % 128 with
  | 0 => ⟨S512, .f32⟩
  | 1 => ⟨S512, .f32⟩
  | 2 => ⟨S512x1, .f32⟩
  | 3 => ⟨S512x32, .f32⟩
  | 4 => ⟨S512x32, .f32⟩
  | 5 => ⟨S512x1, .f32⟩
  | 6 => ⟨S1x1, .f32⟩
  | 7 => ⟨S512x1, .f32⟩
  | 8 => ⟨S512x1, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_c_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_c_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_7 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_call0_cst : Ref sig .tc := ⟨.hbm, 67, rfl⟩
abbrev main_call0_v0 : Ref sig .tc := ⟨.hbm, 68, rfl⟩
abbrev main_v48 : Ref sig .tc := ⟨.hbm, 69, rfl⟩
abbrev main_v49 : Ref sig .tc := ⟨.hbm, 70, rfl⟩
abbrev main_c_8 : Ref sig .tc := ⟨.hbm, 71, rfl⟩
abbrev main_v50 : Ref sig .tc := ⟨.hbm, 72, rfl⟩
abbrev main_v51 : Ref sig .tc := ⟨.hbm, 73, rfl⟩
abbrev main_c_9 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_c_10 : Ref sig .tc := ⟨.hbm, 80, rfl⟩
abbrev main_v57 : Ref sig .tc := ⟨.hbm, 81, rfl⟩
abbrev main_v58 : Ref sig .tc := ⟨.hbm, 82, rfl⟩
abbrev main_c_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_c_12 : Ref sig .tc := ⟨.hbm, 90, rfl⟩
abbrev main_v65 : Ref sig .tc := ⟨.hbm, 91, rfl⟩
abbrev main_v66 : Ref sig .tc := ⟨.hbm, 92, rfl⟩
abbrev main_c_13 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_14 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_call1_cst : Ref sig .tc := ⟨.hbm, 114, rfl⟩
abbrev main_call1_v0 : Ref sig .tc := ⟨.hbm, 115, rfl⟩
abbrev main_v86 : Ref sig .tc := ⟨.hbm, 116, rfl⟩
abbrev main_cst_15 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_16 : Ref sig .tc := ⟨.hbm, 121, rfl⟩
abbrev main_v90 : Ref sig .tc := ⟨.hbm, 122, rfl⟩
abbrev main_cst_17 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_cst_18 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S1600000x1_S1600000x32_0_1 : S1600000x1.BroadcastsInDim S1600000x32 (![0, 1] : Fin 2 → Fin S1600000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S512x32 : S_.BroadcastsInDim S512x32 (![] : Fin 0 → Fin S512x32.rank)
  bcast_S_S512 : S_.BroadcastsInDim S512 (![] : Fin 0 → Fin S512.rank)
  bcast_S512_S512x1_0 : S512.BroadcastsInDim S512x1 (![0] : Fin 1 → Fin S512x1.rank)
  bcast_S512x1_S512x32_0_1 : S512x1.BroadcastsInDim S512x32 (![0, 1] : Fin 2 → Fin S512x32.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  scatter_S100000_S1600000x1_S1600000_n_0_0_1_wf : ScatterDims.WF S100000 S1600000x1 S1600000 [] [0] [0] 1
  dot_S100000x128_S128x32_S100000x32_1_0_0_1_n_n_wf : DotDims.WF S100000x128 S128x32 S100000x32 [1] [0] [0] [1] [] []
  gather_S100000_S1600000x1_S1600000_n_0_n_n_0_1_1_wf : GatherDims.WF S100000 S1600000x1 S1600000 [] [0] [] [0] [] 1 ![1]
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x32_S100000x32_1_0_0_1_n_n_wf : DotDims.WF S100000x32 S32x32 S100000x32 [1] [0] [0] [1] [] []
  scatter_S512x32_S100000x1_S100000x32_1_0_0_1_wf : ScatterDims.WF S512x32 S100000x1 S100000x32 [1] [0] [0] 1
  scatter_S512_S100000x1_S100000_n_0_0_1_wf : ScatterDims.WF S512 S100000x1 S100000 [] [0] [0] 1
  dot_S512x32_S32x1_S512x1_1_0_0_1_n_n_wf : DotDims.WF S512x32 S32x1 S512x1 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def scatter_S512x32_S100000x1_S100000x32_1_0_0_1 : ScatterDims S512x32 S100000x1 S100000x32 where
  updateWindowDims := [1]
  insertedWindowDims := [0]
  scatterDimsToOperandDims := [0]
  indexVectorDim := 1
  wf := scatter_S512x32_S100000x1_S100000x32_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf
def dot_S512x32_S32x1_S512x1_1_0_0_1_n_n : DotDims S512x32 S32x1 S512x1 where
  lhsContracting := [1]
  rhsContracting := [0]
  lhsNonContracting := [0]
  rhsNonContracting := [1]
  lhsBatch := []
  rhsBatch := []
  wf := dot_S512x32_S32x1_S512x1_1_0_0_1_n_n_wf

class Facts : Prop extends Facts₀ where

variable [Facts]
-- ==== Proof.LibWholeReload.lean ====
import Idealize.ShloMosaic.Lib.Pipeline.Value

/-! # A load of a whole buffer after a store of the whole buffer

A buffer is stored whole (through the unit rectangle at zero offsets of the buffer's own sizes) and later loaded whole.
Whatever was stored before the last whole store, the load reads that store's payload: the earlier pieces lie under
it. `View.readCov_unit_zero` is the case of no earlier piece; this is the case of any list of earlier pieces, which
is what a chain of read-modify-write rounds on one scratch buffer produces. -/

namespace Idealize.ShloMosaic.View

variable {Val : EltTy → Type} {S : Shape} {e : EltTy}

/-- A whole load after a whole store reads the store's payload, whatever the earlier stores were. -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

/-- The zero offsets of a rank-2 and of a rank-3 buffer, as the printed programs spell them. -/
theorem zeros2 : (![0, 0] : Fin 2 → Nat) = fun _ => 0 := by
  funext a; fin_cases a <;> rfl
theorem zeros3 : (![0, 0, 0] : Fin 3 → Nat) = fun _ => 0 := by
  funext a; fin_cases a <;> rfl

end Idealize.ShloMosaic.View
-- ==== Proof.KReg0.lean ====
/- # The first dense projection as a pipelined region

Fifty row tiles of 2000 nodes. At a tile the body reads the tile's feature rows, the whole weight matrix and the tile's
rows of the two-column scale table, and writes two tiles: the projected rows `x · W`, and the same rows each scaled by the
first entry of its scale row. Nothing is carried from one tile to the next. Everything here is stated at a parameter
`V`, the contents of the core's buffers when the region is entered. -/
import proofs.«410742_j70944269795814_3_alg».proof.Proof.Gen.Kernel.Launch
import proofs.«410742_j70944269795814_3_alg».proof.Proof.Gen.Kernel.Skeleton
import proofs.«410742_j70944269795814_3_alg».proof.Proof.Gen.Kernel.Points
import Idealize.ShloMosaic.Lib.Pipeline.FrameBody
import Idealize.ShloMosaic.Lib.Pipeline.Value
import proofs.«410742_j70944269795814_3_alg».proof.Proof.LibWholeReload
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body leaves in the two output tiles -/

abbrev r0X : Rect S2000x128 := Rect.unit (s := S2000x128) ![0, 0] S2000x128.size inb_S2000x128_S2000x128_0_0
abbrev r0W : Rect S128x32 := Rect.unit (s := S128x32) ![0, 0] S128x32.size inb_S128x32_S128x32_0_0
abbrev r0D : Rect S2000x2 := Rect.unit (s := S2000x2) ![0, 0] S2000x2.size inb_S2000x2_S2000x2_0_0
abbrev r0O : Rect S2000x32 := Rect.unit (s := S2000x32) ![0, 0] S2000x32.size inb_S2000x32_S2000x32_0_0

/-- The projected tile: one whole-tile store of the product of the feature tile with the weights. -/
def out0_3 (x0 : Vec F S2000x128 .f32) (x1 : Vec F S128x32 .f32) : Vec F S2000x32 .f32 :=
  View.canon [⟨r0O, k0_pay1 (View.ld x0 r0X) (View.ld x1 r0W)⟩]

/-- The scaled tile: one whole-tile store of the product rows times the first column of the scale tile. -/
def out0_4 (x0 : Vec F S2000x128 .f32) (x1 : Vec F S128x32 .f32) (x2 : Vec F S2000x2 .f32) : Vec F S2000x32 .f32 :=
  View.canon [⟨r0O, k0_pay2 (View.ld x0 r0X) (View.ld x1 r0W) (View.ld x2 r0D)⟩]

/-- A whole-tile store read back is its payload, and a whole-tile load is the tile. -/
theorem out0_3_eq (x0 : Vec F S2000x128 .f32) (x1 : Vec F S128x32 .f32) : out0_3 x0 x1 = k0_pay1 x0 x1 := by
  unfold out0_3
  rw [View.canon_unit_zero (S := S2000x32) View.zeros2, View.ld_unit_zero (S := S2000x128) View.zeros2,
    View.ld_unit_zero (S := S128x32) View.zeros2]
theorem out0_4_eq (x0 : Vec F S2000x128 .f32) (x1 : Vec F S128x32 .f32) (x2 : Vec F S2000x2 .f32) :
    out0_4 x0 x1 x2 = k0_pay2 x0 x1 x2 := by
  unfold out0_4
  rw [View.canon_unit_zero (S := S2000x32) View.zeros2, View.ld_unit_zero (S := S2000x128) View.zeros2,
    View.ld_unit_zero (S := S128x32) View.zeros2, View.ld_unit_zero (S := S2000x2) View.zeros2]

/-! ## An input's staging buffer holds its block

An input window's current buffer holds the window's block at every tile, whether the tile fetched it or not: a tile
that does not fetch has the block index of the tile before it, and the body leaves an input's buffer as it found it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

/-- One store through the whole tile covers the tile. -/
theorem cover0_O (p0 : Vec F S2000x32 .f32) (y : S2000x32.Idx) :
    ∃ pc ∈ ([⟨r0O, p0⟩] : List (View.Piece (Elt F) S2000x32 .f32)), y ∈ pc.1.set :=
  View.cover_of_tiled [⟨r0O, p0⟩] S2000x32.size (by rfl) y

set_option maxHeartbeats 1000000 in
/-- The body on whole staging buffers, the three inputs' at contents `x0 x1 x2` and the two outputs' at anything, runs
    to the continuation holding the inputs' as they were, the first output's at the projected tile and the second's at
    the scaled tile. Each output buffer is read once before it is stored into; the value read is not used. -/
theorem sound_kernel0 (c : Dev nD) (E : Set ℕ) (i : grid0.Coords)
    (arg1 : Memref sig .tc .vmem S2000x128 .f32) (harg1 : arg1.IsWhole)
    (arg2 : Memref sig .tc .vmem S128x32 .f32) (harg2 : arg2.IsWhole)
    (arg3 : Memref sig .tc .vmem S2000x2 .f32) (harg3 : arg3.IsWhole)
    (arg4 : Memref sig .tc .vmem S2000x32 .f32) (harg4 : arg4.IsWhole)
    (arg5 : Memref sig .tc .vmem S2000x32 .f32) (harg5 : arg5.IsWhole)
    (x0 : Vec F S2000x128 .f32) (x1 : Vec F S128x32 .f32) (x2 : Vec F S2000x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1)
            ∗ owns (c : Thread nD τ) arg5 fullShare (out0_4 x0 x1 x2)) -∗ K ⟨⟩))
      ⊢ wp frame (wpE (defs₀ (F := F)) Variants.none c none) E
          (cc0__dense1_kernel i arg1 harg1 arg2 harg2 arg3 harg3 arg4 harg4 arg5 harg5) K := by
  simp only [cc0__dense1_kernel_eq_skeleton]; unfold cc0__dense1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_O _)
  iexists _; isplitr
  swap; · iexact H4
  ipureintro
  exact View.read_writes_eq_canon _ _ _ (cover0_O _)

/-! ## The pipeline's proof data -/

/-- The arrays as the region finds them; after the body at tile `t` each input's buffer still at its block, the two
    outputs' at the projected and the scaled tile; between tiles only the scoped rest and the generator register;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## The body obligation -/

/-- Each input's current staging buffer holds its block at every tile. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any tile: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- At every tile the body, called on the current staging buffers, takes the invariant and the inputs' blocks to the
    invariant, the inputs' blocks and the two output tiles. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KReg1.lean ====
/- # Finishing the first layer and projecting again, as a pipelined region

Fifty row tiles of 2000 nodes. At a tile the body reads the tile's rows of the summed messages, of the first projection
and of the two-column scale table, the bias row and the second weight matrix (both whole, the same at every tile), forms
`max (agg · dis + h · dis² + b) 0`, multiplies by the weights, and writes the product rows and the same rows scaled by
`dis`. Nothing is carried between tiles. Stated at a parameter `V`: the buffers' contents when the region is entered. -/
import proofs.«410742_j70944269795814_3_alg».proof.Proof.Gen.Kernel.Launch
import proofs.«410742_j70944269795814_3_alg».proof.Proof.Gen.Kernel.Skeleton
import proofs.«410742_j70944269795814_3_alg».proof.Proof.Gen.Kernel.Points
import Idealize.ShloMosaic.Lib.Pipeline.FrameBody
import Idealize.ShloMosaic.Lib.Pipeline.Value
import proofs.«410742_j70944269795814_3_alg».proof.Proof.LibWholeReload
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1O : Rect S2000x32 := Rect.unit (s := S2000x32) ![0, 0] S2000x32.size inb_S2000x32_S2000x32_0_0
abbrev r1D : Rect S2000x2 := Rect.unit (s := S2000x2) ![0, 0] S2000x2.size inb_S2000x2_S2000x2_0_0
abbrev r1B : Rect S1x32 := Rect.unit (s := S1x32) ![0, 0] S1x32.size inb_S1x32_S1x32_0_0
abbrev r1W : Rect S32x32 := Rect.unit (s := S32x32) ![0, 0] S32x32.size inb_S32x32_S32x32_0_0

/-- The projected tile of the second layer: one whole-tile store. The arguments are the blocks of windows 0 to 4:
    summed messages, first projection, scale table, bias row, weights. -/
def out1_5 (x0 x1 : Vec F S2000x32 .f32) (x2 : Vec F S2000x2 .f32) (x3 : Vec F S1x32 .f32) (x4 : Vec F S32x32 .f32) : Vec F S2000x32 .f32 :=
  View.canon [⟨r1O, k1_pay3 (View.ld x2 r1D) (View.ld x0 r1O) (View.ld x1 r1O) (View.ld x3 r1B) (View.ld x4 r1W)⟩]

/-- The same rows scaled by the first column of the scale tile: one whole-tile store. -/
def out1_6 (x0 x1 : Vec F S2000x32 .f32) (x2 : Vec F S2000x2 .f32) (x3 : Vec F S1x32 .f32) (x4 : Vec F S32x32 .f32) : Vec F S2000x32 .f32 :=
  View.canon [⟨r1O, k1_pay4 (View.ld x2 r1D) (View.ld x0 r1O) (View.ld x1 r1O) (View.ld x3 r1B) (View.ld x4 r1W)⟩]

/-- A whole-tile store read back is its payload, and a whole-tile load is the tile. -/
theorem out1_5_eq (x0 x1 : Vec F S2000x32 .f32) (x2 : Vec F S2000x2 .f32) (x3 : Vec F S1x32 .f32) (x4 : Vec F S32x32 .f32) :
    out1_5 x0 x1 x2 x3 x4 = k1_pay3 x2 x0 x1 x3 x4 := by
  unfold out1_5
  rw [View.canon_unit_zero (S := S2000x32) View.zeros2, View.ld_unit_zero (S := S2000x2) View.zeros2,
    View.ld_unit_zero (S := S2000x32) View.zeros2 _ x0, View.ld_unit_zero (S := S2000x32) View.zeros2 _ x1,
    View.ld_unit_zero (S := S1x32) View.zeros2, View.ld_unit_zero (S := S32x32) View.zeros2]
theorem out1_6_eq (x0 x1 : Vec F S2000x32 .f32) (x2 : Vec F S2000x2 .f32) (x3 : Vec F S1x32 .f32) (x4 : Vec F S32x32 .f32) :
    out1_6 x0 x1 x2 x3 x4 = k1_pay4 x2 x0 x1 x3 x4 := by
  unfold out1_6
  rw [View.canon_unit_zero (S := S2000x32) View.zeros2, View.ld_unit_zero (S := S2000x2) View.zeros2,
    View.ld_unit_zero (S := S2000x32) View.zeros2 _ x0, View.ld_unit_zero (S := S2000x32) View.zeros2 _ x1,
    View.ld_unit_zero (S := S1x32) View.zeros2, View.ld_unit_zero (S := S32x32) View.zeros2]

/-! ## An input's staging buffer holds its block

An input window's current buffer holds the window's block at every tile, whether the tile fetched it or not: a tile
that does not fetch has the block index of the tile before it, and the body leaves an input's buffer as it found it.
The bias row and the weight matrix are fetched at the first tile only; their block index never moves. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

/-- One store through the whole tile covers the tile. -/
theorem cover1_O (p0 : Vec F S2000x32 .f32) (y : S2000x32.Idx) :
    ∃ pc ∈ ([⟨r1O, p0⟩] : List (View.Piece (Elt F) S2000x32 .f32)), y ∈ pc.1.set :=
  View.cover_of_tiled [⟨r1O, p0⟩] S2000x32.size (by rfl) y

set_option maxHeartbeats 1000000 in
/-- The body on whole staging buffers, the five inputs' at contents `x0 … x4` and the two outputs' at anything, runs to
    the continuation holding the inputs' as they were, the first output's at the projected tile and the second's at the
    scaled tile. Each output buffer is read once before it is stored into; the value read is not used. -/
theorem sound_kernel1 (c : Dev nD) (E : Set ℕ) (i : grid1.Coords)
    (arg1 : Memref sig .tc .vmem S2000x32 .f32) (harg1 : arg1.IsWhole)
    (arg2 : Memref sig .tc .vmem S2000x32 .f32) (harg2 : arg2.IsWhole)
    (arg3 : Memref sig .tc .vmem S2000x2 .f32) (harg3 : arg3.IsWhole)
    (arg4 : Memref sig .tc .vmem S1x32 .f32) (harg4 : arg4.IsWhole)
    (arg5 : Memref sig .tc .vmem S32x32 .f32) (harg5 : arg5.IsWhole)
    (arg6 : Memref sig .tc .vmem S2000x32 .f32) (harg6 : arg6.IsWhole)
    (arg7 : Memref sig .tc .vmem S2000x32 .f32) (harg7 : arg7.IsWhole)
    (x0 x1 : Vec F S2000x32 .f32) (x2 : Vec F S2000x2 .f32) (x3 : Vec F S1x32 .f32) (x4 : Vec F S32x32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (out1_6 x0 x1 x2 x3 x4)) -∗ K ⟨⟩))
      ⊢ wp frame (wpE (defs₀ (F := F)) Variants.none c none) E
          (cc1__finalize_dense_kernel i arg1 harg1 arg2 harg2 arg3 harg3 arg4 harg4 arg5 harg5 arg6 harg6 arg7 harg7) K := by
  simp only [cc1__finalize_dense_kernel_eq_skeleton]; unfold cc1__finalize_dense_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_O _)
  iexists _; isplitr
  swap; · iexact H6
  ipureintro
  exact View.read_writes_eq_canon _ _ _ (cover1_O _)

/-- The arrays as the region finds them; after the body each input's buffer still at its block, the two outputs' at the
    projected and the scaled tile; between tiles only the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) := by dsimp only [dat1]

/-- Each input's current staging buffer holds its block at every tile. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any tile: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- At every tile the body, called on the current staging buffers, takes the invariant and the inputs' blocks to the
    invariant, the inputs' blocks and the two output tiles. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KReg2Defs.lean ====
/- # Finishing the second layer and pooling over graphs: what the accumulators hold tile by tile

Fifty row tiles of 2000 nodes, taken in order. Two accumulators live beside the tiles and are carried from one tile to the
next: per graph the sum of its nodes' output rows (512 × 32) and the number of its nodes (512 × 1). At the first tile both
are reset to zero; at every tile the tile's rows `max (agg · dis + h · dis² + b) 0` are added into the first through the
tile's 0/1 membership matrix and the matrix's row sums into the second; at the last tile the sums are divided by
`max count 1`, contracted with the head's weights, the head's bias is added, and that column is the result.
Stated at a parameter `V`: the buffers' contents when the region is entered. -/
import proofs.«410742_j70944269795814_3_alg».proof.Proof.Gen.Kernel.Launch
import proofs.«410742_j70944269795814_3_alg».proof.Proof.Gen.Kernel.Skeleton
import proofs.«410742_j70944269795814_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. Windows 0 to 6: summed messages, second
    projection, scale table, bias row, graph words, head weights, head bias. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after tile `n`: the sums over what tile `n - 1` left (zeros before the first tile), the counts
    likewise. -/
def acc2 (c : Dev nD) : (n : ℕ) → n < cfg2.N → Vec F S512x32 .f32 × Vec F S512x1 .f32
  | 0, hn =>
    (k2_pay1 (k2_pay8 (iblk2 V c 2 ⟨0, hn⟩) (iblk2 V c 0 ⟨0, hn⟩) (iblk2 V c 1 ⟨0, hn⟩) (iblk2 V c 3 ⟨0, hn⟩) (iblk2 V c 4 ⟨0, hn⟩) (k2_pay4 (F := F))),
     k2_pay2 (k2_pay7 (iblk2 V c 4 ⟨0, hn⟩)) (k2_pay5 (F := F)))
  | n + 1, hn =>
    (k2_pay1 (k2_pay8 (iblk2 V c 2 ⟨n + 1, hn⟩) (iblk2 V c 0 ⟨n + 1, hn⟩) (iblk2 V c 1 ⟨n + 1, hn⟩) (iblk2 V c 3 ⟨n + 1, hn⟩) (iblk2 V c 4 ⟨n + 1, hn⟩)
        (acc2 c n (Nat.lt_of_succ_lt hn)).1),
     k2_pay2 (k2_pay7 (iblk2 V c 4 ⟨n + 1, hn⟩)) (acc2 c n (Nat.lt_of_succ_lt hn)).2)

/-- The column the body would store at tile `t` from the accumulators as that tile leaves them (it stores it at the
    last tile only, the one tile whose output is written back). -/
def out2_7 (c : Dev nD) (t : Fin cfg2.N) : Vec F S512x1 .f32 :=
  k2_pay3 (acc2 V c t.val t.isLt).1 (acc2 V c t.val t.isLt).2 (iblk2 V c 5 t) (iblk2 V c 6 t)

end Cert.Kernel.Hand

end
-- ==== Proof.KReg2.lean ====
/- # Finishing the second layer and pooling over graphs, as a pipelined region

The proof data of the third region: between tiles the invariant holds the two accumulators at what the tile before
left (`acc2`), the other scoped buffers and the generator register; the output column is handed back untouched at
every tile but the last, where it is stored and written back. -/
import proofs.«410742_j70944269795814_3_alg».proof.Proof.Gen.Kernel.Launch
import proofs.«410742_j70944269795814_3_alg».proof.Proof.Gen.Kernel.Skeleton
import proofs.«410742_j70944269795814_3_alg».proof.Proof.Gen.Kernel.Points
import proofs.«410742_j70944269795814_3_alg».proof.Proof.KReg2Defs
import proofs.«410742_j70944269795814_3_alg».proof.Proof.LibWholeReload
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two accumulators: whole scoped buffers of the kernel's own, passed beside the windows. -/
abbrev scM2_0 : Memref sig .tc .vmem S512x32 .f32 := Memref.whole cc2_scratch0
abbrev scM2_1 : Memref sig .tc .vmem S512x1 .f32 := Memref.whole cc2_scratch1

/-! ## A chain of separate resources around one more

`P₁ ∗ (P₂ ∗ … ∗ (Pₙ ∗ X))`: monotone in `X`, and `X` can be split off and put back. -/

/-- The resources of `L`, in order, then `X`. -/
def sepInto2 (L : List (sProp 𝕄)) (X : sProp 𝕄) : sProp 𝕄 := L.foldr (fun P Q => iprop(P ∗ Q)) X

theorem sepInto2_nil (X : sProp 𝕄) : sepInto2 (F := F) [] X = X := rfl
theorem sepInto2_cons (P : sProp 𝕄) (L : List (sProp 𝕄)) (X : sProp 𝕄) : sepInto2 (P :: L) X = iprop(P ∗ sepInto2 L X) := rfl

theorem sepInto2_mono (L : List (sProp 𝕄)) {X Y : sProp 𝕄} (h : X ⊢ Y) : sepInto2 L X ⊢ sepInto2 L Y := by
  induction L with
  | nil => exact h
  | cons P L ih =>
    rw [sepInto2_cons, sepInto2_cons]
    iintro ⟨HP, HL⟩
    isplitl [HP]; · iexact HP
    iapply ih; iexact HL

/-- The last resource split off the chain. -/
theorem sepInto2_out (L : List (sProp 𝕄)) (X : sProp 𝕄) : sepInto2 L X ⊢ iprop(sepInto2 L iprop(emp) ∗ X) := by
  induction L with
  | nil =>
    rw [sepInto2_nil, sepInto2_nil]
    iintro HX
    isplitr; · iempintro
    iexact HX
  | cons P L ih =>
    rw [sepInto2_cons, sepInto2_cons]
    iintro ⟨HP, HL⟩
    iapply (show iprop(P ∗ (sepInto2 L iprop(emp) ∗ X)) ⊢ iprop((P ∗ sepInto2 L iprop(emp)) ∗ X) from by
      iintro ⟨HP, HA, HX⟩
      isplitr [HX]
      · isplitl [HP]; · iexact HP
        iexact HA
      iexact HX)
    isplitl [HP]; · iexact HP
    iapply ih; iexact HL

/-- And put back. -/
theorem sepInto2_in (L : List (sProp 𝕄)) (X : sProp 𝕄) : iprop(sepInto2 L iprop(emp) ∗ X) ⊢ sepInto2 L X := by
  induction L with
  | nil =>
    rw [sepInto2_nil, sepInto2_nil]
    iintro ⟨-, HX⟩
    iexact HX
  | cons P L ih =>
    rw [sepInto2_cons, sepInto2_cons]
    iintro ⟨⟨HP, HA⟩, HX⟩
    isplitl [HP]; · iexact HP
    iapply ih
    isplitl [HA]; · iexact HA
    iexact HX

/-! ## The invariant -/

/-- The scoped buffers of core `c` that are neither staging buffers of this region nor its accumulators: the staging buffers of the two
    earlier regions, each whole at some contents. -/
def others2 (c : Dev nD) : List (sProp 𝕄) :=
  [
    iprop(∃ f : Buf (Elt F) ((c : Thread nD τ).loc cc0_stg0_0), ((c : Thread nD τ).loc cc0_stg0_0) ↦{fullShare} f),
    iprop(∃ f : Buf (Elt F) ((c : Thread nD τ).loc cc0_stg0_1), ((c : Thread nD τ).loc cc0_stg0_1) ↦{fullShare} f),
    iprop(∃ f : Buf (Elt F) ((c : Thread nD τ).loc cc0_stg1_0), ((c : Thread nD τ).loc cc0_stg1_0) ↦{fullShare} f),
    iprop(∃ f : Buf (Elt F) ((c : Thread nD τ).loc cc0_stg2_0), ((c : Thread nD τ).loc cc0_stg2_0) ↦{fullShare} f),
    iprop(∃ f : Buf (Elt F) ((c : Thread nD τ).loc cc0_stg2_1), ((c : Thread nD τ).loc cc0_stg2_1) ↦{fullShare} f),
    iprop(∃ f : Buf (Elt F) ((c : Thread nD τ).loc cc0_stg3_0), ((c : Thread nD τ).loc cc0_stg3_0) ↦{fullShare} f),
    iprop(∃ f : Buf (Elt F) ((c : Thread nD τ).loc cc0_stg3_1), ((c : Thread nD τ).loc cc0_stg3_1) ↦{fullShare} f),
    iprop(∃ f : Buf (Elt F) ((c : Thread nD τ).loc cc0_stg4_0), ((c : Thread nD τ).loc cc0_stg4_0) ↦{fullShare} f),
    iprop(∃ f : Buf (Elt F) ((c : Thread nD τ).loc cc0_stg4_1), ((c : Thread nD τ).loc cc0_stg4_1) ↦{fullShare} f),
    iprop(∃ f : Buf (Elt F) ((c : Thread nD τ).loc cc1_stg0_0), ((c : Thread nD τ).loc cc1_stg0_0) ↦{fullShare} f),
    iprop(∃ f : Buf (Elt F) ((c : Thread nD τ).loc cc1_stg0_1), ((c : Thread nD τ).loc cc1_stg0_1) ↦{fullShare} f),
    iprop(∃ f : Buf (Elt F) ((c : Thread nD τ).loc cc1_stg1_0), ((c : Thread nD τ).loc cc1_stg1_0) ↦{fullShare} f),
    iprop(∃ f : Buf (Elt F) ((c : Thread nD τ).loc cc1_stg1_1), ((c : Thread nD τ).loc cc1_stg1_1) ↦{fullShare} f),
    iprop(∃ f : Buf (Elt F) ((c : Thread nD τ).loc cc1_stg2_0), ((c : Thread nD τ).loc cc1_stg2_0) ↦{fullShare} f),
    iprop(∃ f : Buf (Elt F) ((c : Thread nD τ).loc cc1_stg2_1), ((c : Thread nD τ).loc cc1_stg2_1) ↦{fullShare} f),
    iprop(∃ f : Buf (Elt F) ((c : Thread nD τ).loc cc1_stg3_0), ((c : Thread nD τ).loc cc1_stg3_0) ↦{fullShare} f),
    iprop(∃ f : Buf (Elt F) ((c : Thread nD τ).loc cc1_stg4_0), ((c : Thread nD τ).loc cc1_stg4_0) ↦{fullShare} f),
    iprop(∃ f : Buf (Elt F) ((c : Thread nD τ).loc cc1_stg5_0), ((c : Thread nD τ).loc cc1_stg5_0) ↦{fullShare} f),
    iprop(∃ f : Buf (Elt F) ((c : Thread nD τ).loc cc1_stg5_1), ((c : Thread nD τ).loc cc1_stg5_1) ↦{fullShare} f),
    iprop(∃ f : Buf (Elt F) ((c : Thread nD τ).loc cc1_stg6_0), ((c : Thread nD τ).loc cc1_stg6_0) ↦{fullShare} f),
    iprop(∃ f : Buf (Elt F) ((c : Thread nD τ).loc cc1_stg6_1), ((c : Thread nD τ).loc cc1_stg6_1) ↦{fullShare} f) ]

/-- The region's scoped rest with the accumulators' part left open: the earlier regions' staging buffers, then `X`. -/
def rest2With (c : Dev nD) (X : sProp 𝕄) : sProp 𝕄 := sepInto2 (others2 (F := F) c) X

theorem rest2With_mono (c : Dev nD) {X Y : sProp 𝕄} (h : X ⊢ Y) : rest2With c X ⊢ rest2With c Y := sepInto2_mono _ h

/-- The invariant before tile `n`: before the first tile the scoped rest at anything and the generator register; later the
    scoped rest with the two accumulators at what tile `n - 1` left (the other buffers at anything), and the generator register. -/
def PhiS2 (c : Dev nD) : (n : ℕ) → n ≤ cfg2.N → sProp 𝕄
  | 0, _ => Pipeline.ΦA spec2 c
  | n + 1, hn => iprop(rest2With c iprop(owns (c : Thread nD τ) scM2_0 fullShare (acc2 V c n hn).1 ∗ owns (c : Thread nD τ) scM2_1 fullShare (acc2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2With c iprop(owns (c : Thread nD τ) scM2_0 fullShare (acc2 V c n hn).1 ∗ owns (c : Thread nD τ) scM2_1 fullShare (acc2 V c n hn).2) ∗ (∃ r, prngReg c r)) := rfl

/-- Before a tile that is not the first: the two accumulators at what the tile before left. -/
theorem PhiS2_pos (c : Dev nD) (n : ℕ) (h : n ≤ cfg2.N) (hz : n ≠ 0) :
    PhiS2 V c n h = iprop(rest2With c iprop(owns (c : Thread nD τ) scM2_0 fullShare (acc2 V c (n - 1) (by omega)).1 ∗ owns (c : Thread nD τ) scM2_1 fullShare (acc2 V c (n - 1) (by omega)).2) ∗ (∃ r, prngReg c r)) := by
  cases n with
  | zero => exact absurd rfl hz
  | succ n => rfl

/-- The class's invariant with the two accumulators as memrefs owned at some contents: the scoped rest enumerated, the last two of
    its buffers read as the whole memrefs they are. -/
theorem PhiA2_eq (c : Dev nD) :
    (Pipeline.ΦA spec2 c : sProp 𝕄)
      = iprop(rest2With c iprop((∃ d, owns (c : Thread nD τ) scM2_0 fullShare d) ∗ (∃ d, owns (c : Thread nD τ) scM2_1 fullShare d)) ∗ (∃ r, prngReg c r)) := by
  unfold Pipeline.ΦA rest2With others2 sepInto2; rw [scopedRest2_eq]; simp only [scM2_0, scM2_1, owns_whole, List.foldr_cons, List.foldr_nil]; try rfl

/-- The accumulators' part split off the scoped rest, and put back. -/
theorem rest2With_out (c : Dev nD) (X : sProp 𝕄) : rest2With c X ⊢ iprop(rest2With c iprop(emp) ∗ X) := sepInto2_out _ X
theorem rest2With_in (c : Dev nD) (X : sProp 𝕄) : iprop(rest2With c iprop(emp) ∗ X) ⊢ rest2With c X := sepInto2_in _ X

/-- The arrays as the region finds them; after the body each input's buffer still at its block, the output's at the
    column of `out2_7`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = out2_7 V c t := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]

/-! ## Where the body's two conditionals are taken, and where the output is idle -/

/-- The condition of the body's first conditional (the accumulators' reset), from the grid coordinate. -/
abbrev cond2_0 (i : grid2.Coords) : Prop := (Scalar.cmpi .ne (Scalar.extui (Scalar.cmpi .eq (BitVec.ofNat 32 (i 0).val) 0#32)) 0#32) = 1#1
/-- It holds at the first tile only. -/
theorem hcond2_0 : ∀ t : Fin cfg2.N, cond2_0 (grid2.coords t) ↔ t.val = 0 :=
  (by decide +kernel : ∀ t : Fin grid2.N, cond2_0 (grid2.coords t) ↔ t.val = 0)

/-- The condition of the body's last conditional (the division and the head). -/
abbrev cond2_1 (i : grid2.Coords) : Prop := k2_cond2 i = 1#1
/-- It holds at the last tile only. -/
theorem hcond2_1 : ∀ t : Fin cfg2.N, cond2_1 (grid2.coords t) ↔ t.val = 49 :=
  (by decide +kernel : ∀ t : Fin grid2.N, cond2_1 (grid2.coords t) ↔ t.val = 49)

/-- No input is ever idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- Off the last tile the output is idle and not written back; at the last tile it is live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## What the body finds in the inputs' buffers -/

/-- Each input's current staging buffer holds its block at every tile, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

/-- Each window's current staging memref at tile `t`, as the region passes it, and its wholeness. -/
abbrev ms2_0 (t : Fin cfg2.N) : Memref sig .tc .vmem S2000x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x2 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x1 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S32x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x1 .f32 := win2_7.stage (cfg2.slots t 7)
abbrev hs2_7 (t : Fin cfg2.N) : (ms2_7 t).IsWhole := hstage2_7 ((cfg2.slots t 7).cast nbuf2_7)

/-! ## The accumulators, tile by tile -/

/-- At the first tile: the tile's contribution over zeros. -/
theorem acc2_first (c : Dev nD) (t : Fin cfg2.N) (h0 : t.val = 0) :
    acc2 V c t.val t.isLt = (k2_pay1 (k2_pay8 (iblk2 V c 2 t) (iblk2 V c 0 t) (iblk2 V c 1 t) (iblk2 V c 3 t) (iblk2 V c 4 t) (k2_pay4 (F := F))), k2_pay2 (k2_pay7 (iblk2 V c 4 t)) (k2_pay5 (F := F))) := by
  obtain ⟨n, hn⟩ := t
  cases n with
  | zero => rfl
  | succ n => exact absurd h0 (Nat.succ_ne_zero n)

/-- At a later tile: the tile's contribution over what the tile before left. -/
theorem acc2_pos (c : Dev nD) (t : Fin cfg2.N) (h0 : t.val ≠ 0) :
    acc2 V c t.val t.isLt = (k2_pay1 (k2_pay8 (iblk2 V c 2 t) (iblk2 V c 0 t) (iblk2 V c 1 t) (iblk2 V c 3 t) (iblk2 V c 4 t) (acc2 V c (t.val - 1) (Nat.lt_of_le_of_lt (Nat.sub_le _ _) t.isLt)).1),
      k2_pay2 (k2_pay7 (iblk2 V c 4 t)) (acc2 V c (t.val - 1) (Nat.lt_of_le_of_lt (Nat.sub_le _ _) t.isLt)).2) := by
  obtain ⟨n, hn⟩ := t
  cases n with
  | zero => exact absurd rfl h0
  | succ n => rfl

/-! ## Whole stores and whole loads -/

/-- A buffer whose last store was of the whole buffer reads as that store's payload, whatever it held and whatever was stored before. -/
theorem read_writes_cons_whole2 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans (View.canon_cons_unit_zero h inb w L)
set_option maxHeartbeats 1000000 in
/-- A tile that is neither the first nor the last: on whole memrefs, the inputs' at their blocks, the output's at anything it is handed, the
    accumulators at what the tile before left, the body runs to the continuation holding the inputs' and the output's as they were and the
    accumulators at the tile's rows pooled into the sums and the tile's membership counts added to the counts. -/
theorem run2_mid (c : Dev nD) (E : Set ℕ) (i : grid2.Coords) (hc0 : ¬cond2_0 i) (hc1 : ¬cond2_1 i)
    (arg1 : Memref sig .tc .vmem S2000x32 .f32) (harg1 : arg1.IsWhole) (arg2 : Memref sig .tc .vmem S2000x32 .f32) (harg2 : arg2.IsWhole) (arg3 : Memref sig .tc .vmem S2000x2 .f32) (harg3 : arg3.IsWhole) (arg4 : Memref sig .tc .vmem S1x32 .f32) (harg4 : arg4.IsWhole) (arg5 : Memref sig .tc .vmem S2000x1 .i32) (harg5 : arg5.IsWhole) (arg6 : Memref sig .tc .vmem S32x1 .f32) (harg6 : arg6.IsWhole) (arg7 : Memref sig .tc .vmem S1x1 .f32) (harg7 : arg7.IsWhole) (arg8 : Memref sig .tc .vmem S512x1 .f32) (harg8 : arg8.IsWhole) (arg9 : Memref sig .tc .vmem S512x32 .f32) (harg9 : arg9.IsWhole) (arg10 : Memref sig .tc .vmem S512x1 .f32) (harg10 : arg10.IsWhole)
    (x0 : Vec F S2000x32 .f32) (x1 : Vec F S2000x32 .f32) (x2 : Vec F S2000x2 .f32) (x3 : Vec F S1x32 .f32) (x4 : Vec F S2000x1 .i32) (x5 : Vec F S32x1 .f32) (x6 : Vec F S1x1 .f32) (x7 : Vec F S512x1 .f32) (xs0 : Vec F S512x32 .f32) (xs1 : Vec F S512x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare xs0
        ∗ owns (c : Thread nD τ) arg10 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (k2_pay1 (k2_pay8 x2 x0 x1 x3 x4 xs0))
            ∗ owns (c : Thread nD τ) arg10 fullShare (k2_pay2 (k2_pay7 x4) xs1)) -∗ K ⟨⟩))
      ⊢ wp frame (wpE (defs₀ (F := F)) Variants.none c none) E (cc2__finalize_pool_kernel i arg1 harg1 arg2 harg2 arg3 harg3 arg4 harg4 arg5 harg5 arg6 harg6 arg7 harg7 arg8 harg8 arg9 harg9 arg10 harg10) K := by
  simp only [cc2__finalize_pool_kernel_eq_skeleton]; unfold cc2__finalize_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  subst hf0 hf1 hf2 hf3 hf4 hf5 hf6 hf7 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS0]
  · iexists _; isplitr
    swap; · iexact HS0
    ipureintro
    sl_unfold_run_names
    rw [read_writes_cons_whole2 (S := S512x32) _ _ View.zeros2]
    try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
  iexists _; isplitr
  swap; · iexact HS1
  ipureintro
  sl_unfold_run_names
  rw [read_writes_cons_whole2 (S := S512x1) _ _ View.zeros2]
  try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
set_option maxHeartbeats 1000000 in
/-- The first tile: the accumulators, held at anything, are first stored whole with zeros; the rest is the middle tile's run over those zeros. -/
theorem run2_first (c : Dev nD) (E : Set ℕ) (i : grid2.Coords) (hc0 : cond2_0 i) (hc1 : ¬cond2_1 i)
    (arg1 : Memref sig .tc .vmem S2000x32 .f32) (harg1 : arg1.IsWhole) (arg2 : Memref sig .tc .vmem S2000x32 .f32) (harg2 : arg2.IsWhole) (arg3 : Memref sig .tc .vmem S2000x2 .f32) (harg3 : arg3.IsWhole) (arg4 : Memref sig .tc .vmem S1x32 .f32) (harg4 : arg4.IsWhole) (arg5 : Memref sig .tc .vmem S2000x1 .i32) (harg5 : arg5.IsWhole) (arg6 : Memref sig .tc .vmem S32x1 .f32) (harg6 : arg6.IsWhole) (arg7 : Memref sig .tc .vmem S1x1 .f32) (harg7 : arg7.IsWhole) (arg8 : Memref sig .tc .vmem S512x1 .f32) (harg8 : arg8.IsWhole) (arg9 : Memref sig .tc .vmem S512x32 .f32) (harg9 : arg9.IsWhole) (arg10 : Memref sig .tc .vmem S512x1 .f32) (harg10 : arg10.IsWhole)
    (x0 : Vec F S2000x32 .f32) (x1 : Vec F S2000x32 .f32) (x2 : Vec F S2000x2 .f32) (x3 : Vec F S1x32 .f32) (x4 : Vec F S2000x1 .i32) (x5 : Vec F S32x1 .f32) (x6 : Vec F S1x1 .f32) (x7 : Vec F S512x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (k2_pay1 (k2_pay8 x2 x0 x1 x3 x4 (k2_pay4 (F := F))))
            ∗ owns (c : Thread nD τ) arg10 fullShare (k2_pay2 (k2_pay7 x4) (k2_pay5 (F := F)))) -∗ K ⟨⟩))
      ⊢ wp frame (wpE (defs₀ (F := F)) Variants.none c none) E (cc2__finalize_pool_kernel i arg1 harg1 arg2 harg2 arg3 harg3 arg4 harg4 arg5 harg5 arg6 harg6 arg7 harg7 arg8 harg8 arg9 harg9 arg10 harg10) K := by
  simp only [cc2__finalize_pool_kernel_eq_skeleton]; unfold cc2__finalize_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS0]
  · iexists _; isplitr
    swap; · iexact HS0
    ipureintro
    sl_unfold_run_names
    rw [read_writes_cons_whole2 (S := S512x32) _ _ View.zeros2]
    try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
  iexists _; isplitr
  swap; · iexact HS1
  ipureintro
  sl_unfold_run_names
  rw [read_writes_cons_whole2 (S := S512x1) _ _ View.zeros2]
  try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
set_option maxHeartbeats 1000000 in
/-- The last tile: after the middle tile's update the accumulators are read back, the sums divided by `max count 1`, contracted with the head's
    weights and the head's bias added; that column is stored whole into the output's buffer, which is held at anything before. -/
theorem run2_last (c : Dev nD) (E : Set ℕ) (i : grid2.Coords) (hc0 : ¬cond2_0 i) (hc1 : cond2_1 i)
    (arg1 : Memref sig .tc .vmem S2000x32 .f32) (harg1 : arg1.IsWhole) (arg2 : Memref sig .tc .vmem S2000x32 .f32) (harg2 : arg2.IsWhole) (arg3 : Memref sig .tc .vmem S2000x2 .f32) (harg3 : arg3.IsWhole) (arg4 : Memref sig .tc .vmem S1x32 .f32) (harg4 : arg4.IsWhole) (arg5 : Memref sig .tc .vmem S2000x1 .i32) (harg5 : arg5.IsWhole) (arg6 : Memref sig .tc .vmem S32x1 .f32) (harg6 : arg6.IsWhole) (arg7 : Memref sig .tc .vmem S1x1 .f32) (harg7 : arg7.IsWhole) (arg8 : Memref sig .tc .vmem S512x1 .f32) (harg8 : arg8.IsWhole) (arg9 : Memref sig .tc .vmem S512x32 .f32) (harg9 : arg9.IsWhole) (arg10 : Memref sig .tc .vmem S512x1 .f32) (harg10 : arg10.IsWhole)
    (x0 : Vec F S2000x32 .f32) (x1 : Vec F S2000x32 .f32) (x2 : Vec F S2000x2 .f32) (x3 : Vec F S1x32 .f32) (x4 : Vec F S2000x1 .i32) (x5 : Vec F S32x1 .f32) (x6 : Vec F S1x1 .f32) (xs0 : Vec F S512x32 .f32) (xs1 : Vec F S512x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ owns (c : Thread nD τ) arg9 fullShare xs0
        ∗ owns (c : Thread nD τ) arg10 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (k2_pay3 (k2_pay1 (k2_pay8 x2 x0 x1 x3 x4 xs0)) (k2_pay2 (k2_pay7 x4) xs1) x5 x6)
            ∗ owns (c : Thread nD τ) arg9 fullShare (k2_pay1 (k2_pay8 x2 x0 x1 x3 x4 xs0))
            ∗ owns (c : Thread nD τ) arg10 fullShare (k2_pay2 (k2_pay7 x4) xs1)) -∗ K ⟨⟩))
      ⊢ wp frame (wpE (defs₀ (F := F)) Variants.none c none) E (cc2__finalize_pool_kernel i arg1 harg1 arg2 harg2 arg3 harg3 arg4 harg4 arg5 harg5 arg6 harg6 arg7 harg7 arg8 harg8 arg9 harg9 arg10 harg10) K := by
  simp only [cc2__finalize_pool_kernel_eq_skeleton]; unfold cc2__finalize_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  subst hf0 hf1 hf2 hf3 hf4 hf5 hf6 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [read_writes_cons_whole2 (S := S512x1) _ _ View.zeros2]
    try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
  isplitl [HS0]
  · iexists _; isplitr
    swap; · iexact HS0
    ipureintro
    sl_unfold_run_names
    rw [read_writes_cons_whole2 (S := S512x32) _ _ View.zeros2]
    try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
  iexists _; isplitr
  swap; · iexact HS1
  ipureintro
  sl_unfold_run_names
  rw [read_writes_cons_whole2 (S := S512x1) _ _ View.zeros2]
  try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]

/-! ## The body obligation, at a generic tile -/

/-- What the body is called with at tile `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any tile: the inputs' memrefs hold their blocks; the tile's number says which of the two conditionals is taken, so the
    matching run applies; the invariant hands the body the accumulators at what the tile before left (at anything at the first tile) and the
    other scoped buffers and the generator register untouched, and takes the accumulators back at this tile's contents; the output's buffer
    is handed back as found except at the last tile, where it holds the result column; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare (iblk2 V c 0 t) from by
    unfold Dat.leavesExact; rw [liveAt2_0 t, after2_0]]
  rw [show (dat2 V c).leavesExact 1 t = owns (c : Thread nD τ) (ms2_1 t) fullShare (iblk2 V c 1 t) from by
    unfold Dat.leavesExact; rw [liveAt2_1 t, after2_1]]
  rw [show (dat2 V c).leavesExact 2 t = owns (c : Thread nD τ) (ms2_2 t) fullShare (iblk2 V c 2 t) from by
    unfold Dat.leavesExact; rw [liveAt2_2 t, after2_2]]
  rw [show (dat2 V c).leavesExact 3 t = owns (c : Thread nD τ) (ms2_3 t) fullShare (iblk2 V c 3 t) from by
    unfold Dat.leavesExact; rw [liveAt2_3 t, after2_3]]
  rw [show (dat2 V c).leavesExact 4 t = owns (c : Thread nD τ) (ms2_4 t) fullShare (iblk2 V c 4 t) from by
    unfold Dat.leavesExact; rw [liveAt2_4 t, after2_4]]
  rw [show (dat2 V c).leavesExact 5 t = owns (c : Thread nD τ) (ms2_5 t) fullShare (iblk2 V c 5 t) from by
    unfold Dat.leavesExact; rw [liveAt2_5 t, after2_5]]
  rw [show (dat2 V c).leavesExact 6 t = owns (c : Thread nD τ) (ms2_6 t) fullShare (iblk2 V c 6 t) from by
    unfold Dat.leavesExact; rw [liveAt2_6 t, after2_6]]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1)]
    rw [acc2_first V c t h0]; dsimp only
    rw [PhiS2_castSucc V c t, PhiS2_zero V c _ _ h0, PhiA2_eq]
    iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HR' := (rest2With_out c _) $$ HR
    icases HR' with ⟨HR, ⟨%ds0, HS0⟩, ⟨%ds1, HS1⟩⟩
    iapply (run2_first c Set.univ (grid2.coords t) hc0 hc1 (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _)
      (iblk2 V c 0 t) (iblk2 V c 1 t) (iblk2 V c 2 t) (iblk2 V c 3 t) (iblk2 V c 4 t) (iblk2 V c 5 t) (iblk2 V c 6 t) ((dat2 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    iintro ⟨H0, H1, H2, H3, H4, H5, H6, H7, HS0, HS1⟩
    isplitl [HR HS0 HS1 Hg]
    · isplitl [HR HS0 HS1]
      · iapply (rest2With_in c _)
        isplitl [HR]; · iexact HR
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond2_0 (grid2.coords t) := fun h => h0 ((hcond2_0 t).mp h)
    by_cases h1 : t.val = 49
    · have hc1 : cond2_1 (grid2.coords t) := (hcond2_1 t).mpr h1
      rw [show (dat2 V c).leavesExact 7 t = owns (c : Thread nD τ) (ms2_7 t) fullShare ((dat2 V c).after 7 t) from by
        unfold Dat.leavesExact; rw [liveAt2_7 t hc1], after2_7]
      unfold out2_7
      rw [acc2_pos V c t h0]; dsimp only
      rw [PhiS2_castSucc V c t, PhiS2_pos V c _ _ h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HR' := (rest2With_out c _) $$ HR
      icases HR' with ⟨HR, HS0, HS1⟩
      iapply (run2_last c Set.univ (grid2.coords t) hc0 hc1 (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _)
        (iblk2 V c 0 t) (iblk2 V c 1 t) (iblk2 V c 2 t) (iblk2 V c 3 t) (iblk2 V c 4 t) (iblk2 V c 5 t) (iblk2 V c 6 t) (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HR HS0 HS1 Hg]
      · isplitl [HR HS0 HS1]
        · iapply (rest2With_in c _)
          isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond2_1 (grid2.coords t) := fun h => h1 ((hcond2_1 t).mp h)
      rw [Dat.leavesExact_idle (dat2 V c) 7 t (idleAt2_7 t hc1) (noFlush2_7 t hc1)]
      rw [acc2_pos V c t h0]; dsimp only
      rw [PhiS2_castSucc V c t, PhiS2_pos V c _ _ h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HR' := (rest2With_out c _) $$ HR
      icases HR' with ⟨HR, HS0, HS1⟩
      iapply (run2_mid c Set.univ (grid2.coords t) hc0 hc1 (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _)
        (iblk2 V c 0 t) (iblk2 V c 1 t) (iblk2 V c 2 t) (iblk2 V c 3 t) (iblk2 V c 4 t) (iblk2 V c 5 t) (iblk2 V c 6 t) ((dat2 V c).before 7 t d7) (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HR HS0 HS1 Hg]
      · isplitl [HR HS0 HS1]
        · iapply (rest2With_in c _)
          isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- At every tile the body, called on the current staging buffers and the two accumulators, takes the invariant before
    the tile and the inputs' blocks to the invariant after it, the inputs' blocks, and the output column where the
    tile stores it (handed back as found elsewhere). -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first tile. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any tile the invariant gives the scoped rest back: the accumulators' contents are forgotten. -/
theorem Phi2_out (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨HR, Hg⟩
  isplitl [HR]
  · iapply (rest2With_mono c (show iprop(owns (c : Thread nD τ) scM2_0 fullShare (acc2 V c (t.val - 1) (by omega)).1 ∗ owns (c : Thread nD τ) scM2_1 fullShare (acc2 V c (t.val - 1) (by omega)).2)
        ⊢ iprop((∃ d, owns (c : Thread nD τ) scM2_0 fullShare d) ∗ (∃ d, owns (c : Thread nD τ) scM2_1 fullShare d)) from by
      iintro ⟨H0, H1⟩
      isplitl [H0]; · iexists _; iexact H0
      iexists _; iexact H1))
    iexact HR
  iexact Hg

/-- After the last tile the invariant gives the scoped rest back: the accumulators' contents are forgotten. -/
theorem hout2 (c : Dev nD) : (dat2 V c).Φ (Fin.last cfg2.N) ⊢ (Pipeline.ΦA spec2 c : sProp 𝕄) :=
  Phi2_out V c _ (by rw [Fin.val_last]; have : cfg2.N = 50 := N_2; omega)

end Cert.Kernel.Hand

end
-- ==== Proof.KRun.lean ====
/- # The whole run of the three-region program

The contents of the core's buffers at each boundary of the program — at launch, after the first host stretch, after the
first region, and so on to the return — as a fold from the launch memory: a host stretch applies its operations, a region
leaves its arrays at what its write-backs make of them and every other buffer as it found it. Over these, each region is a
segment entered from one boundary and left at the next, and the launch theorem for a list of segments gives: every weakly
fair execution ends, with every unscoped buffer at the last boundary's contents. -/
import proofs.«410742_j70944269795814_3_alg».proof.Proof.Gen.Kernel.Launch
import proofs.«410742_j70944269795814_3_alg».proof.Proof.Gen.Kernel.Skeleton
import proofs.«410742_j70944269795814_3_alg».proof.Proof.Gen.Kernel.Points
import proofs.«410742_j70944269795814_3_alg».proof.Proof.KReg0
import proofs.«410742_j70944269795814_3_alg».proof.Proof.KReg1
import proofs.«410742_j70944269795814_3_alg».proof.Proof.KReg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the write-backs leave, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its arrays are split
    out of the unscoped buffers and put back at what the write-backs leave; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at what the write-backs leave; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at what the write-backs leave; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 2).pre c (fun _ => fullShare) (adm (F := F) 2).1
          ∗ Pipeline.scopedRest (Pipeline.pin (pcfgs (F := F)) adm 2).spec c) ⊢ (Pipeline.ΦA spec2 c : sProp 𝕄) := by
      unfold Pipeline.ΦA
      iintro ⟨Hp, -, Hr⟩
      isplitl [Hr]; · iexact Hr
      iexact Hp
    exact h1.trans (hin2 (V5 m) c)
  hout c := by
    rw [Pipeline.ownSems0_none]
    have h1 : (Pipeline.ΦA spec2 c : sProp 𝕄) ⊢ iprop((∃ r, prngReg c r) ∗ BI.emp ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (V5 m) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
/-- From any memory with zero counters every weakly fair execution of the program ends, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.Kernel.Hand

end
-- ==== Proof.KKeep.lean ====
/- # A buffer nobody writes keeps its contents; the arguments end as launched

Through the six boundaries of the program a buffer keeps its contents across a host stretch that does not write it and
across a region of which it is no output array. Every argument array is such a buffer at every step, so the last
boundary holds it as launched: with the run's post that is the frame claim. -/
import proofs.«410742_j70944269795814_3_alg».proof.Proof.Gen.Kernel.Launch
import proofs.«410742_j70944269795814_3_alg».proof.Proof.Gen.Kernel.Skeleton
import proofs.«410742_j70944269795814_3_alg».proof.Proof.Gen.Kernel.Points
import proofs.«410742_j70944269795814_3_alg».proof.Proof.KRun
import proofs.«410742_j70944269795814_3_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- A host stretch leaves a buffer it does not write as it found it. -/
theorem keep1 (r : Ref sig .tc) (h : r ∉ hostOps0_W) : W1 m c (Proc.devRef .tc r) = W0 m c (Proc.devRef .tc r) :=
  StableHlo.after_of_writes_sub hostOps0 _ hostOps0_writes h
theorem keep3 (r : Ref sig .tc) (h : r ∉ hostOps1_W) : W3 m c (Proc.devRef .tc r) = W2 m c (Proc.devRef .tc r) :=
  StableHlo.after_of_writes_sub hostOps1 _ hostOps1_writes h
theorem keep5 (r : Ref sig .tc) (h : r ∉ hostOps2_W) : W5 m c (Proc.devRef .tc r) = W4 m c (Proc.devRef .tc r) :=
  StableHlo.after_of_writes_sub hostOps2 _ hostOps2_writes h

/-- Region 0 leaves a buffer that is none of its windows' arrays as it found it, and an input window's array too. -/
theorem keep2 (r : Ref sig .tc) (h : ∀ w, Pipeline.arrRef spec0 w ≠ r) :
    W2 m c (Proc.devRef .tc r) = W1 m c (Proc.devRef .tc r) := W2_of_ne m c r h
theorem keep2_in (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))

/-- Region 1 leaves a buffer that is none of its windows' arrays as it found it, and an input window's array too. -/
theorem keep4 (r : Ref sig .tc) (h : ∀ w, Pipeline.arrRef spec1 w ≠ r) :
    W4 m c (Proc.devRef .tc r) = W3 m c (Proc.devRef .tc r) := W4_of_ne m c r h
theorem keep4_in (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

/-- Region 2 leaves a buffer that is none of its windows' arrays as it found it, and an input window's array too. -/
theorem keep6 (r : Ref sig .tc) (h : ∀ w, Pipeline.arrRef spec2 w ≠ r) :
    W6 m c (Proc.devRef .tc r) = W5 m c (Proc.devRef .tc r) := W6_of_ne m c r h
theorem keep6_in (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hin _).trans (A_eq2 (V5 m) c w))

/-! ## The arguments -/

theorem W6_main_arg0 : W6 m c (Proc.devRef .tc main_arg0) = m ((c : Thread nD τ).loc main_arg0) :=
  (keep6 m c main_arg0 (by decide)).trans <| (keep5 m c main_arg0 (by decide)).trans <| (keep4 m c main_arg0 (by decide)).trans <| (keep3 m c main_arg0 (by decide)).trans <| (keep2_in m c 0 rfl).trans <| (keep1 m c main_arg0 (by decide)).trans rfl
theorem W6_main_arg1 : W6 m c (Proc.devRef .tc main_arg1) = m ((c : Thread nD τ).loc main_arg1) :=
  (keep6 m c main_arg1 (by decide)).trans <| (keep5 m c main_arg1 (by decide)).trans <| (keep4 m c main_arg1 (by decide)).trans <| (keep3 m c main_arg1 (by decide)).trans <| (keep2 m c main_arg1 (by decide)).trans <| (keep1 m c main_arg1 (by decide)).trans rfl
theorem W6_main_arg2 : W6 m c (Proc.devRef .tc main_arg2) = m ((c : Thread nD τ).loc main_arg2) :=
  (keep6 m c main_arg2 (by decide)).trans <| (keep5 m c main_arg2 (by decide)).trans <| (keep4 m c main_arg2 (by decide)).trans <| (keep3 m c main_arg2 (by decide)).trans <| (keep2 m c main_arg2 (by decide)).trans <| (keep1 m c main_arg2 (by decide)).trans rfl
theorem W6_main_arg3 : W6 m c (Proc.devRef .tc main_arg3) = m ((c : Thread nD τ).loc main_arg3) :=
  (keep6 m c main_arg3 (by decide)).trans <| (keep5 m c main_arg3 (by decide)).trans <| (keep4 m c main_arg3 (by decide)).trans <| (keep3 m c main_arg3 (by decide)).trans <| (keep2_in m c 1 rfl).trans <| (keep1 m c main_arg3 (by decide)).trans rfl
theorem W6_main_arg4 : W6 m c (Proc.devRef .tc main_arg4) = m ((c : Thread nD τ).loc main_arg4) :=
  (keep6 m c main_arg4 (by decide)).trans <| (keep5 m c main_arg4 (by decide)).trans <| (keep4 m c main_arg4 (by decide)).trans <| (keep3 m c main_arg4 (by decide)).trans <| (keep2 m c main_arg4 (by decide)).trans <| (keep1 m c main_arg4 (by decide)).trans rfl
theorem W6_main_arg5 : W6 m c (Proc.devRef .tc main_arg5) = m ((c : Thread nD τ).loc main_arg5) :=
  (keep6 m c main_arg5 (by decide)).trans <| (keep5 m c main_arg5 (by decide)).trans <| (keep4_in m c 4 rfl).trans <| (keep3 m c main_arg5 (by decide)).trans <| (keep2 m c main_arg5 (by decide)).trans <| (keep1 m c main_arg5 (by decide)).trans rfl
theorem W6_main_arg6 : W6 m c (Proc.devRef .tc main_arg6) = m ((c : Thread nD τ).loc main_arg6) :=
  (keep6 m c main_arg6 (by decide)).trans <| (keep5 m c main_arg6 (by decide)).trans <| (keep4 m c main_arg6 (by decide)).trans <| (keep3 m c main_arg6 (by decide)).trans <| (keep2 m c main_arg6 (by decide)).trans <| (keep1 m c main_arg6 (by decide)).trans rfl
theorem W6_main_arg7 : W6 m c (Proc.devRef .tc main_arg7) = m ((c : Thread nD τ).loc main_arg7) :=
  (keep6_in m c 5 rfl).trans <| (keep5 m c main_arg7 (by decide)).trans <| (keep4 m c main_arg7 (by decide)).trans <| (keep3 m c main_arg7 (by decide)).trans <| (keep2 m c main_arg7 (by decide)).trans <| (keep1 m c main_arg7 (by decide)).trans rfl
theorem W6_main_arg8 : W6 m c (Proc.devRef .tc main_arg8) = m ((c : Thread nD τ).loc main_arg8) :=
  (keep6 m c main_arg8 (by decide)).trans <| (keep5 m c main_arg8 (by decide)).trans <| (keep4 m c main_arg8 (by decide)).trans <| (keep3 m c main_arg8 (by decide)).trans <| (keep2 m c main_arg8 (by decide)).trans <| (keep1 m c main_arg8 (by decide)).trans rfl

/-- From any memory with zero counters every weakly fair execution of the program ends, nothing faulting, with every
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩)
    (run_all m ρ)

end Cert.Kernel.Hand

end
-- ==== Proof.Reg0.lean ====
/- # The first dense projection as a pipelined region

Fifty row tiles of 2000 nodes. At a tile the body reads the tile's feature rows, the whole weight matrix and the tile's
rows of the two-column scale table, and writes two tiles: the projected rows `x · W`, and the same rows each scaled by the
first entry of its scale row. Nothing is carried from one tile to the next. Everything here is stated at a parameter
`V`, the contents of the core's buffers when the region is entered. -/
import proofs.«410742_j70944269795814_3_alg».proof.Proof.Gen.KernelIdeal.Launch
import proofs.«410742_j70944269795814_3_alg».proof.Proof.Gen.KernelIdeal.Skeleton
import proofs.«410742_j70944269795814_3_alg».proof.Proof.Gen.KernelIdeal.Points
import Idealize.ShloMosaic.Lib.Pipeline.FrameBody
import Idealize.ShloMosaic.Lib.Pipeline.Value
import proofs.«410742_j70944269795814_3_alg».proof.Proof.LibWholeReload
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at tile `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-! ## What the body leaves in the two output tiles -/

abbrev r0X : Rect S2000x128 := Rect.unit (s := S2000x128) ![0, 0] S2000x128.size inb_S2000x128_S2000x128_0_0
abbrev r0W : Rect S128x32 := Rect.unit (s := S128x32) ![0, 0] S128x32.size inb_S128x32_S128x32_0_0
abbrev r0D : Rect S2000x2 := Rect.unit (s := S2000x2) ![0, 0] S2000x2.size inb_S2000x2_S2000x2_0_0
abbrev r0O : Rect S2000x32 := Rect.unit (s := S2000x32) ![0, 0] S2000x32.size inb_S2000x32_S2000x32_0_0

/-- The projected tile: one whole-tile store of the product of the feature tile with the weights. -/
def out0_3 (x0 : Vec F S2000x128 .f32) (x1 : Vec F S128x32 .f32) : Vec F S2000x32 .f32 :=
  View.canon [⟨r0O, k0_pay1 (View.ld x0 r0X) (View.ld x1 r0W)⟩]

/-- The scaled tile: one whole-tile store of the product rows times the first column of the scale tile. -/
def out0_4 (x0 : Vec F S2000x128 .f32) (x1 : Vec F S128x32 .f32) (x2 : Vec F S2000x2 .f32) : Vec F S2000x32 .f32 :=
  View.canon [⟨r0O, k0_pay2 (View.ld x0 r0X) (View.ld x1 r0W) (View.ld x2 r0D)⟩]

/-- A whole-tile store read back is its payload, and a whole-tile load is the tile. -/
theorem out0_3_eq (x0 : Vec F S2000x128 .f32) (x1 : Vec F S128x32 .f32) : out0_3 x0 x1 = k0_pay1 x0 x1 := by
  unfold out0_3
  rw [View.canon_unit_zero (S := S2000x32) View.zeros2, View.ld_unit_zero (S := S2000x128) View.zeros2,
    View.ld_unit_zero (S := S128x32) View.zeros2]
theorem out0_4_eq (x0 : Vec F S2000x128 .f32) (x1 : Vec F S128x32 .f32) (x2 : Vec F S2000x2 .f32) :
    out0_4 x0 x1 x2 = k0_pay2 x0 x1 x2 := by
  unfold out0_4
  rw [View.canon_unit_zero (S := S2000x32) View.zeros2, View.ld_unit_zero (S := S2000x128) View.zeros2,
    View.ld_unit_zero (S := S128x32) View.zeros2, View.ld_unit_zero (S := S2000x2) View.zeros2]

/-! ## An input's staging buffer holds its block

An input window's current buffer holds the window's block at every tile, whether the tile fetched it or not: a tile
that does not fetch has the block index of the tile before it, and the body leaves an input's buffer as it found it. -/

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's triple -/

/-- One store through the whole tile covers the tile. -/
theorem cover0_O (p0 : Vec F S2000x32 .f32) (y : S2000x32.Idx) :
    ∃ pc ∈ ([⟨r0O, p0⟩] : List (View.Piece (Elt F) S2000x32 .f32)), y ∈ pc.1.set :=
  View.cover_of_tiled [⟨r0O, p0⟩] S2000x32.size (by rfl) y

set_option maxHeartbeats 1000000 in
/-- The body on whole staging buffers, the three inputs' at contents `x0 x1 x2` and the two outputs' at anything, runs
    to the continuation holding the inputs' as they were, the first output's at the projected tile and the second's at
    the scaled tile. Each output buffer is read once before it is stored into; the value read is not used. -/
theorem sound_kernel0 (c : Dev nD) (E : Set ℕ) (i : grid0.Coords)
    (arg1 : Memref sig .tc .vmem S2000x128 .f32) (harg1 : arg1.IsWhole)
    (arg2 : Memref sig .tc .vmem S128x32 .f32) (harg2 : arg2.IsWhole)
    (arg3 : Memref sig .tc .vmem S2000x2 .f32) (harg3 : arg3.IsWhole)
    (arg4 : Memref sig .tc .vmem S2000x32 .f32) (harg4 : arg4.IsWhole)
    (arg5 : Memref sig .tc .vmem S2000x32 .f32) (harg5 : arg5.IsWhole)
    (x0 : Vec F S2000x128 .f32) (x1 : Vec F S128x32 .f32) (x2 : Vec F S2000x2 .f32) (K : PUnit → sProp 𝕄) :
    iprop(owns (c : Thread nD τ) arg1 fullShare x0 ∗ owns (c : Thread nD τ) arg2 fullShare x1
        ∗ owns (c : Thread nD τ) arg3 fullShare x2
        ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare x2
            ∗ owns (c : Thread nD τ) arg4 fullShare (out0_3 x0 x1)
            ∗ owns (c : Thread nD τ) arg5 fullShare (out0_4 x0 x1 x2)) -∗ K ⟨⟩))
      ⊢ wp frame (wpE (defs₀ (F := F)) Variants.none c none) E
          (cc0__dense1_kernel i arg1 harg1 arg2 harg2 arg3 harg3 arg4 harg4 arg5 harg5) K := by
  simp only [cc0__dense1_kernel_eq_skeleton]; unfold cc0__dense1_kernel_skel
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    exact View.read_writes_eq_canon _ _ _ (cover0_O _)
  iexists _; isplitr
  swap; · iexact H4
  ipureintro
  exact View.read_writes_eq_canon _ _ _ (cover0_O _)

/-! ## The pipeline's proof data -/

/-- The arrays as the region finds them; after the body at tile `t` each input's buffer still at its block, the two
    outputs' at the projected and the scaled tile; between tiles only the scoped rest and the generator register;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t)
    | ⟨4, _⟩ => out0_4 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) :
    (dat0 V c).after 4 t = out0_4 (iblk0 V c 0 t) (iblk0 V c 1 t) (iblk0 V c 2 t) := by dsimp only [dat0]

/-! ## The body obligation -/

/-- Each input's current staging buffer holds its block at every tile. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-- What the body is called with at tile `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any tile: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- At every tile the body, called on the current staging buffers, takes the invariant and the inputs' blocks to the
    invariant, the inputs' blocks and the two output tiles. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.Reg1.lean ====
/- # Finishing the first layer and projecting again, as a pipelined region

Fifty row tiles of 2000 nodes. At a tile the body reads the tile's rows of the summed messages, of the first projection
and of the two-column scale table, the bias row and the second weight matrix (both whole, the same at every tile), forms
`max (agg · dis + h · dis² + b) 0`, multiplies by the weights, and writes the product rows and the same rows scaled by
`dis`. Nothing is carried between tiles. Stated at a parameter `V`: the buffers' contents when the region is entered. -/
import proofs.«410742_j70944269795814_3_alg».proof.Proof.Gen.KernelIdeal.Launch
import proofs.«410742_j70944269795814_3_alg».proof.Proof.Gen.KernelIdeal.Skeleton
import proofs.«410742_j70944269795814_3_alg».proof.Proof.Gen.KernelIdeal.Points
import Idealize.ShloMosaic.Lib.Pipeline.FrameBody
import Idealize.ShloMosaic.Lib.Pipeline.Value
import proofs.«410742_j70944269795814_3_alg».proof.Proof.LibWholeReload
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1O : Rect S2000x32 := Rect.unit (s := S2000x32) ![0, 0] S2000x32.size inb_S2000x32_S2000x32_0_0
abbrev r1D : Rect S2000x2 := Rect.unit (s := S2000x2) ![0, 0] S2000x2.size inb_S2000x2_S2000x2_0_0
abbrev r1B : Rect S1x32 := Rect.unit (s := S1x32) ![0, 0] S1x32.size inb_S1x32_S1x32_0_0
abbrev r1W : Rect S32x32 := Rect.unit (s := S32x32) ![0, 0] S32x32.size inb_S32x32_S32x32_0_0

/-- The projected tile of the second layer: one whole-tile store. The arguments are the blocks of windows 0 to 4:
    summed messages, first projection, scale table, bias row, weights. -/
def out1_5 (x0 x1 : Vec F S2000x32 .f32) (x2 : Vec F S2000x2 .f32) (x3 : Vec F S1x32 .f32) (x4 : Vec F S32x32 .f32) : Vec F S2000x32 .f32 :=
  View.canon [⟨r1O, k1_pay3 (View.ld x2 r1D) (View.ld x0 r1O) (View.ld x1 r1O) (View.ld x3 r1B) (View.ld x4 r1W)⟩]

/-- The same rows scaled by the first column of the scale tile: one whole-tile store. -/
def out1_6 (x0 x1 : Vec F S2000x32 .f32) (x2 : Vec F S2000x2 .f32) (x3 : Vec F S1x32 .f32) (x4 : Vec F S32x32 .f32) : Vec F S2000x32 .f32 :=
  View.canon [⟨r1O, k1_pay4 (View.ld x2 r1D) (View.ld x0 r1O) (View.ld x1 r1O) (View.ld x3 r1B) (View.ld x4 r1W)⟩]

/-- A whole-tile store read back is its payload, and a whole-tile load is the tile. -/
theorem out1_5_eq (x0 x1 : Vec F S2000x32 .f32) (x2 : Vec F S2000x2 .f32) (x3 : Vec F S1x32 .f32) (x4 : Vec F S32x32 .f32) :
    out1_5 x0 x1 x2 x3 x4 = k1_pay3 x2 x0 x1 x3 x4 := by
  unfold out1_5
  rw [View.canon_unit_zero (S := S2000x32) View.zeros2, View.ld_unit_zero (S := S2000x2) View.zeros2,
    View.ld_unit_zero (S := S2000x32) View.zeros2 _ x0, View.ld_unit_zero (S := S2000x32) View.zeros2 _ x1,
    View.ld_unit_zero (S := S1x32) View.zeros2, View.ld_unit_zero (S := S32x32) View.zeros2]
theorem out1_6_eq (x0 x1 : Vec F S2000x32 .f32) (x2 : Vec F S2000x2 .f32) (x3 : Vec F S1x32 .f32) (x4 : Vec F S32x32 .f32) :
    out1_6 x0 x1 x2 x3 x4 = k1_pay4 x2 x0 x1 x3 x4 := by
  unfold out1_6
  rw [View.canon_unit_zero (S := S2000x32) View.zeros2, View.ld_unit_zero (S := S2000x2) View.zeros2,
    View.ld_unit_zero (S := S2000x32) View.zeros2 _ x0, View.ld_unit_zero (S := S2000x32) View.zeros2 _ x1,
    View.ld_unit_zero (S := S1x32) View.zeros2, View.ld_unit_zero (S := S32x32) View.zeros2]

/-! ## An input's staging buffer holds its block

An input window's current buffer holds the window's block at every tile, whether the tile fetched it or not: a tile
that does not fetch has the block index of the tile before it, and the body leaves an input's buffer as it found it.
The bias row and the weight matrix are fetched at the first tile only; their block index never moves. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

/-- One store through the whole tile covers the tile. -/
theorem cover1_O (p0 : Vec F S2000x32 .f32) (y : S2000x32.Idx) :
    ∃ pc ∈ ([⟨r1O, p0⟩] : List (View.Piece (Elt F) S2000x32 .f32)), y ∈ pc.1.set :=
  View.cover_of_tiled [⟨r1O, p0⟩] S2000x32.size (by rfl) y

set_option maxHeartbeats 1000000 in
/-- The body on whole staging buffers, the five inputs' at contents `x0 … x4` and the two outputs' at anything, runs to
    the continuation holding the inputs' as they were, the first output's at the projected tile and the second's at the
    scaled tile. Each output buffer is read once before it is stored into; the value read is not used. -/
theorem sound_kernel1 (c : Dev nD) (E : Set ℕ) (i : grid1.Coords)
    (arg1 : Memref sig .tc .vmem S2000x32 .f32) (harg1 : arg1.IsWhole)
    (arg2 : Memref sig .tc .vmem S2000x32 .f32) (harg2 : arg2.IsWhole)
    (arg3 : Memref sig .tc .vmem S2000x2 .f32) (harg3 : arg3.IsWhole)
    (arg4 : Memref sig .tc .vmem S1x32 .f32) (harg4 : arg4.IsWhole)
    (arg5 : Memref sig .tc .vmem S32x32 .f32) (harg5 : arg5.IsWhole)
    (arg6 : Memref sig .tc .vmem S2000x32 .f32) (harg6 : arg6.IsWhole)
    (arg7 : Memref sig .tc .vmem S2000x32 .f32) (harg7 : arg7.IsWhole)
    (x0 x1 : Vec F S2000x32 .f32) (x2 : Vec F S2000x2 .f32) (x3 : Vec F S1x32 .f32) (x4 : Vec F S32x32 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4
        ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)
            ∗ owns (c : Thread nD τ) arg7 fullShare (out1_6 x0 x1 x2 x3 x4)) -∗ K ⟨⟩))
      ⊢ wp frame (wpE (defs₀ (F := F)) Variants.none c none) E
          (cc1__finalize_dense_kernel i arg1 harg1 arg2 harg2 arg3 harg3 arg4 harg4 arg5 harg5 arg6 harg6 arg7 harg7) K := by
  simp only [cc1__finalize_dense_kernel_eq_skeleton]; unfold cc1__finalize_dense_kernel_skel
  unfold owns
  iintro ⟨⟨%f0, %hf0, H0⟩, ⟨%f1, %hf1, H1⟩, ⟨%f2, %hf2, H2⟩, ⟨%f3, %hf3, H3⟩, ⟨%f4, %hf4, H4⟩,
    ⟨%d5, %f5, -, H5⟩, ⟨%d6, %f6, -, H6⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists _; isplitr
    swap; · iexact H5
    ipureintro
    exact View.read_writes_eq_canon _ _ _ (cover1_O _)
  iexists _; isplitr
  swap; · iexact H6
  ipureintro
  exact View.read_writes_eq_canon _ _ _ (cover1_O _)

/-- The arrays as the region finds them; after the body each input's buffer still at its block, the two outputs' at the
    projected and the scaled tile; between tiles only the scoped rest and the generator register; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
    | ⟨6, _⟩ => out1_6 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) :
    (dat1 V c).after 5 t = out1_5 (iblk1 V c 0 t) (iblk1 V c 1 t) (iblk1 V c 2 t) (iblk1 V c 3 t) (iblk1 V c 4 t) := by dsimp only [dat1]
theorem after1_6 (c : Dev nD) (t : Fin cfg1.N) :
    (dat1 V c).after 6 t = out1_6 (iblk1 V c 0 t) (iblk1 V c 1 t) (iblk1 V c 2 t) (iblk1 V c 3 t) (iblk1 V c 4 t) := by dsimp only [dat1]

/-- Each input's current staging buffer holds its block at every tile. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at tile `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any tile: the inputs' buffers hold their blocks, so the body's triple applies; the invariant and what
    the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ _ _ _ _ _ _ _ _ _ _ _ _ _ _ _
    (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- At every tile the body, called on the current staging buffers, takes the invariant and the inputs' blocks to the
    invariant, the inputs' blocks and the two output tiles. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.Reg2Defs.lean ====
/- # Finishing the second layer and pooling over graphs: what the accumulators hold tile by tile

Fifty row tiles of 2000 nodes, taken in order. Two accumulators live beside the tiles and are carried from one tile to the
next: per graph the sum of its nodes' output rows (512 × 32) and the number of its nodes (512 × 1). At the first tile both
are reset to zero; at every tile the tile's rows `max (agg · dis + h · dis² + b) 0` are added into the first through the
tile's 0/1 membership matrix and the matrix's row sums into the second; at the last tile the sums are divided by
`max count 1`, contracted with the head's weights, the head's bias is added, and that column is the result.
Stated at a parameter `V`: the buffers' contents when the region is entered. -/
import proofs.«410742_j70944269795814_3_alg».proof.Proof.Gen.KernelIdeal.Launch
import proofs.«410742_j70944269795814_3_alg».proof.Proof.Gen.KernelIdeal.Skeleton
import proofs.«410742_j70944269795814_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at tile `t`, read off its array as the region finds it. Windows 0 to 6: summed messages, second
    projection, scale table, bias row, graph words, head weights, head bias. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two accumulators after tile `n`: the sums over what tile `n - 1` left (zeros before the first tile), the counts
    likewise. -/
def acc2 (c : Dev nD) : (n : ℕ) → n < cfg2.N → Vec F S512x32 .f32 × Vec F S512x1 .f32
  | 0, hn =>
    (k2_pay1 (k2_pay8 (iblk2 V c 2 ⟨0, hn⟩) (iblk2 V c 0 ⟨0, hn⟩) (iblk2 V c 1 ⟨0, hn⟩) (iblk2 V c 3 ⟨0, hn⟩) (iblk2 V c 4 ⟨0, hn⟩) (k2_pay4 (F := F))),
     k2_pay2 (k2_pay7 (iblk2 V c 4 ⟨0, hn⟩)) (k2_pay5 (F := F)))
  | n + 1, hn =>
    (k2_pay1 (k2_pay8 (iblk2 V c 2 ⟨n + 1, hn⟩) (iblk2 V c 0 ⟨n + 1, hn⟩) (iblk2 V c 1 ⟨n + 1, hn⟩) (iblk2 V c 3 ⟨n + 1, hn⟩) (iblk2 V c 4 ⟨n + 1, hn⟩)
        (acc2 c n (Nat.lt_of_succ_lt hn)).1),
     k2_pay2 (k2_pay7 (iblk2 V c 4 ⟨n + 1, hn⟩)) (acc2 c n (Nat.lt_of_succ_lt hn)).2)

/-- The column the body would store at tile `t` from the accumulators as that tile leaves them (it stores it at the
    last tile only, the one tile whose output is written back). -/
def out2_7 (c : Dev nD) (t : Fin cfg2.N) : Vec F S512x1 .f32 :=
  k2_pay3 (acc2 V c t.val t.isLt).1 (acc2 V c t.val t.isLt).2 (iblk2 V c 5 t) (iblk2 V c 6 t)

end Cert.KernelIdeal.Hand

end
-- ==== Proof.Reg2.lean ====
/- # Finishing the second layer and pooling over graphs, as a pipelined region

The proof data of the third region: between tiles the invariant holds the two accumulators at what the tile before
left (`acc2`), the other scoped buffers and the generator register; the output column is handed back untouched at
every tile but the last, where it is stored and written back. -/
import proofs.«410742_j70944269795814_3_alg».proof.Proof.Gen.KernelIdeal.Launch
import proofs.«410742_j70944269795814_3_alg».proof.Proof.Gen.KernelIdeal.Skeleton
import proofs.«410742_j70944269795814_3_alg».proof.Proof.Gen.KernelIdeal.Points
import proofs.«410742_j70944269795814_3_alg».proof.Proof.Reg2Defs
import proofs.«410742_j70944269795814_3_alg».proof.Proof.LibWholeReload
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The two accumulators: whole scoped buffers of the kernel's own, passed beside the windows. -/
abbrev scM2_0 : Memref sig .tc .vmem S512x32 .f32 := Memref.whole cc2_scratch0
abbrev scM2_1 : Memref sig .tc .vmem S512x1 .f32 := Memref.whole cc2_scratch1

/-! ## A chain of separate resources around one more

`P₁ ∗ (P₂ ∗ … ∗ (Pₙ ∗ X))`: monotone in `X`, and `X` can be split off and put back. -/

/-- The resources of `L`, in order, then `X`. -/
def sepInto2 (L : List (sProp 𝕄)) (X : sProp 𝕄) : sProp 𝕄 := L.foldr (fun P Q => iprop(P ∗ Q)) X

theorem sepInto2_nil (X : sProp 𝕄) : sepInto2 (F := F) [] X = X := rfl
theorem sepInto2_cons (P : sProp 𝕄) (L : List (sProp 𝕄)) (X : sProp 𝕄) : sepInto2 (P :: L) X = iprop(P ∗ sepInto2 L X) := rfl

theorem sepInto2_mono (L : List (sProp 𝕄)) {X Y : sProp 𝕄} (h : X ⊢ Y) : sepInto2 L X ⊢ sepInto2 L Y := by
  induction L with
  | nil => exact h
  | cons P L ih =>
    rw [sepInto2_cons, sepInto2_cons]
    iintro ⟨HP, HL⟩
    isplitl [HP]; · iexact HP
    iapply ih; iexact HL

/-- The last resource split off the chain. -/
theorem sepInto2_out (L : List (sProp 𝕄)) (X : sProp 𝕄) : sepInto2 L X ⊢ iprop(sepInto2 L iprop(emp) ∗ X) := by
  induction L with
  | nil =>
    rw [sepInto2_nil, sepInto2_nil]
    iintro HX
    isplitr; · iempintro
    iexact HX
  | cons P L ih =>
    rw [sepInto2_cons, sepInto2_cons]
    iintro ⟨HP, HL⟩
    iapply (show iprop(P ∗ (sepInto2 L iprop(emp) ∗ X)) ⊢ iprop((P ∗ sepInto2 L iprop(emp)) ∗ X) from by
      iintro ⟨HP, HA, HX⟩
      isplitr [HX]
      · isplitl [HP]; · iexact HP
        iexact HA
      iexact HX)
    isplitl [HP]; · iexact HP
    iapply ih; iexact HL

/-- And put back. -/
theorem sepInto2_in (L : List (sProp 𝕄)) (X : sProp 𝕄) : iprop(sepInto2 L iprop(emp) ∗ X) ⊢ sepInto2 L X := by
  induction L with
  | nil =>
    rw [sepInto2_nil, sepInto2_nil]
    iintro ⟨-, HX⟩
    iexact HX
  | cons P L ih =>
    rw [sepInto2_cons, sepInto2_cons]
    iintro ⟨⟨HP, HA⟩, HX⟩
    isplitl [HP]; · iexact HP
    iapply ih
    isplitl [HA]; · iexact HA
    iexact HX

/-! ## The invariant -/

/-- The scoped buffers of core `c` that are neither staging buffers of this region nor its accumulators: the staging buffers of the two
    earlier regions, each whole at some contents. -/
def others2 (c : Dev nD) : List (sProp 𝕄) :=
  [
    iprop(∃ f : Buf (Elt F) ((c : Thread nD τ).loc cc0_stg0_0), ((c : Thread nD τ).loc cc0_stg0_0) ↦{fullShare} f),
    iprop(∃ f : Buf (Elt F) ((c : Thread nD τ).loc cc0_stg0_1), ((c : Thread nD τ).loc cc0_stg0_1) ↦{fullShare} f),
    iprop(∃ f : Buf (Elt F) ((c : Thread nD τ).loc cc0_stg1_0), ((c : Thread nD τ).loc cc0_stg1_0) ↦{fullShare} f),
    iprop(∃ f : Buf (Elt F) ((c : Thread nD τ).loc cc0_stg2_0), ((c : Thread nD τ).loc cc0_stg2_0) ↦{fullShare} f),
    iprop(∃ f : Buf (Elt F) ((c : Thread nD τ).loc cc0_stg2_1), ((c : Thread nD τ).loc cc0_stg2_1) ↦{fullShare} f),
    iprop(∃ f : Buf (Elt F) ((c : Thread nD τ).loc cc0_stg3_0), ((c : Thread nD τ).loc cc0_stg3_0) ↦{fullShare} f),
    iprop(∃ f : Buf (Elt F) ((c : Thread nD τ).loc cc0_stg3_1), ((c : Thread nD τ).loc cc0_stg3_1) ↦{fullShare} f),
    iprop(∃ f : Buf (Elt F) ((c : Thread nD τ).loc cc0_stg4_0), ((c : Thread nD τ).loc cc0_stg4_0) ↦{fullShare} f),
    iprop(∃ f : Buf (Elt F) ((c : Thread nD τ).loc cc0_stg4_1), ((c : Thread nD τ).loc cc0_stg4_1) ↦{fullShare} f),
    iprop(∃ f : Buf (Elt F) ((c : Thread nD τ).loc cc1_stg0_0), ((c : Thread nD τ).loc cc1_stg0_0) ↦{fullShare} f),
    iprop(∃ f : Buf (Elt F) ((c : Thread nD τ).loc cc1_stg0_1), ((c : Thread nD τ).loc cc1_stg0_1) ↦{fullShare} f),
    iprop(∃ f : Buf (Elt F) ((c : Thread nD τ).loc cc1_stg1_0), ((c : Thread nD τ).loc cc1_stg1_0) ↦{fullShare} f),
    iprop(∃ f : Buf (Elt F) ((c : Thread nD τ).loc cc1_stg1_1), ((c : Thread nD τ).loc cc1_stg1_1) ↦{fullShare} f),
    iprop(∃ f : Buf (Elt F) ((c : Thread nD τ).loc cc1_stg2_0), ((c : Thread nD τ).loc cc1_stg2_0) ↦{fullShare} f),
    iprop(∃ f : Buf (Elt F) ((c : Thread nD τ).loc cc1_stg2_1), ((c : Thread nD τ).loc cc1_stg2_1) ↦{fullShare} f),
    iprop(∃ f : Buf (Elt F) ((c : Thread nD τ).loc cc1_stg3_0), ((c : Thread nD τ).loc cc1_stg3_0) ↦{fullShare} f),
    iprop(∃ f : Buf (Elt F) ((c : Thread nD τ).loc cc1_stg4_0), ((c : Thread nD τ).loc cc1_stg4_0) ↦{fullShare} f),
    iprop(∃ f : Buf (Elt F) ((c : Thread nD τ).loc cc1_stg5_0), ((c : Thread nD τ).loc cc1_stg5_0) ↦{fullShare} f),
    iprop(∃ f : Buf (Elt F) ((c : Thread nD τ).loc cc1_stg5_1), ((c : Thread nD τ).loc cc1_stg5_1) ↦{fullShare} f),
    iprop(∃ f : Buf (Elt F) ((c : Thread nD τ).loc cc1_stg6_0), ((c : Thread nD τ).loc cc1_stg6_0) ↦{fullShare} f),
    iprop(∃ f : Buf (Elt F) ((c : Thread nD τ).loc cc1_stg6_1), ((c : Thread nD τ).loc cc1_stg6_1) ↦{fullShare} f) ]

/-- The region's scoped rest with the accumulators' part left open: the earlier regions' staging buffers, then `X`. -/
def rest2With (c : Dev nD) (X : sProp 𝕄) : sProp 𝕄 := sepInto2 (others2 (F := F) c) X

theorem rest2With_mono (c : Dev nD) {X Y : sProp 𝕄} (h : X ⊢ Y) : rest2With c X ⊢ rest2With c Y := sepInto2_mono _ h

/-- The invariant before tile `n`: before the first tile the scoped rest at anything and the generator register; later the
    scoped rest with the two accumulators at what tile `n - 1` left (the other buffers at anything), and the generator register. -/
def PhiS2 (c : Dev nD) : (n : ℕ) → n ≤ cfg2.N → sProp 𝕄
  | 0, _ => Pipeline.ΦA spec2 c
  | n + 1, hn => iprop(rest2With c iprop(owns (c : Thread nD τ) scM2_0 fullShare (acc2 V c n hn).1 ∗ owns (c : Thread nD τ) scM2_1 fullShare (acc2 V c n hn).2) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(rest2With c iprop(owns (c : Thread nD τ) scM2_0 fullShare (acc2 V c n hn).1 ∗ owns (c : Thread nD τ) scM2_1 fullShare (acc2 V c n hn).2) ∗ (∃ r, prngReg c r)) := rfl

/-- Before a tile that is not the first: the two accumulators at what the tile before left. -/
theorem PhiS2_pos (c : Dev nD) (n : ℕ) (h : n ≤ cfg2.N) (hz : n ≠ 0) :
    PhiS2 V c n h = iprop(rest2With c iprop(owns (c : Thread nD τ) scM2_0 fullShare (acc2 V c (n - 1) (by omega)).1 ∗ owns (c : Thread nD τ) scM2_1 fullShare (acc2 V c (n - 1) (by omega)).2) ∗ (∃ r, prngReg c r)) := by
  cases n with
  | zero => exact absurd rfl hz
  | succ n => rfl

/-- The class's invariant with the two accumulators as memrefs owned at some contents: the scoped rest enumerated, the last two of
    its buffers read as the whole memrefs they are. -/
theorem PhiA2_eq (c : Dev nD) :
    (Pipeline.ΦA spec2 c : sProp 𝕄)
      = iprop(rest2With c iprop((∃ d, owns (c : Thread nD τ) scM2_0 fullShare d) ∗ (∃ d, owns (c : Thread nD τ) scM2_1 fullShare d)) ∗ (∃ r, prngReg c r)) := by
  unfold Pipeline.ΦA rest2With others2 sepInto2; rw [scopedRest2_eq]; simp only [scM2_0, scM2_1, owns_whole, List.foldr_cons, List.foldr_nil]; try rfl

/-- The accumulators' part split off the scoped rest, and put back. -/
theorem rest2With_out (c : Dev nD) (X : sProp 𝕄) : rest2With c X ⊢ iprop(rest2With c iprop(emp) ∗ X) := sepInto2_out _ X
theorem rest2With_in (c : Dev nD) (X : sProp 𝕄) : iprop(rest2With c iprop(emp) ∗ X) ⊢ rest2With c X := sepInto2_in _ X

/-- The arrays as the region finds them; after the body each input's buffer still at its block, the output's at the
    column of `out2_7`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => out2_7 V c t
  Φ t := PhiS2 V c t.val (Nat.le_of_lt_succ t.isLt)
  q _ := fullShare
  owed _ := 0

theorem A_eq2 (c : Dev nD) (w : Fin cfg2.W) : (dat2 V c).A w = V c (Pipeline.arrRef spec2 w) := by
  dsimp only [dat2]

theorem after2_7 (c : Dev nD) (t : Fin cfg2.N) : (dat2 V c).after 7 t = out2_7 V c t := by dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]

/-! ## Where the body's two conditionals are taken, and where the output is idle -/

/-- The condition of the body's first conditional (the accumulators' reset), from the grid coordinate. -/
abbrev cond2_0 (i : grid2.Coords) : Prop := (Scalar.cmpi .ne (Scalar.extui (Scalar.cmpi .eq (BitVec.ofNat 32 (i 0).val) 0#32)) 0#32) = 1#1
/-- It holds at the first tile only. -/
theorem hcond2_0 : ∀ t : Fin cfg2.N, cond2_0 (grid2.coords t) ↔ t.val = 0 :=
  (by decide +kernel : ∀ t : Fin grid2.N, cond2_0 (grid2.coords t) ↔ t.val = 0)

/-- The condition of the body's last conditional (the division and the head). -/
abbrev cond2_1 (i : grid2.Coords) : Prop := k2_cond2 i = 1#1
/-- It holds at the last tile only. -/
theorem hcond2_1 : ∀ t : Fin cfg2.N, cond2_1 (grid2.coords t) ↔ t.val = 49 :=
  (by decide +kernel : ∀ t : Fin grid2.N, cond2_1 (grid2.coords t) ↔ t.val = 49)

/-- No input is ever idle. -/
theorem liveAt2_0 : ∀ t : Fin cfg2.N, cfg2.idle 0 (grid2.coords t) = false := fun _ => rfl
theorem liveAt2_1 : ∀ t : Fin cfg2.N, cfg2.idle 1 (grid2.coords t) = false := fun _ => rfl
theorem liveAt2_2 : ∀ t : Fin cfg2.N, cfg2.idle 2 (grid2.coords t) = false := fun _ => rfl
theorem liveAt2_3 : ∀ t : Fin cfg2.N, cfg2.idle 3 (grid2.coords t) = false := fun _ => rfl
theorem liveAt2_4 : ∀ t : Fin cfg2.N, cfg2.idle 4 (grid2.coords t) = false := fun _ => rfl
theorem liveAt2_5 : ∀ t : Fin cfg2.N, cfg2.idle 5 (grid2.coords t) = false := fun _ => rfl
theorem liveAt2_6 : ∀ t : Fin cfg2.N, cfg2.idle 6 (grid2.coords t) = false := fun _ => rfl
/-- Off the last tile the output is idle and not written back; at the last tile it is live. -/
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

/-! ## What the body finds in the inputs' buffers -/

/-- Each input's current staging buffer holds its block at every tile, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

/-- Each window's current staging memref at tile `t`, as the region passes it, and its wholeness. -/
abbrev ms2_0 (t : Fin cfg2.N) : Memref sig .tc .vmem S2000x32 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S2000x32 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2000x2 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x32 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2000x1 .i32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S32x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S1x1 .f32 := win2_6.stage (cfg2.slots t 6)
abbrev hs2_6 (t : Fin cfg2.N) : (ms2_6 t).IsWhole := hstage2_6 ((cfg2.slots t 6).cast nbuf2_6)
abbrev ms2_7 (t : Fin cfg2.N) : Memref sig .tc .vmem S512x1 .f32 := win2_7.stage (cfg2.slots t 7)
abbrev hs2_7 (t : Fin cfg2.N) : (ms2_7 t).IsWhole := hstage2_7 ((cfg2.slots t 7).cast nbuf2_7)

/-! ## The accumulators, tile by tile -/

/-- At the first tile: the tile's contribution over zeros. -/
theorem acc2_first (c : Dev nD) (t : Fin cfg2.N) (h0 : t.val = 0) :
    acc2 V c t.val t.isLt = (k2_pay1 (k2_pay8 (iblk2 V c 2 t) (iblk2 V c 0 t) (iblk2 V c 1 t) (iblk2 V c 3 t) (iblk2 V c 4 t) (k2_pay4 (F := F))), k2_pay2 (k2_pay7 (iblk2 V c 4 t)) (k2_pay5 (F := F))) := by
  obtain ⟨n, hn⟩ := t
  cases n with
  | zero => rfl
  | succ n => exact absurd h0 (Nat.succ_ne_zero n)

/-- At a later tile: the tile's contribution over what the tile before left. -/
theorem acc2_pos (c : Dev nD) (t : Fin cfg2.N) (h0 : t.val ≠ 0) :
    acc2 V c t.val t.isLt = (k2_pay1 (k2_pay8 (iblk2 V c 2 t) (iblk2 V c 0 t) (iblk2 V c 1 t) (iblk2 V c 3 t) (iblk2 V c 4 t) (acc2 V c (t.val - 1) (Nat.lt_of_le_of_lt (Nat.sub_le _ _) t.isLt)).1),
      k2_pay2 (k2_pay7 (iblk2 V c 4 t)) (acc2 V c (t.val - 1) (Nat.lt_of_le_of_lt (Nat.sub_le _ _) t.isLt)).2) := by
  obtain ⟨n, hn⟩ := t
  cases n with
  | zero => exact absurd rfl h0
  | succ n => rfl

/-! ## Whole stores and whole loads -/

/-- A buffer whose last store was of the whole buffer reads as that store's payload, whatever it held and whatever was stored before. -/
theorem read_writes_cons_whole2 {S : Shape} {e : EltTy} {κ : Kind} {sp : Space} (v : View sig κ sp S e) (f : v.ty.Contents (Elt F))
    {off : Fin S.rank → Nat} (h : off = fun _ => 0) (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w :=
  (View.read_writes_eq_canon v f _ (fun y => ⟨_, List.mem_cons_self, View.mem_set_unit_zero h inb y⟩)).trans (View.canon_cons_unit_zero h inb w L)
set_option maxHeartbeats 1000000 in
/-- A tile that is neither the first nor the last: on whole memrefs, the inputs' at their blocks, the output's at anything it is handed, the
    accumulators at what the tile before left, the body runs to the continuation holding the inputs' and the output's as they were and the
    accumulators at the tile's rows pooled into the sums and the tile's membership counts added to the counts. -/
theorem run2_mid (c : Dev nD) (E : Set ℕ) (i : grid2.Coords) (hc0 : ¬cond2_0 i) (hc1 : ¬cond2_1 i)
    (arg1 : Memref sig .tc .vmem S2000x32 .f32) (harg1 : arg1.IsWhole) (arg2 : Memref sig .tc .vmem S2000x32 .f32) (harg2 : arg2.IsWhole) (arg3 : Memref sig .tc .vmem S2000x2 .f32) (harg3 : arg3.IsWhole) (arg4 : Memref sig .tc .vmem S1x32 .f32) (harg4 : arg4.IsWhole) (arg5 : Memref sig .tc .vmem S2000x1 .i32) (harg5 : arg5.IsWhole) (arg6 : Memref sig .tc .vmem S32x1 .f32) (harg6 : arg6.IsWhole) (arg7 : Memref sig .tc .vmem S1x1 .f32) (harg7 : arg7.IsWhole) (arg8 : Memref sig .tc .vmem S512x1 .f32) (harg8 : arg8.IsWhole) (arg9 : Memref sig .tc .vmem S512x32 .f32) (harg9 : arg9.IsWhole) (arg10 : Memref sig .tc .vmem S512x1 .f32) (harg10 : arg10.IsWhole)
    (x0 : Vec F S2000x32 .f32) (x1 : Vec F S2000x32 .f32) (x2 : Vec F S2000x2 .f32) (x3 : Vec F S1x32 .f32) (x4 : Vec F S2000x1 .i32) (x5 : Vec F S32x1 .f32) (x6 : Vec F S1x1 .f32) (x7 : Vec F S512x1 .f32) (xs0 : Vec F S512x32 .f32) (xs1 : Vec F S512x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ owns (c : Thread nD τ) arg9 fullShare xs0
        ∗ owns (c : Thread nD τ) arg10 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (k2_pay1 (k2_pay8 x2 x0 x1 x3 x4 xs0))
            ∗ owns (c : Thread nD τ) arg10 fullShare (k2_pay2 (k2_pay7 x4) xs1)) -∗ K ⟨⟩))
      ⊢ wp frame (wpE (defs₀ (F := F)) Variants.none c none) E (cc2__finalize_pool_kernel i arg1 harg1 arg2 harg2 arg3 harg3 arg4 harg4 arg5 harg5 arg6 harg6 arg7 harg7 arg8 harg8 arg9 harg9 arg10 harg10) K := by
  simp only [cc2__finalize_pool_kernel_eq_skeleton]; unfold cc2__finalize_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, Hk⟩
  subst hf0 hf1 hf2 hf3 hf4 hf5 hf6 hf7 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS0]
  · iexists _; isplitr
    swap; · iexact HS0
    ipureintro
    sl_unfold_run_names
    rw [read_writes_cons_whole2 (S := S512x32) _ _ View.zeros2]
    try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
  iexists _; isplitr
  swap; · iexact HS1
  ipureintro
  sl_unfold_run_names
  rw [read_writes_cons_whole2 (S := S512x1) _ _ View.zeros2]
  try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
set_option maxHeartbeats 1000000 in
/-- The first tile: the accumulators, held at anything, are first stored whole with zeros; the rest is the middle tile's run over those zeros. -/
theorem run2_first (c : Dev nD) (E : Set ℕ) (i : grid2.Coords) (hc0 : cond2_0 i) (hc1 : ¬cond2_1 i)
    (arg1 : Memref sig .tc .vmem S2000x32 .f32) (harg1 : arg1.IsWhole) (arg2 : Memref sig .tc .vmem S2000x32 .f32) (harg2 : arg2.IsWhole) (arg3 : Memref sig .tc .vmem S2000x2 .f32) (harg3 : arg3.IsWhole) (arg4 : Memref sig .tc .vmem S1x32 .f32) (harg4 : arg4.IsWhole) (arg5 : Memref sig .tc .vmem S2000x1 .i32) (harg5 : arg5.IsWhole) (arg6 : Memref sig .tc .vmem S32x1 .f32) (harg6 : arg6.IsWhole) (arg7 : Memref sig .tc .vmem S1x1 .f32) (harg7 : arg7.IsWhole) (arg8 : Memref sig .tc .vmem S512x1 .f32) (harg8 : arg8.IsWhole) (arg9 : Memref sig .tc .vmem S512x32 .f32) (harg9 : arg9.IsWhole) (arg10 : Memref sig .tc .vmem S512x1 .f32) (harg10 : arg10.IsWhole)
    (x0 : Vec F S2000x32 .f32) (x1 : Vec F S2000x32 .f32) (x2 : Vec F S2000x2 .f32) (x3 : Vec F S1x32 .f32) (x4 : Vec F S2000x1 .i32) (x5 : Vec F S32x1 .f32) (x6 : Vec F S1x1 .f32) (x7 : Vec F S512x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ owns (c : Thread nD τ) arg8 fullShare x7
        ∗ (∃ d, owns (c : Thread nD τ) arg9 fullShare d)
        ∗ (∃ d, owns (c : Thread nD τ) arg10 fullShare d)
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare x7
            ∗ owns (c : Thread nD τ) arg9 fullShare (k2_pay1 (k2_pay8 x2 x0 x1 x3 x4 (k2_pay4 (F := F))))
            ∗ owns (c : Thread nD τ) arg10 fullShare (k2_pay2 (k2_pay7 x4) (k2_pay5 (F := F)))) -∗ K ⟨⟩))
      ⊢ wp frame (wpE (defs₀ (F := F)) Variants.none c none) E (cc2__finalize_pool_kernel i arg1 harg1 arg2 harg2 arg3 harg3 arg4 harg4 arg5 harg5 arg6 harg6 arg7 harg7 arg8 harg8 arg9 harg9 arg10 harg10) K := by
  simp only [cc2__finalize_pool_kernel_eq_skeleton]; unfold cc2__finalize_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, Hk⟩
  subst hf0 hf1 hf2 hf3 hf4 hf5 hf6 hf7
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [HS0]
  · iexists _; isplitr
    swap; · iexact HS0
    ipureintro
    sl_unfold_run_names
    rw [read_writes_cons_whole2 (S := S512x32) _ _ View.zeros2]
    try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
  iexists _; isplitr
  swap; · iexact HS1
  ipureintro
  sl_unfold_run_names
  rw [read_writes_cons_whole2 (S := S512x1) _ _ View.zeros2]
  try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
set_option maxHeartbeats 1000000 in
/-- The last tile: after the middle tile's update the accumulators are read back, the sums divided by `max count 1`, contracted with the head's
    weights and the head's bias added; that column is stored whole into the output's buffer, which is held at anything before. -/
theorem run2_last (c : Dev nD) (E : Set ℕ) (i : grid2.Coords) (hc0 : ¬cond2_0 i) (hc1 : cond2_1 i)
    (arg1 : Memref sig .tc .vmem S2000x32 .f32) (harg1 : arg1.IsWhole) (arg2 : Memref sig .tc .vmem S2000x32 .f32) (harg2 : arg2.IsWhole) (arg3 : Memref sig .tc .vmem S2000x2 .f32) (harg3 : arg3.IsWhole) (arg4 : Memref sig .tc .vmem S1x32 .f32) (harg4 : arg4.IsWhole) (arg5 : Memref sig .tc .vmem S2000x1 .i32) (harg5 : arg5.IsWhole) (arg6 : Memref sig .tc .vmem S32x1 .f32) (harg6 : arg6.IsWhole) (arg7 : Memref sig .tc .vmem S1x1 .f32) (harg7 : arg7.IsWhole) (arg8 : Memref sig .tc .vmem S512x1 .f32) (harg8 : arg8.IsWhole) (arg9 : Memref sig .tc .vmem S512x32 .f32) (harg9 : arg9.IsWhole) (arg10 : Memref sig .tc .vmem S512x1 .f32) (harg10 : arg10.IsWhole)
    (x0 : Vec F S2000x32 .f32) (x1 : Vec F S2000x32 .f32) (x2 : Vec F S2000x2 .f32) (x3 : Vec F S1x32 .f32) (x4 : Vec F S2000x1 .i32) (x5 : Vec F S32x1 .f32) (x6 : Vec F S1x1 .f32) (xs0 : Vec F S512x32 .f32) (xs1 : Vec F S512x1 .f32) (K : PUnit → sProp 𝕄) :
    iprop(owns (c : Thread nD τ) arg1 fullShare x0
        ∗ owns (c : Thread nD τ) arg2 fullShare x1
        ∗ owns (c : Thread nD τ) arg3 fullShare x2
        ∗ owns (c : Thread nD τ) arg4 fullShare x3
        ∗ owns (c : Thread nD τ) arg5 fullShare x4
        ∗ owns (c : Thread nD τ) arg6 fullShare x5
        ∗ owns (c : Thread nD τ) arg7 fullShare x6
        ∗ (∃ d, owns (c : Thread nD τ) arg8 fullShare d)
        ∗ owns (c : Thread nD τ) arg9 fullShare xs0
        ∗ owns (c : Thread nD τ) arg10 fullShare xs1
        ∗ (iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ owns (c : Thread nD τ) arg6 fullShare x5
            ∗ owns (c : Thread nD τ) arg7 fullShare x6
            ∗ owns (c : Thread nD τ) arg8 fullShare (k2_pay3 (k2_pay1 (k2_pay8 x2 x0 x1 x3 x4 xs0)) (k2_pay2 (k2_pay7 x4) xs1) x5 x6)
            ∗ owns (c : Thread nD τ) arg9 fullShare (k2_pay1 (k2_pay8 x2 x0 x1 x3 x4 xs0))
            ∗ owns (c : Thread nD τ) arg10 fullShare (k2_pay2 (k2_pay7 x4) xs1)) -∗ K ⟨⟩))
      ⊢ wp frame (wpE (defs₀ (F := F)) Variants.none c none) E (cc2__finalize_pool_kernel i arg1 harg1 arg2 harg2 arg3 harg3 arg4 harg4 arg5 harg5 arg6 harg6 arg7 harg7 arg8 harg8 arg9 harg9 arg10 harg10) K := by
  simp only [cc2__finalize_pool_kernel_eq_skeleton]; unfold cc2__finalize_pool_kernel_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%fs0, %hfs0, HS0⟩, ⟨%fs1, %hfs1, HS1⟩, Hk⟩
  subst hf0 hf1 hf2 hf3 hf4 hf5 hf6 hfs0 hfs1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    sl_unfold_run_names
    rw [read_writes_cons_whole2 (S := S512x1) _ _ View.zeros2]
    try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
  isplitl [HS0]
  · iexists _; isplitr
    swap; · iexact HS0
    ipureintro
    sl_unfold_run_names
    rw [read_writes_cons_whole2 (S := S512x32) _ _ View.zeros2]
    try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]
  iexists _; isplitr
  swap; · iexact HS1
  ipureintro
  sl_unfold_run_names
  rw [read_writes_cons_whole2 (S := S512x1) _ _ View.zeros2]
  try simp only [View.readAt_eq_ld, View.ld_unit_zero (S := S2000x32) View.zeros2, View.ld_unit_zero (S := S2000x2) View.zeros2, View.ld_unit_zero (S := S1x32) View.zeros2, View.ld_unit_zero (S := S2000x1) View.zeros2, View.ld_unit_zero (S := S32x1) View.zeros2, View.ld_unit_zero (S := S1x1) View.zeros2, View.ld_unit_zero (S := S512x1) View.zeros2, View.ld_unit_zero (S := S512x32) View.zeros2, View.readCov_cons_unit_zero (S := S512x32) _ View.zeros2, View.readCov_cons_unit_zero (S := S512x1) _ View.zeros2]

/-! ## The body obligation, at a generic tile -/

/-- What the body is called with at tile `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d))
    ∗ (∃ d, owns (c : Thread nD τ) (ms2_7 t) fullShare ((dat2 V c).before 7 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t
    ∗ (dat2 V c).leavesExact 5 t
    ∗ (dat2 V c).leavesExact 6 t
    ∗ (dat2 V c).leavesExact 7 t)

set_option maxHeartbeats 4800000 in
/-- The body at any tile: the inputs' memrefs hold their blocks; the tile's number says which of the two conditionals is taken, so the
    matching run applies; the invariant hands the body the accumulators at what the tile before left (at anything at the first tile) and the
    other scoped buffers and the generator register untouched, and takes the accumulators back at this tile's contents; the output's buffer
    is handed back as found except at the last tile, where it holds the result column; the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4, before2_5, before2_6]
  rw [show (dat2 V c).owesAt () t.succ = (dat2 V c).owesAt () t.castSucc from rfl]
  rw [show (dat2 V c).Φ t.succ = PhiS2 V c (t.val + 1) t.isLt from rfl, PhiS2_succ]
  have hN : t.val < 50 := lt_of_lt_of_eq t.isLt (show cfg2.N = 50 from N_2)
  rw [show (dat2 V c).leavesExact 0 t = owns (c : Thread nD τ) (ms2_0 t) fullShare (iblk2 V c 0 t) from by
    unfold Dat.leavesExact; rw [liveAt2_0 t, after2_0]]
  rw [show (dat2 V c).leavesExact 1 t = owns (c : Thread nD τ) (ms2_1 t) fullShare (iblk2 V c 1 t) from by
    unfold Dat.leavesExact; rw [liveAt2_1 t, after2_1]]
  rw [show (dat2 V c).leavesExact 2 t = owns (c : Thread nD τ) (ms2_2 t) fullShare (iblk2 V c 2 t) from by
    unfold Dat.leavesExact; rw [liveAt2_2 t, after2_2]]
  rw [show (dat2 V c).leavesExact 3 t = owns (c : Thread nD τ) (ms2_3 t) fullShare (iblk2 V c 3 t) from by
    unfold Dat.leavesExact; rw [liveAt2_3 t, after2_3]]
  rw [show (dat2 V c).leavesExact 4 t = owns (c : Thread nD τ) (ms2_4 t) fullShare (iblk2 V c 4 t) from by
    unfold Dat.leavesExact; rw [liveAt2_4 t, after2_4]]
  rw [show (dat2 V c).leavesExact 5 t = owns (c : Thread nD τ) (ms2_5 t) fullShare (iblk2 V c 5 t) from by
    unfold Dat.leavesExact; rw [liveAt2_5 t, after2_5]]
  rw [show (dat2 V c).leavesExact 6 t = owns (c : Thread nD τ) (ms2_6 t) fullShare (iblk2 V c 6 t) from by
    unfold Dat.leavesExact; rw [liveAt2_6 t, after2_6]]
  by_cases h0 : t.val = 0
  · have hc0 : cond2_0 (grid2.coords t) := (hcond2_0 t).mpr h0
    have hc1 : ¬cond2_1 (grid2.coords t) := fun h => by have := (hcond2_1 t).mp h; omega
    rw [Dat.leavesExact_idle (dat2 V c) 7 t (idleAt2_7 t hc1) (noFlush2_7 t hc1)]
    rw [acc2_first V c t h0]; dsimp only
    rw [PhiS2_castSucc V c t, PhiS2_zero V c _ _ h0, PhiA2_eq]
    iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    ihave HR' := (rest2With_out c _) $$ HR
    icases HR' with ⟨HR, ⟨%ds0, HS0⟩, ⟨%ds1, HS1⟩⟩
    iapply (run2_first c Set.univ (grid2.coords t) hc0 hc1 (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _)
      (iblk2 V c 0 t) (iblk2 V c 1 t) (iblk2 V c 2 t) (iblk2 V c 3 t) (iblk2 V c 4 t) (iblk2 V c 5 t) (iblk2 V c 6 t) ((dat2 V c).before 7 t d7) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [HS0]; · iexists _; iexact HS0
    isplitl [HS1]; · iexists _; iexact HS1
    iintro ⟨H0, H1, H2, H3, H4, H5, H6, H7, HS0, HS1⟩
    isplitl [HR HS0 HS1 Hg]
    · isplitl [HR HS0 HS1]
      · iapply (rest2With_in c _)
        isplitl [HR]; · iexact HR
        isplitl [HS0]; · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexists _; iexact H7
  · have hc0 : ¬cond2_0 (grid2.coords t) := fun h => h0 ((hcond2_0 t).mp h)
    by_cases h1 : t.val = 49
    · have hc1 : cond2_1 (grid2.coords t) := (hcond2_1 t).mpr h1
      rw [show (dat2 V c).leavesExact 7 t = owns (c : Thread nD τ) (ms2_7 t) fullShare ((dat2 V c).after 7 t) from by
        unfold Dat.leavesExact; rw [liveAt2_7 t hc1], after2_7]
      unfold out2_7
      rw [acc2_pos V c t h0]; dsimp only
      rw [PhiS2_castSucc V c t, PhiS2_pos V c _ _ h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HR' := (rest2With_out c _) $$ HR
      icases HR' with ⟨HR, HS0, HS1⟩
      iapply (run2_last c Set.univ (grid2.coords t) hc0 hc1 (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _)
        (iblk2 V c 0 t) (iblk2 V c 1 t) (iblk2 V c 2 t) (iblk2 V c 3 t) (iblk2 V c 4 t) (iblk2 V c 5 t) (iblk2 V c 6 t) (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS0]; · iexact HS0
      isplitl [HS1]; · iexact HS1
      iintro ⟨H0, H1, H2, H3, H4, H5, H6, H7, HS0, HS1⟩
      isplitl [HR HS0 HS1 Hg]
      · isplitl [HR HS0 HS1]
        · iapply (rest2With_in c _)
          isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · have hc1 : ¬cond2_1 (grid2.coords t) := fun h => h1 ((hcond2_1 t).mp h)
      rw [Dat.leavesExact_idle (dat2 V c) 7 t (idleAt2_7 t hc1) (noFlush2_7 t hc1)]
      rw [acc2_pos V c t h0]; dsimp only
      rw [PhiS2_castSucc V c t, PhiS2_pos V c _ _ h0]
      iintro ⟨⟨HR, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      ihave HR' := (rest2With_out c _) $$ HR
      icases HR' with ⟨HR, HS0, HS1⟩
      iapply (run2_mid c Set.univ (grid2.coords t) hc0 hc1 (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) scM2_0 (Memref.isWhole_whole _) scM2_1 (Memref.isWhole_whole _)
        (iblk2 V c 0 t) (iblk2 V c 1 t) (iblk2 V c 2 t) (iblk2 V c 3 t) (iblk2 V c 4 t) (iblk2 V c 5 t) (iblk2 V c 6 t) ((dat2 V c).before 7 t d7) (acc2 V c (t.val - 1) (Nat.lt_of_le_of_lt (Nat.sub_le _ _) t.isLt)).1 (acc2 V c (t.val - 1) (Nat.lt_of_le_of_lt (Nat.sub_le _ _) t.isLt)).2 _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [HS0]; · iexact HS0
      isplitl [HS1]; · iexact HS1
      iintro ⟨H0, H1, H2, H3, H4, H5, H6, H7, HS0, HS1⟩
      isplitl [HR HS0 HS1 Hg]
      · isplitl [HR HS0 HS1]
        · iapply (rest2With_in c _)
          isplitl [HR]; · iexact HR
          isplitl [HS0]; · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexists _; iexact H7

/-- At every tile the body, called on the current staging buffers and the two accumulators, takes the invariant before
    the tile and the inputs' blocks to the invariant after it, the inputs' blocks, and the output column where the
    tile stores it (handed back as found elsewhere). -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first tile. -/
theorem hin2 (c : Dev nD) : (Pipeline.ΦA spec2 c : sProp 𝕄) ⊢ (dat2 V c).Φ 0 := by
  rw [show (dat2 V c).Φ 0 = PhiS2 V c 0 (Nat.zero_le _) from rfl, PhiS2_zero V c 0 _ rfl]
  try exact Idealize.SL.BI.Entails.refl _

/-- After any tile the invariant gives the scoped rest back: the accumulators' contents are forgotten. -/
theorem Phi2_out (c : Dev nD) (t : Fin (cfg2.N + 1)) (ht : t.val ≠ 0) : (dat2 V c).Φ t ⊢ (Pipeline.ΦA spec2 c : sProp 𝕄) := by
  rw [show (dat2 V c).Φ t = PhiS2 V c t.val (Nat.le_of_lt_succ t.isLt) from rfl, PhiS2_pos V c _ _ ht, PhiA2_eq]
  iintro ⟨HR, Hg⟩
  isplitl [HR]
  · iapply (rest2With_mono c (show iprop(owns (c : Thread nD τ) scM2_0 fullShare (acc2 V c (t.val - 1) (by omega)).1 ∗ owns (c : Thread nD τ) scM2_1 fullShare (acc2 V c (t.val - 1) (by omega)).2)
        ⊢ iprop((∃ d, owns (c : Thread nD τ) scM2_0 fullShare d) ∗ (∃ d, owns (c : Thread nD τ) scM2_1 fullShare d)) from by
      iintro ⟨H0, H1⟩
      isplitl [H0]; · iexists _; iexact H0
      iexists _; iexact H1))
    iexact HR
  iexact Hg

/-- After the last tile the invariant gives the scoped rest back: the accumulators' contents are forgotten. -/
theorem hout2 (c : Dev nD) : (dat2 V c).Φ (Fin.last cfg2.N) ⊢ (Pipeline.ΦA spec2 c : sProp 𝕄) :=
  Phi2_out V c _ (by rw [Fin.val_last]; have : cfg2.N = 50 := N_2; omega)

end Cert.KernelIdeal.Hand

end
-- ==== Proof.Run.lean ====
/- # The whole run of the three-region program

The contents of the core's buffers at each boundary of the program — at launch, after the first host stretch, after the
first region, and so on to the return — as a fold from the launch memory: a host stretch applies its operations, a region
leaves its arrays at what its write-backs make of them and every other buffer as it found it. Over these, each region is a
segment entered from one boundary and left at the next, and the launch theorem for a list of segments gives: every weakly
fair execution ends, with every unscoped buffer at the last boundary's contents. -/
import proofs.«410742_j70944269795814_3_alg».proof.Proof.Gen.KernelIdeal.Launch
import proofs.«410742_j70944269795814_3_alg».proof.Proof.Gen.KernelIdeal.Skeleton
import proofs.«410742_j70944269795814_3_alg».proof.Proof.Gen.KernelIdeal.Points
import proofs.«410742_j70944269795814_3_alg».proof.Proof.Reg0
import proofs.«410742_j70944269795814_3_alg».proof.Proof.Reg1
import proofs.«410742_j70944269795814_3_alg».proof.Proof.Reg2
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- At launch. -/
abbrev W0 : Dev nD → Valuation τ sig (Elt F) := fun c b => m (c, b)
/-- After the first host stretch (region 0's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b

/-- At region 0's exit: its arrays at what the write-backs leave, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the second host stretch (region 1's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b

/-- At region 1's exit: its arrays at what the write-backs leave, every other buffer as entered. -/
def W4 (c : Dev nD) : Valuation τ sig (Elt F) :=
  Pipeline.withArrays spec1 c (W3 m c) fun w => (dat1 (V3 m) c).arrAt w cfg1.N
theorem W4_arr (c : Dev nD) (w : Fin cfg1.W) :
    W4 m c (Proc.devRef .tc (Pipeline.arrRef spec1 w)) = (dat1 (V3 m) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
abbrev V4 : (c : Dev nD) → (b : Ref sig .tc) → Buf (Elt F) ((c : Thread nD τ).loc b) := fun c b => W4 m c b
theorem hF1 (c : Dev nD) (w : Fin cfg1.W) : (dat1 (V3 m) c).arrAt w cfg1.N = V4 m c (Pipeline.arrRef spec1 w) :=
  (W4_arr m c w).symm
theorem hrest1 (c : Dev nD) : ∀ b, b ∉ Finset.univ.image (Pipeline.arrRef spec1) → V4 m c b = V3 m c b :=
  fun b hb => W4_of_ne m c b fun w e => hb (Finset.mem_image.mpr ⟨w, Finset.mem_univ _, e⟩)

/-- After the third host stretch (region 2's entry). -/
abbrev W5 : Dev nD → Valuation τ sig (Elt F) := fun c => StableHlo.after hostOps2 (W4 m c)
abbrev V5 : (c : Dev nD) → (b : Ref sig .tc) → Buf (Elt F) ((c : Thread nD τ).loc b) := fun c b => W5 m c b

/-- At region 2's exit: its arrays at what the write-backs leave, every other buffer as entered. -/
def W6 (c : Dev nD) : Valuation τ sig (Elt F) :=
  Pipeline.withArrays spec2 c (W5 m c) fun w => (dat2 (V5 m) c).arrAt w cfg2.N
theorem W6_arr (c : Dev nD) (w : Fin cfg2.W) :
    W6 m c (Proc.devRef .tc (Pipeline.arrRef spec2 w)) = (dat2 (V5 m) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
abbrev V6 : (c : Dev nD) → (b : Ref sig .tc) → Buf (Elt F) ((c : Thread nD τ).loc b) := fun c b => W6 m c b
theorem hF2 (c : Dev nD) (w : Fin cfg2.W) : (dat2 (V5 m) c).arrAt w cfg2.N = V6 m c (Pipeline.arrRef spec2 w) :=
  (W6_arr m c w).symm
theorem hrest2 (c : Dev nD) : ∀ b, b ∉ Finset.univ.image (Pipeline.arrRef spec2) → V6 m c b = V5 m c b :=
  fun b hb => W6_of_ne m c b fun w e => hb (Finset.mem_image.mpr ⟨w, Finset.mem_univ _, e⟩)

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
  | ⟨2, _⟩ => fun c => dat2 (V5 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's `owes`, at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- No operation of a host stretch allocates a buffer. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator register at some state. -/
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
/-- Region 0 over the thread state: entered from every unscoped buffer at `W1`, left at `W2`. Its arrays are split
    out of the unscoped buffers and put back at what the write-backs leave; the generator register goes into the
    invariant and comes out; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are split
    out of the unscoped buffers and put back at what the write-backs leave; the generator register goes into the
    invariant and comes out; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3 m c) (V4 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are split
    out of the unscoped buffers and put back at what the write-backs leave; the generator register goes into the
    invariant and comes out; nothing is owed; the kernel has no semaphore of its own. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m) c).loose
  hwaits := Pipeline.hwaits_of_owed_zero _ _ _ _ L lv 2 fun _ _ => rfl
  pre c := iprop(StableHlo.held (c : Thread nD τ) (Pipeline.ucRefs τ sig) (W5 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (V5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h1 : iprop((∃ r, prngReg c r) ∗ Pipeline.prefHeld (pcfgs (F := F) 2).pre c (fun _ => fullShare) (adm (F := F) 2).1
          ∗ Pipeline.scopedRest (Pipeline.pin (pcfgs (F := F)) adm 2).spec c) ⊢ (Pipeline.ΦA spec2 c : sProp 𝕄) := by
      unfold Pipeline.ΦA
      iintro ⟨Hp, -, Hr⟩
      isplitl [Hr]; · iexact Hr
      iexact Hp
    exact h1.trans (hin2 (V5 m) c)
  hout c := by
    rw [Pipeline.ownSems0_none]
    have h1 : (Pipeline.ΦA spec2 c : sProp 𝕄) ⊢ iprop((∃ r, prngReg c r) ∗ BI.emp ∗ Pipeline.scopedRest (Pipeline.pin (pcfgs (F := F)) adm 2).spec c) := by
      unfold Pipeline.ΦA
      iintro ⟨Hr, Hp⟩
      isplitl [Hp]; · iexact Hp
      isplitr; · iempintro
      iexact Hr
    exact (hout2 (V5 m) c).trans h1
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (V5 m c) (V6 m c) ((pdats m 2 c).arrAt · cfg2.N) (hF2 m c) (hrest2 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m) ]

theorem main_run (c : Dev nD) : main (F := F) c = Pipeline.Seg.run (segs m) := (main_chain c).trans (by chain_rfl)

set_option backward.isDefEq.respectTransparency.types false in
/-- From any memory with zero counters every weakly fair execution of the program ends, nothing faulting, with every
    unscoped buffer of every core at the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h c => h c)

end Cert.KernelIdeal.Hand

end
-- ==== Proof.Keep.lean ====
/- # A buffer nobody writes keeps its contents; the arguments end as launched

Through the six boundaries of the program a buffer keeps its contents across a host stretch that does not write it and
across a region of which it is no output array. Every argument array is such a buffer at every step, so the last
boundary holds it as launched: with the run's post that is the frame claim. -/
import proofs.«410742_j70944269795814_3_alg».proof.Proof.Gen.KernelIdeal.Launch
import proofs.«410742_j70944269795814_3_alg».proof.Proof.Gen.KernelIdeal.Skeleton
import proofs.«410742_j70944269795814_3_alg».proof.Proof.Gen.KernelIdeal.Points
import proofs.«410742_j70944269795814_3_alg».proof.Proof.Run
import proofs.«410742_j70944269795814_3_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- A host stretch leaves a buffer it does not write as it found it. -/
theorem keep1 (r : Ref sig .tc) (h : r ∉ hostOps0_W) : W1 m c (Proc.devRef .tc r) = W0 m c (Proc.devRef .tc r) :=
  StableHlo.after_of_writes_sub hostOps0 _ hostOps0_writes h
theorem keep3 (r : Ref sig .tc) (h : r ∉ hostOps1_W) : W3 m c (Proc.devRef .tc r) = W2 m c (Proc.devRef .tc r) :=
  StableHlo.after_of_writes_sub hostOps1 _ hostOps1_writes h
theorem keep5 (r : Ref sig .tc) (h : r ∉ hostOps2_W) : W5 m c (Proc.devRef .tc r) = W4 m c (Proc.devRef .tc r) :=
  StableHlo.after_of_writes_sub hostOps2 _ hostOps2_writes h

/-- Region 0 leaves a buffer that is none of its windows' arrays as it found it, and an input window's array too. -/
theorem keep2 (r : Ref sig .tc) (h : ∀ w, Pipeline.arrRef spec0 w ≠ r) :
    W2 m c (Proc.devRef .tc r) = W1 m c (Proc.devRef .tc r) := W2_of_ne m c r h
theorem keep2_in (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1 m) c).arrAt_in w hin _).trans (A_eq0 (V1 m) c w))

/-- Region 1 leaves a buffer that is none of its windows' arrays as it found it, and an input window's array too. -/
theorem keep4 (r : Ref sig .tc) (h : ∀ w, Pipeline.arrRef spec1 w ≠ r) :
    W4 m c (Proc.devRef .tc r) = W3 m c (Proc.devRef .tc r) := W4_of_ne m c r h
theorem keep4_in (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3 m) c).arrAt_in w hin _).trans (A_eq1 (V3 m) c w))

/-- Region 2 leaves a buffer that is none of its windows' arrays as it found it, and an input window's array too. -/
theorem keep6 (r : Ref sig .tc) (h : ∀ w, Pipeline.arrRef spec2 w ≠ r) :
    W6 m c (Proc.devRef .tc r) = W5 m c (Proc.devRef .tc r) := W6_of_ne m c r h
theorem keep6_in (w : Fin cfg2.W) (hin : (cfg2.win w).isOut = false) :
    W6 m c (Proc.devRef .tc (Pipeline.arrRef spec2 w)) = W5 m c (Proc.devRef .tc (Pipeline.arrRef spec2 w)) :=
  (W6_arr m c w).trans (((dat2 (V5 m) c).arrAt_in w hin _).trans (A_eq2 (V5 m) c w))

/-! ## The arguments -/

theorem W6_main_arg0 : W6 m c (Proc.devRef .tc main_arg0) = m ((c : Thread nD τ).loc main_arg0) :=
  (keep6 m c main_arg0 (by decide)).trans <| (keep5 m c main_arg0 (by decide)).trans <| (keep4 m c main_arg0 (by decide)).trans <| (keep3 m c main_arg0 (by decide)).trans <| (keep2_in m c 0 rfl).trans <| (keep1 m c main_arg0 (by decide)).trans rfl
theorem W6_main_arg1 : W6 m c (Proc.devRef .tc main_arg1) = m ((c : Thread nD τ).loc main_arg1) :=
  (keep6 m c main_arg1 (by decide)).trans <| (keep5 m c main_arg1 (by decide)).trans <| (keep4 m c main_arg1 (by decide)).trans <| (keep3 m c main_arg1 (by decide)).trans <| (keep2 m c main_arg1 (by decide)).trans <| (keep1 m c main_arg1 (by decide)).trans rfl
theorem W6_main_arg2 : W6 m c (Proc.devRef .tc main_arg2) = m ((c : Thread nD τ).loc main_arg2) :=
  (keep6 m c main_arg2 (by decide)).trans <| (keep5 m c main_arg2 (by decide)).trans <| (keep4 m c main_arg2 (by decide)).trans <| (keep3 m c main_arg2 (by decide)).trans <| (keep2 m c main_arg2 (by decide)).trans <| (keep1 m c main_arg2 (by decide)).trans rfl
theorem W6_main_arg3 : W6 m c (Proc.devRef .tc main_arg3) = m ((c : Thread nD τ).loc main_arg3) :=
  (keep6 m c main_arg3 (by decide)).trans <| (keep5 m c main_arg3 (by decide)).trans <| (keep4 m c main_arg3 (by decide)).trans <| (keep3 m c main_arg3 (by decide)).trans <| (keep2_in m c 1 rfl).trans <| (keep1 m c main_arg3 (by decide)).trans rfl
theorem W6_main_arg4 : W6 m c (Proc.devRef .tc main_arg4) = m ((c : Thread nD τ).loc main_arg4) :=
  (keep6 m c main_arg4 (by decide)).trans <| (keep5 m c main_arg4 (by decide)).trans <| (keep4 m c main_arg4 (by decide)).trans <| (keep3 m c main_arg4 (by decide)).trans <| (keep2 m c main_arg4 (by decide)).trans <| (keep1 m c main_arg4 (by decide)).trans rfl
theorem W6_main_arg5 : W6 m c (Proc.devRef .tc main_arg5) = m ((c : Thread nD τ).loc main_arg5) :=
  (keep6 m c main_arg5 (by decide)).trans <| (keep5 m c main_arg5 (by decide)).trans <| (keep4_in m c 4 rfl).trans <| (keep3 m c main_arg5 (by decide)).trans <| (keep2 m c main_arg5 (by decide)).trans <| (keep1 m c main_arg5 (by decide)).trans rfl
theorem W6_main_arg6 : W6 m c (Proc.devRef .tc main_arg6) = m ((c : Thread nD τ).loc main_arg6) :=
  (keep6 m c main_arg6 (by decide)).trans <| (keep5 m c main_arg6 (by decide)).trans <| (keep4 m c main_arg6 (by decide)).trans <| (keep3 m c main_arg6 (by decide)).trans <| (keep2 m c main_arg6 (by decide)).trans <| (keep1 m c main_arg6 (by decide)).trans rfl
theorem W6_main_arg7 : W6 m c (Proc.devRef .tc main_arg7) = m ((c : Thread nD τ).loc main_arg7) :=
  (keep6_in m c 5 rfl).trans <| (keep5 m c main_arg7 (by decide)).trans <| (keep4 m c main_arg7 (by decide)).trans <| (keep3 m c main_arg7 (by decide)).trans <| (keep2 m c main_arg7 (by decide)).trans <| (keep1 m c main_arg7 (by decide)).trans rfl
theorem W6_main_arg8 : W6 m c (Proc.devRef .tc main_arg8) = m ((c : Thread nD τ).loc main_arg8) :=
  (keep6 m c main_arg8 (by decide)).trans <| (keep5 m c main_arg8 (by decide)).trans <| (keep4 m c main_arg8 (by decide)).trans <| (keep3 m c main_arg8 (by decide)).trans <| (keep2 m c main_arg8 (by decide)).trans <| (keep1 m c main_arg8 (by decide)).trans rfl

/-- From any memory with zero counters every weakly fair execution of the program ends, nothing faulting, with every
    argument array as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩)
    (run_all m ρ)

end Cert.KernelIdeal.Hand

end
-- ==== Proof.Reads.lean ====
/- # What each region and each host stretch reads, traced back through the boundaries

A region reads its input windows' arrays and a host stretch its operands, each at the contents of the boundary it starts
from. Such a buffer was last written either by nobody (an argument: it holds what the launch gave it), by the first host
stretch (it holds what that stretch left, the contents at the first region's entry), or by an earlier region as one of its
output arrays (it holds what that region's write-backs left). Each equation below walks a buffer back across the
stretches that do not write it and the regions of which it is no output, to the boundary where it was last written.
The last region's output column is written back at the last tile only, and that tile's block is the whole column: the
column ends holding what the body left at the last tile. -/
import proofs.«410742_j70944269795814_3_alg».proof.Proof.Gen.KernelIdeal.Launch
import proofs.«410742_j70944269795814_3_alg».proof.Proof.Gen.KernelIdeal.Skeleton
import proofs.«410742_j70944269795814_3_alg».proof.Proof.Gen.KernelIdeal.Points
import proofs.«410742_j70944269795814_3_alg».proof.Proof.Run
import proofs.«410742_j70944269795814_3_alg».proof.Proof.Gen.KernelIdeal.Regions
import proofs.«410742_j70944269795814_3_alg».proof.Proof.Keep
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The last region's output column -/

section Column

variable (V : (c : Dev nD) → (b : Ref sig .tc) → Buf (Elt F) ((c : Thread nD τ).loc b))

/-- The output column's block is the whole column at every tile: every index lies in it. -/
theorem mem_blk2_7 (t : Fin cfg2.N) (i : S512x1.Idx) : i ∈ ((cfg2.win 7).blk t).view.set := by
  show i ∈ ((View.whole main_v41).slice (win2_7.rect t)).set
  rw [View.set_slice_whole, Rect.mem_set_unit]
  intro a
  match a with
  | ⟨0, _⟩ =>
    show 0 * 512 ≤ (i 0).val ∧ (i 0).val < 0 * 512 + 512
    have h0 : (i 0).val < 512 := (i 0).isLt
    omega
  | ⟨1, _⟩ =>
    show 0 * 1 ≤ (i 1).val ∧ (i 1).val < 0 * 1 + 1
    have h1 : (i 1).val < 1 := (i 1).isLt
    omega

/-- Read through that block, a column is itself: the block starts at the column's first entry and has its extent. -/
theorem read_blk2_7 (t : Fin cfg2.N) (G : Vec F S512x1 .f32) : ((cfg2.win 7).blk t).view.read (Elt F) G = G := by
  funext j
  have he : ((cfg2.win 7).blk t).view.emb j = j := by
    funext a; apply Fin.ext
    match a with
    | ⟨0, _⟩ => show 0 * 512 + 1 * (j 0).val = (j 0).val; omega
    | ⟨1, _⟩ => show 0 * 1 + 1 * (j 1).val = (j 1).val; omega
  show G (((cfg2.win 7).blk t).view.emb j) = G j
  rw [he]

/-- The column is written back at the last tile only, and that tile's block is the whole column: after the region it
    holds what the body left there at the last tile. -/
theorem arr2_7 (c : Dev nD) : (dat2 V c).arrAt 7 cfg2.N = out2_7 V c ⟨49, by decide⟩ := by
  refine (dat2 V c).arrAt_eq_of_cover 7 (out2_7 V c ⟨49, by decide⟩) (fun t hf => ?_)
    (fun i => ⟨⟨49, by decide⟩, (flush2_7 _).mpr rfl, mem_blk2_7 _ i⟩)
  have h49 : t.val % 50 = 49 := (flush2_7 t).mp hf
  have hlt : t.val < 50 := Nat.lt_of_lt_of_eq t.isLt N_2
  obtain rfl : t = ⟨49, by decide⟩ := Fin.ext (show t.val = 49 by omega)
  show (cfg2.win 7).cut (grid2.coords _) ((dat2 V c).after 7 _) = _
  rw [after2_7, read_blk2_7]
  rfl

end Column

variable (m : (ℓ : Loc nD τ sig) → Buf (Elt F) ℓ) (c : Dev nD)

/-! ## The first region reads two arguments (its third input is written by the first stretch) -/

theorem rd0_arg0 : V1 m c main_arg0 = m ((c : Thread nD τ).loc main_arg0) :=
  (keep1 m c main_arg0 (by decide)).trans rfl

theorem rd0_arg3 : V1 m c main_arg3 = m ((c : Thread nD τ).loc main_arg3) :=
  (keep1 m c main_arg3 (by decide)).trans rfl

/-! ## The second stretch reads the two edge-word vectors and the first region's scaled rows -/

theorem rd1_v1 : V2 m c main_v1 = V1 m c main_v1 :=
  keep2 m c main_v1 (by decide)

theorem rd1_v3 : V2 m c main_v3 = V1 m c main_v3 :=
  keep2 m c main_v3 (by decide)

theorem rd1_v19_1 : V2 m c main_v19_1 = (dat0 (V1 m) c).arrAt 4 cfg0.N :=
  W2_arr m c 4

/-! ## The second region reads the first region's projected rows, the scale table, the bias row and an argument -/

theorem rd2_v19_0 : V3 m c main_v19_0 = (dat0 (V1 m) c).arrAt 3 cfg0.N :=
  (keep3 m c main_v19_0 (by decide)).trans <| W2_arr m c 3

theorem rd2_v14 : V3 m c main_v14 = V1 m c main_v14 :=
  (keep3 m c main_v14 (by decide)).trans <| keep2_in m c 2 rfl

theorem rd2_v15 : V3 m c main_v15 = V1 m c main_v15 :=
  (keep3 m c main_v15 (by decide)).trans <| keep2 m c main_v15 (by decide)

theorem rd2_arg5 : V3 m c main_arg5 = m ((c : Thread nD τ).loc main_arg5) :=
  (keep3 m c main_arg5 (by decide)).trans <| (keep2 m c main_arg5 (by decide)).trans <| (keep1 m c main_arg5 (by decide)).trans rfl

/-! ## The third stretch reads the two edge-word vectors and the second region's scaled rows -/

theorem rd3_v1 : V4 m c main_v1 = V1 m c main_v1 :=
  (keep4 m c main_v1 (by decide)).trans <| (keep3 m c main_v1 (by decide)).trans <| keep2 m c main_v1 (by decide)

theorem rd3_v3 : V4 m c main_v3 = V1 m c main_v3 :=
  (keep4 m c main_v3 (by decide)).trans <| (keep3 m c main_v3 (by decide)).trans <| keep2 m c main_v3 (by decide)

theorem rd3_v30_1 : V4 m c main_v30_1 = (dat1 (V3 m) c).arrAt 6 cfg1.N :=
  W4_arr m c 6

/-! ## The third region reads the second region's projected rows, four buffers of the first stretch and an argument -/

theorem rd4_v30_0 : V5 m c main_v30_0 = (dat1 (V3 m) c).arrAt 5 cfg1.N :=
  (keep5 m c main_v30_0 (by decide)).trans <| W4_arr m c 5

theorem rd4_v14 : V5 m c main_v14 = V1 m c main_v14 :=
  (keep5 m c main_v14 (by decide)).trans <| (keep4_in m c 2 rfl).trans <| (keep3 m c main_v14 (by decide)).trans <| keep2_in m c 2 rfl

theorem rd4_v16 : V5 m c main_v16 = V1 m c main_v16 :=
  (keep5 m c main_v16 (by decide)).trans <| (keep4 m c main_v16 (by decide)).trans <| (keep3 m c main_v16 (by decide)).trans <| keep2 m c main_v16 (by decide)

theorem rd4_v17 : V5 m c main_v17 = V1 m c main_v17 :=
  (keep5 m c main_v17 (by decide)).trans <| (keep4 m c main_v17 (by decide)).trans <| (keep3 m c main_v17 (by decide)).trans <| keep2 m c main_v17 (by decide)

theorem rd4_v18 : V5 m c main_v18 = V1 m c main_v18 :=
  (keep5 m c main_v18 (by decide)).trans <| (keep4 m c main_v18 (by decide)).trans <| (keep3 m c main_v18 (by decide)).trans <| keep2 m c main_v18 (by decide)

theorem rd4_arg7 : V5 m c main_arg7 = m ((c : Thread nD τ).loc main_arg7) :=
  (keep5 m c main_arg7 (by decide)).trans <| (keep4 m c main_arg7 (by decide)).trans <| (keep3 m c main_arg7 (by decide)).trans <| (keep2 m c main_arg7 (by decide)).trans <| (keep1 m c main_arg7 (by decide)).trans rfl

/-! ## The result -/

theorem rd_v41 : W6 m c (Proc.devRef .tc main_v41) = (dat2 (V5 m) c).arrAt 7 cfg2.N :=
  W6_arr m c 7

end Cert.KernelIdeal.Hand

end
-- ==== Proof.LibMeanAggregate.lean ====
/-
  One mean-aggregate layer of a graph network at the ideal values: for a diffusion matrix `D` [M × S], gathered source
  rows `src` [S × 128], gathered destination rows `dst` [M × 128] and weights `w` [256 × 128],

      layer D src dst w (r, c) = max (∑ j < 256, cat (r, j) · w (j, c)) 0,
      cat (r, j) = ∑ k < S, D (r, k) · src (k, j)   for j < 128,      cat (r, j) = dst (r, j − 128)   for j ≥ 128.

  Both spellings of it are read here at an index, for any sizes M and S: the host's (two `dot_general`s around a
  `concatenate`, then a maximum against a broadcast zero) and a TensorCore body's (two `tpu.matmul`s into zero
  accumulators around a `tpu.concatenate`, format changes and shape casts that are the identity at the ideal values,
  then `arith.maximumf` against a splat zero). Row `r` of the layer reads only row `r` of `D` and of `dst`
  (`layer_row_congr`), so a block of rows of the result is the layer of the blocks of rows.
-/
import Idealize.ShloMosaic.Lib.ValueIdx
import Idealize.ShloMosaic.Lib.Pipeline.Value
import Idealize.ShloMosaic.PureOps.Ideal.Laws

noncomputable section

open scoped BigOperators

namespace Idealize.ShloMosaic.MeanAggregate

open Idealize.ShloMosaic Idealize.ShloMosaic.ValueIdx

private theorem plain_lhs_0 (M K N : Nat) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl
private theorem plain_lhs_1 (M K N : Nat) (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q
private theorem plain_rhs_0 (M K N : Nat) (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q
private theorem plain_rhs_1 (M K N : Nat) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain dot at (r, c), re-indexed by the one contracted coordinate. -/
private theorem plain_contr_sum {φ₁ φ₂ : FTy} (M K N : Nat)
    (lhs : FVec Ideal ⟨2, ![M, K]⟩ φ₁) (rhs : FVec Ideal ⟨2, ![K, N]⟩ φ₂) (r : Fin M) (c : Fin N) :
    ∑ k : (DotDims.plain M K N).contr.Idx,
        lhs ((DotDims.plain M K N).lhsIdx (ix2 r c) k) * rhs ((DotDims.plain M K N).rhsIdx (ix2 r c) k)
      = ∑ k : Fin K, lhs (ix2 r k) * rhs (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact plain_lhs_0 M K N _ _
      | ⟨1, _⟩ => exact (plain_lhs_1 M K N _ _).trans hk)
  have er : (DotDims.plain M K N).rhsIdx (ix2 r c) ((contrEquiv1 (DotDims.plain M K N) K rfl rfl).symm k) = ix2 k c :=
    funext fun a => Fin.ext (by
      match a with
      | ⟨0, _⟩ => exact (plain_rhs_0 M K N _ _).trans hk
      | ⟨1, _⟩ => exact plain_rhs_1 M K N _ _)
  rw [el, er]

/-- A plain [M × K] by [K × N] `tpu.matmul` into the zero accumulator, at the ideal values, read at (r, c). -/
theorem plain_matmul_zero_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    matmul (DotDims.plain M K N) prec lhs rhs (constant ⟨2, ![M, N]⟩ .f32 0x00000000#32) (ix2 r c)
      = ∑ k : Fin K, lhs (ix2 r k) * rhs (ix2 k c) := by
  simp only [matmul]
  rw [Ideal.matmul_constant_zero_apply]
  exact plain_contr_sum M K N lhs rhs r c

/-- The host's plain [M × K] by [K × N] `dot_general`, at the ideal values, read at (r, c). -/
theorem plain_dotGeneral_apply {φ₁ φ₂ : FTy} (M K N : Nat) (prec : Option ContractPrecision)
    (lhs : FVec Ideal ⟨2, ![M, K]⟩ φ₁) (rhs : FVec Ideal ⟨2, ![K, N]⟩ φ₂) (r : Fin M) (c : Fin N) :
    Host.dotGeneral (DotDims.plain M K N) prec lhs rhs (ix2 r c) = ∑ k : Fin K, lhs (ix2 r k) * rhs (ix2 k c) := by
  simp only [Host.dotGeneral]
  rw [Ideal.dotGeneral_apply]
  exact plain_contr_sum M K N lhs rhs r c

/-- Two pieces [M × A] and [M × B] joined along the columns into [M × C], C = A + B, read at (r, j). -/
theorem concat_cols_apply {α : Type} (M A B C : Nat) (hC : C = A + B) (x : (⟨2, ![M, A]⟩ : Shape).Idx → α)
    (y : (⟨2, ![M, B]⟩ : Shape).Idx → α)
    (h : Shape.Concatenates (([⟨⟨2, ![M, A]⟩, x⟩, ⟨⟨2, ![M, B]⟩, y⟩] : List ((s : Shape) × (s.Idx → α))).map (·.1)) ⟨2, ![M, C]⟩ 1)
    (r : Fin M) (j : Fin C) :
    concatenate ⟨2, ![M, C]⟩ 1 [⟨⟨2, ![M, A]⟩, x⟩, ⟨⟨2, ![M, B]⟩, y⟩] h (ix2 r j)
      = if hj : j.val < A then x (ix2 r ⟨j.val, hj⟩) else y (ix2 r ⟨j.val - A, by omega⟩) := by
  by_cases hj : j.val < A
  · rw [dif_pos hj]
    exact concatenate_apply_piece (t := ⟨2, ![M, C]⟩) 1 _ h (ix2 r j) 0 (by simp) ⟨2, ![M, A]⟩ x rfl rfl 0 rfl
      (ix2 r ⟨j.val, hj⟩)
      (fun b hb => by
        match b with
        | ⟨0, _⟩ => rfl
        | ⟨1, _⟩ => exact absurd rfl hb)
      (by show 0 + j.val = j.val; omega)
  · rw [dif_neg hj]
    exact concatenate_apply_piece (t := ⟨2, ![M, C]⟩) 1 _ h (ix2 r j) 1 (by simp) ⟨2, ![M, B]⟩ y rfl rfl A rfl
      (ix2 r ⟨j.val - A, by omega⟩)
      (fun b hb => by
        match b with
        | ⟨0, _⟩ => rfl
        | ⟨1, _⟩ => exact absurd rfl hb)
      (by show A + (j.val - A) = j.val; omega)

/-- The layer at row `r`, column `c`. -/
def layerAt (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) : EReal :=
  max (∑ j : Fin 256, (if hj : j.val < 128 then ∑ k : Fin S, D (ix2 r k) * src (ix2 k (⟨j.val, hj⟩ : Fin 128))
      else dst (ix2 r (⟨j.val - 128, by omega⟩ : Fin 128))) * w (ix2 j c)) 0

/-- The layer as an array. -/
def layer (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) :
    (⟨2, ![M, 128]⟩ : Shape).Idx → EReal :=
  fun i => layerAt M S D src dst w (i 0) (i 1)

theorem layer_apply (M S : Nat) (D : (⟨2, ![M, S]⟩ : Shape).Idx → EReal) (src : (⟨2, ![S, 128]⟩ : Shape).Idx → EReal)
    (dst : (⟨2, ![M, 128]⟩ : Shape).Idx → EReal) (w : (⟨2, ![256, 128]⟩ : Shape).Idx → EReal) (r : Fin M) (c : Fin 128) :
    layer M S D src dst w (ix2 r c) = layerAt M S D src dst w r c := rfl

/-- Row `r` of the layer reads only row `r` of `D` and of `dst`. -/
theorem layer_row_congr (M M' S : Nat) (D : (⟨2, ![M, S]⟩ : Shape).Idx → EReal) (D' : (⟨2, ![M', S]⟩ : Shape).Idx → EReal)
    (src : (⟨2, ![S, 128]⟩ : Shape).Idx → EReal) (dst : (⟨2, ![M, 128]⟩ : Shape).Idx → EReal)
    (dst' : (⟨2, ![M', 128]⟩ : Shape).Idx → EReal) (w : (⟨2, ![256, 128]⟩ : Shape).Idx → EReal) (r : Fin M) (r' : Fin M') (c : Fin 128)
    (hD : ∀ k : Fin S, D (ix2 r k) = D' (ix2 r' k)) (hdst : ∀ q : Fin 128, dst (ix2 r q) = dst' (ix2 r' q)) :
    layer M S D src dst w (ix2 r c) = layer M' S D' src dst' w (ix2 r' c) := by
  show layerAt M S D src dst w r c = layerAt M' S D' src dst' w r' c
  unfold layerAt
  congr 1
  refine Finset.sum_congr rfl fun j _ => ?_
  congr 1
  by_cases hj : j.val < 128
  · rw [dif_pos hj, dif_pos hj]
    exact Finset.sum_congr rfl fun k _ => by rw [hD k]
  · rw [dif_neg hj, dif_neg hj]
    exact hdst _

/-- The host's spelling is the layer. -/
theorem host_layer_eq (M S : Nat) (D : FVec Ideal ⟨2, ![M, S]⟩ .f32) (src : FVec Ideal ⟨2, ![S, 128]⟩ .f32)
    (dst : FVec Ideal ⟨2, ![M, 128]⟩ .f32) (w : FVec Ideal ⟨2, ![256, 128]⟩ .f32)
    (hcat : Shape.Concatenates (([⟨⟨2, ![M, 128]⟩, Host.dotGeneral (DotDims.plain M S 128) none D src⟩, ⟨⟨2, ![M, 128]⟩, dst⟩] :
      List ((s : Shape) × (s.Idx → EReal))).map (·.1)) ⟨2, ![M, 256]⟩ 1)
    (hb : (⟨0, ![]⟩ : Shape).BroadcastsInDim ⟨2, ![M, 128]⟩ (![] : Fin 0 → Fin 2)) :
    maximumf (Host.dotGeneral (DotDims.plain M 256 128) none
        (concatenate ⟨2, ![M, 256]⟩ 1 [⟨⟨2, ![M, 128]⟩, Host.dotGeneral (DotDims.plain M S 128) none D src⟩, ⟨⟨2, ![M, 128]⟩, dst⟩] hcat) w)
      (broadcastInDim ⟨2, ![M, 128]⟩ ![] hb (constant (F := Ideal) ⟨0, ![]⟩ .f32 0x00000000#32))
      = layer M S D src dst w := by
  funext i
  obtain ⟨r, c, rfl⟩ : ∃ (r : Fin M) (c : Fin 128), i = ix2 r c := ⟨i 0, i 1, eq_ix2 i⟩
  rw [maximumf_apply, plain_dotGeneral_apply, layer_apply]
  unfold layerAt
  congr 1
  · refine Finset.sum_congr rfl fun j _ => ?_
    congr 1
    rw [concat_cols_apply M 128 128 256 rfl]
    by_cases hj : j.val < 128
    · rw [dif_pos hj, dif_pos hj, plain_dotGeneral_apply]
    · rw [dif_neg hj, dif_neg hj]
  · rw [broadcastInDim_apply ![] hb _ (ix2 r c) ix0 (fun a => a.elim0), constant_apply, Ideal.ofBits_zero_f32]

/-- A TensorCore body's spelling is the layer (the bf16 narrowing and the two shape casts to the same shape are the identity
    at the ideal values). -/
theorem kernel_layer_eq (M S : Nat) (x0 : FVec Ideal ⟨2, ![M, S]⟩ .f32) (x1 : FVec Ideal ⟨2, ![S, 128]⟩ .bf16)
    (x2 : FVec Ideal ⟨2, ![M, 128]⟩ .f32) (x3 : FVec Ideal ⟨2, ![256, 128]⟩ .f32) (hlt : FTy.bf16.bits < FTy.f32.bits)
    (hc1 : (⟨2, ![S, 128]⟩ : Shape).ShapeCasts ⟨2, ![S, 128]⟩) (hc2 : (⟨2, ![M, 128]⟩ : Shape).ShapeCasts ⟨2, ![M, 128]⟩)
    (hcat : Shape.Concatenates (([⟨⟨2, ![M, 128]⟩, matmul (DotDims.plain M S 128) none (truncf .bf16 x0 hlt) (shapeCast ⟨2, ![S, 128]⟩ x1 hc1)
        (constant ⟨2, ![M, 128]⟩ .f32 0x00000000#32)⟩, ⟨⟨2, ![M, 128]⟩, shapeCast ⟨2, ![M, 128]⟩ x2 hc2⟩] :
      List ((s : Shape) × (s.Idx → EReal))).map (·.1)) ⟨2, ![M, 256]⟩ 1) :
    maximumf (matmul (DotDims.plain M 256 128) (some .fp32)
        (concatenate ⟨2, ![M, 256]⟩ 1 [⟨⟨2, ![M, 128]⟩, matmul (DotDims.plain M S 128) none (truncf .bf16 x0 hlt) (shapeCast ⟨2, ![S, 128]⟩ x1 hc1)
          (constant ⟨2, ![M, 128]⟩ .f32 0x00000000#32)⟩, ⟨⟨2, ![M, 128]⟩, shapeCast ⟨2, ![M, 128]⟩ x2 hc2⟩] hcat)
        x3 (constant ⟨2, ![M, 128]⟩ .f32 0x00000000#32))
      (broadcast ⟨2, ![M, 128]⟩ (Scalar.ofBits (F := Ideal) .f32 0x00000000#32))
      = layer M S x0 x1 x2 x3 := by
  funext i
  obtain ⟨r, c, rfl⟩ : ∃ (r : Fin M) (c : Fin 128), i = ix2 r c := ⟨i 0, i 1, eq_ix2 i⟩
  rw [maximumf_apply, plain_matmul_zero_apply, layer_apply, broadcast_apply]
  unfold layerAt
  congr 1
  · refine Finset.sum_congr rfl fun j _ => ?_
    congr 1
    rw [concat_cols_apply M 128 128 256 rfl]
    by_cases hj : j.val < 128
    · rw [dif_pos hj, dif_pos hj, plain_matmul_zero_apply]
      refine Finset.sum_congr rfl fun k _ => ?_
      rw [truncf_apply, shapeCast_self]
    · rw [dif_neg hj, dif_neg hj, shapeCast_self]
  · exact Ideal.ofBits_zero_f32

end Idealize.ShloMosaic.MeanAggregate

end
-- ==== Proof.Val0.lean ====
/- # The first region's two output arrays, entry by entry

Each of the fifty tiles holds 2000 consecutive rows: tile `t` writes rows `2000 t … 2000 t + 1999` of both outputs. In the
first, entry `(i, d)` is row `i` of the features contracted with column `d` of the weights; in the second it is that number
times the first entry of row `i` of the scale table. The tiles cover every row, so after the last tile the two arrays are
these functions of the contents the region found. -/
import proofs.«410742_j70944269795814_3_alg».proof.Proof.Reg0
import proofs.«410742_j70944269795814_3_alg».proof.Proof.LibMeanAggregate
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand Idealize.ShloMosaic.ValueIdx
open Idealize.ShloMosaic.MeanAggregate (plain_matmul_zero_apply)

/-! ## The tile's two payloads at an entry -/

private theorem mul_congr {a a' b b' : EReal} (h1 : a = a') (h2 : b = b') : a * b = a' * b' := by rw [h1, h2]

/-- A column `[a, 1]` repeated along the second axis to `[a, b]` reads, at `(p, q)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Column `j` of a two-column tile, cut out and repeated along the row: at `(p, k)` it is the tile's entry `(p, j)`. -/
private theorem col_apply (x2 : FVec Ideal S2000x2 .f32) (o : ℕ) (j : Fin 2) (hj : j.val = o)
    (hc : S2000x2.ShapeCasts S2000x2) (hs : S2000x2.Slices ![0, o] S2000x1) (hb : S2000x1.Broadcasts S2000x32)
    (p : Fin 2000) (k : Fin 32) :
    broadcastTo S2000x32 (extractStridedSlice S2000x1 ![0, o] (shapeCast S2000x2 x2 hc) hs) hb (ix2 p k) = x2 (ix2 p j) := by
  refine (broadcastTo_a1_ab_apply _ hb p k).trans ?_
  refine (slice2_axis1_apply o _ hs p (0 : Fin 1) j (by show j.val = o + 0; omega)).trans ?_
  rw [shapeCast_self]

/-- The product tile at `(p, q)`: row `p` of the feature tile contracted with column `q` of the weights (the narrowing
    of the two operands is the identity on the extended reals, and the accumulator starts at zero). -/
private theorem pay1_apply (x0 : FVec Ideal S2000x128 .f32) (x1 : FVec Ideal S128x32 .f32) (p : Fin 2000) (q : Fin 32) :
    k0_pay1 (F := Ideal) x0 x1 (ix2 p q) = ∑ k : Fin 128, x0 (ix2 p k) * x1 (ix2 k q) := by
  unfold k0_pay1
  refine (plain_matmul_zero_apply 2000 128 32 none _ _ p q).trans ?_
  rfl

/-- The scaled tile at `(p, q)`: the product tile's entry times the first entry of row `p` of the scale tile. -/
private theorem pay2_apply (x0 : FVec Ideal S2000x128 .f32) (x1 : FVec Ideal S128x32 .f32) (x2 : FVec Ideal S2000x2 .f32)
    (p : Fin 2000) (q : Fin 32) :
    k0_pay2 (F := Ideal) x0 x1 x2 (ix2 p q) = (∑ k : Fin 128, x0 (ix2 p k) * x1 (ix2 k q)) * x2 (ix2 p (0 : Fin 2)) := by
  unfold k0_pay2
  exact mul_congr (pay1_apply x0 x1 p q) (col_apply x2 0 0 rfl _ _ _ p q)

/-! ## The tiles' blocks of the region's arrays -/

variable (V : (c : Dev nD) → (b : Ref sig .tc) → Buf (Elt Ideal) ((c : Thread nD τ).loc b)) (c : Dev nD)

/-- The three arrays the region reads, as it finds them, each at its own shape: the feature rows, the weights, the
    two-column scale table. -/
abbrev a0_feat : S100000x128.Idx → EReal := V c main_arg0
abbrev a0_wts : S128x32.Idx → EReal := V c main_arg3
abbrev a0_scale : S100000x2.Idx → EReal := V c main_v14

/-- The block index of every window at every tile: the row windows move with the tile, the weights stay. -/
private theorem idx0_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-- Row `p` of tile `t` of the features is row `2000 t + p` of the feature array. -/
private theorem iblk0_0_apply (t : Fin cfg0.N) (p : Fin 2000) (k : Fin 128) (i : Fin 100000) (hi : i.val = t.val * 2000 + p.val) :
    (iblk0 V c 0 t : FVec Ideal S2000x128 .f32) (ix2 p k) = a0_feat V c (ix2 i k) := by
  obtain ⟨e0, e1, -⟩ := idx0_facts t
  show a0_feat V c (((cfg0.win 0).blk t).view.emb (ix2 p k)) = _
  refine congrArg (a0_feat V c) (funext fun a => Fin.ext ?_)
  match a with
  | ⟨0, _⟩ => show win0_0.index t (0 : Fin 2) * 2000 + 1 * p.val = i.val; omega
  | ⟨1, _⟩ => show win0_0.index t (1 : Fin 2) * 128 + 1 * k.val = k.val; omega

/-- The weights' block is the whole weight array at every tile. -/
private theorem iblk0_1_eq (t : Fin cfg0.N) (k : Fin 128) (q : Fin 32) :
    (iblk0 V c 1 t : FVec Ideal S128x32 .f32) (ix2 k q) = a0_wts V c (ix2 k q) := by
  obtain ⟨-, -, e0, e1, -⟩ := idx0_facts t
  show a0_wts V c (((cfg0.win 1).blk t).view.emb (ix2 k q)) = _
  refine congrArg (a0_wts V c) (funext fun a => Fin.ext ?_)
  match a with
  | ⟨0, _⟩ => show win0_1.index t (0 : Fin 2) * 128 + 1 * k.val = k.val; omega
  | ⟨1, _⟩ => show win0_1.index t (1 : Fin 2) * 32 + 1 * q.val = q.val; omega

/-- Row `p` of tile `t` of the scale table is row `2000 t + p` of the table. -/
private theorem iblk0_2_apply (t : Fin cfg0.N) (p : Fin 2000) (j : Fin 2) (i : Fin 100000) (hi : i.val = t.val * 2000 + p.val) :
    (iblk0 V c 2 t : FVec Ideal S2000x2 .f32) (ix2 p j) = a0_scale V c (ix2 i j) := by
  obtain ⟨-, -, -, -, e0, e1, -⟩ := idx0_facts t
  show a0_scale V c (((cfg0.win 2).blk t).view.emb (ix2 p j)) = _
  refine congrArg (a0_scale V c) (funext fun a => Fin.ext ?_)
  match a with
  | ⟨0, _⟩ => show win0_2.index t (0 : Fin 2) * 2000 + 1 * p.val = i.val; omega
  | ⟨1, _⟩ => show win0_2.index t (1 : Fin 2) * 2 + 1 * j.val = j.val; omega

/-! ## The two whole-array functions, and each tile's write-back as a block of them -/

/-- The projected array: row `i` of the features contracted with column `d` of the weights. -/
private def G0_3 : S100000x32.Idx → EReal := fun i =>
  ∑ k : Fin 128, a0_feat V c (ix2 (i 0) k) * a0_wts V c (ix2 k (i 1))

/-- The scaled array: the projected array's entry times the first entry of row `i` of the scale table. -/
private def G0_4 : S100000x32.Idx → EReal := fun i =>
  (∑ k : Fin 128, a0_feat V c (ix2 (i 0) k) * a0_wts V c (ix2 k (i 1)))
    * a0_scale V c (ix2 (i 0) (0 : Fin 2))

/-- The product of tile `t`'s blocks at `(p, q)` is the projected array at row `2000 t + p`. -/
private theorem tile0_3 (t : Fin cfg0.N) (p : Fin 2000) (q : Fin 32) (i : Fin 100000) (hi : i.val = t.val * 2000 + p.val) :
    k0_pay1 (F := Ideal) (iblk0 V c 0 t) (iblk0 V c 1 t) (ix2 p q) = G0_3 V c (ix2 i q) := by
  refine (pay1_apply (iblk0 V c 0 t) (iblk0 V c 1 t) p q).trans ?_
  show _ = ∑ k : Fin 128, a0_feat V c (ix2 i k) * a0_wts V c (ix2 k q)
  exact Finset.sum_congr rfl fun k _ => mul_congr (iblk0_0_apply V c t p k i hi) (iblk0_1_eq V c t k q)

/-- The scaled product of tile `t`'s blocks at `(p, q)` is the scaled array at row `2000 t + p`. -/
private theorem tile0_4 (t : Fin cfg0.N) (p : Fin 2000) (q : Fin 32) (i : Fin 100000) (hi : i.val = t.val * 2000 + p.val) :
    k0_pay2 (F := Ideal) (iblk0 V c 0 t) (iblk0 V c 1 t) (iblk0 V c 2 t) (ix2 p q) = G0_4 V c (ix2 i q) := by
  refine (pay2_apply (iblk0 V c 0 t) (iblk0 V c 1 t) (iblk0 V c 2 t) p q).trans ?_
  show _ = (∑ k : Fin 128, a0_feat V c (ix2 i k) * a0_wts V c (ix2 k q))
    * a0_scale V c (ix2 i (0 : Fin 2))
  exact mul_congr (Finset.sum_congr rfl fun k _ => mul_congr (iblk0_0_apply V c t p k i hi) (iblk0_1_eq V c t k q))
    (iblk0_2_apply V c t p 0 i hi)

/-! ## The write-backs and the arrays after the last tile -/

/-- What tile `t` writes back to output 3 is block `t` of `G0_3`. -/
private theorem flushed0_3_eq (t : Fin cfg0.N) :
    (dat0 (F := Ideal) V c).flushed 3 t = ((cfg0.win 3).blk t).view.read (Elt Ideal) (G0_3 V c) := by
  show (cfg0.win 3).cut (grid0.coords t) ((dat0 (F := Ideal) V c).after 3 t) = _
  rw [after0_3, out0_3_eq]
  obtain ⟨-, -, -, -, -, -, e30, e31, e40, e41⟩ := idx0_facts t
  have hN : grid0.N = 50 := N_0
  have ht : t.val < grid0.N := t.isLt
  funext j
  have hj0 : (j 0).val < 2000 := (j 0).isLt
  have hj1 : (j 1).val < 32 := (j 1).isLt
  have hrow : t.val * 2000 + (j 0).val < 100000 := by omega
  have hx : (cfg0.win 3).xinj (grid0.coords t) j
      = (ix2 (⟨(j 0).val, hj0⟩ : Fin 2000) (⟨(j 1).val, hj1⟩ : Fin 32) : S2000x32.Idx) :=
    funext fun a => by match a with | ⟨0, _⟩ => rfl | ⟨1, _⟩ => rfl
  have he : ((cfg0.win 3).blk t).view.emb j
      = (ix2 (⟨t.val * 2000 + (j 0).val, hrow⟩ : Fin 100000) (⟨(j 1).val, hj1⟩ : Fin 32) : S100000x32.Idx) :=
    funext fun a => Fin.ext (by
      match a with
      | ⟨0, _⟩ => show win0_3.index t (0 : Fin 2) * 2000 + 1 * (j 0).val = t.val * 2000 + (j 0).val; omega
      | ⟨1, _⟩ => show win0_3.index t (1 : Fin 2) * 32 + 1 * (j 1).val = (j 1).val; omega)
  show k0_pay1 (F := Ideal) (iblk0 V c 0 t) (iblk0 V c 1 t) ((cfg0.win 3).xinj (grid0.coords t) j)
      = G0_3 V c (((cfg0.win 3).blk t).view.emb j)
  rw [hx, he]
  exact tile0_3 V c t _ _ _ rfl

/-- An index of the array is in tile `t`'s block iff each coordinate is in the block's range on its axis. -/
private theorem mem_blk0_3 (t : Fin cfg0.N) (i : S100000x32.Idx) :
    i ∈ ((cfg0.win 3).blk t).view.set ↔ ∀ a : Fin 2, win0_3.index t a * S2000x32.size a ≤ (i a).val
      ∧ (i a).val < win0_3.index t a * S2000x32.size a + S2000x32.size a := by
  show i ∈ ((View.whole main_v19_0).slice (win0_3.rect t)).set ↔ _
  rw [View.set_slice_whole, Rect.mem_set_unit]
  exact Iff.rfl

/-- Row `r` lies in the block of tile `r / 2000`, which is written back: the blocks cover the array. -/
private theorem cover0_3 (i : S100000x32.Idx) :
    ∃ t : Fin cfg0.N, (cfg0.win 3).flush t = true ∧ i ∈ ((cfg0.win 3).blk t).view.set := by
  have hi0 : (i 0).val < 100000 := (i 0).isLt
  have hi1 : (i 1).val < 32 := (i 1).isLt
  have hN : grid0.N = 50 := N_0
  obtain ⟨t, ht⟩ : ∃ t : Fin cfg0.N, t.val = (i 0).val / 2000 :=
    ⟨⟨(i 0).val / 2000, by show (i 0).val / 2000 < grid0.N; omega⟩, rfl⟩
  obtain ⟨-, -, -, -, -, -, e30, e31, e40, e41⟩ := idx0_facts t
  refine ⟨t, flush0_3 t, ?_⟩
  rw [mem_blk0_3]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 32 ≤ (i 1).val ∧ (i 1).val < win0_3.index t (1 : Fin 2) * 32 + 32
    omega

/-- After the last tile output 3's array is `G0_3`. -/
private theorem final0_3 : (dat0 (F := Ideal) V c).arrAt 3 cfg0.N = G0_3 V c :=
  (dat0 (F := Ideal) V c).arrAt_eq_of_cover 3 (G0_3 V c) (fun t _ => flushed0_3_eq V c t) cover0_3

/-- What tile `t` writes back to output 4 is block `t` of `G0_4`. -/
private theorem flushed0_4_eq (t : Fin cfg0.N) :
    (dat0 (F := Ideal) V c).flushed 4 t = ((cfg0.win 4).blk t).view.read (Elt Ideal) (G0_4 V c) := by
  show (cfg0.win 4).cut (grid0.coords t) ((dat0 (F := Ideal) V c).after 4 t) = _
  rw [after0_4, out0_4_eq]
  obtain ⟨-, -, -, -, -, -, e30, e31, e40, e41⟩ := idx0_facts t
  have hN : grid0.N = 50 := N_0
  have ht : t.val < grid0.N := t.isLt
  funext j
  have hj0 : (j 0).val < 2000 := (j 0).isLt
  have hj1 : (j 1).val < 32 := (j 1).isLt
  have hrow : t.val * 2000 + (j 0).val < 100000 := by omega
  have hx : (cfg0.win 4).xinj (grid0.coords t) j
      = (ix2 (⟨(j 0).val, hj0⟩ : Fin 2000) (⟨(j 1).val, hj1⟩ : Fin 32) : S2000x32.Idx) :=
    funext fun a => by match a with | ⟨0, _⟩ => rfl | ⟨1, _⟩ => rfl
  have he : ((cfg0.win 4).blk t).view.emb j
      = (ix2 (⟨t.val * 2000 + (j 0).val, hrow⟩ : Fin 100000) (⟨(j 1).val, hj1⟩ : Fin 32) : S100000x32.Idx) :=
    funext fun a => Fin.ext (by
      match a with
      | ⟨0, _⟩ => show win0_4.index t (0 : Fin 2) * 2000 + 1 * (j 0).val = t.val * 2000 + (j 0).val; omega
      | ⟨1, _⟩ => show win0_4.index t (1 : Fin 2) * 32 + 1 * (j 1).val = (j 1).val; omega)
  show k0_pay2 (F := Ideal) (iblk0 V c 0 t) (iblk0 V c 1 t) (iblk0 V c 2 t) ((cfg0.win 4).xinj (grid0.coords t) j)
      = G0_4 V c (((cfg0.win 4).blk t).view.emb j)
  rw [hx, he]
  exact tile0_4 V c t _ _ _ rfl

/-- An index of the array is in tile `t`'s block iff each coordinate is in the block's range on its axis. -/
private theorem mem_blk0_4 (t : Fin cfg0.N) (i : S100000x32.Idx) :
    i ∈ ((cfg0.win 4).blk t).view.set ↔ ∀ a : Fin 2, win0_4.index t a * S2000x32.size a ≤ (i a).val
      ∧ (i a).val < win0_4.index t a * S2000x32.size a + S2000x32.size a := by
  show i ∈ ((View.whole main_v19_1).slice (win0_4.rect t)).set ↔ _
  rw [View.set_slice_whole, Rect.mem_set_unit]
  exact Iff.rfl

/-- Row `r` lies in the block of tile `r / 2000`, which is written back: the blocks cover the array. -/
private theorem cover0_4 (i : S100000x32.Idx) :
    ∃ t : Fin cfg0.N, (cfg0.win 4).flush t = true ∧ i ∈ ((cfg0.win 4).blk t).view.set := by
  have hi0 : (i 0).val < 100000 := (i 0).isLt
  have hi1 : (i 1).val < 32 := (i 1).isLt
  have hN : grid0.N = 50 := N_0
  obtain ⟨t, ht⟩ : ∃ t : Fin cfg0.N, t.val = (i 0).val / 2000 :=
    ⟨⟨(i 0).val / 2000, by show (i 0).val / 2000 < grid0.N; omega⟩, rfl⟩
  obtain ⟨-, -, -, -, -, -, e30, e31, e40, e41⟩ := idx0_facts t
  refine ⟨t, flush0_4 t, ?_⟩
  rw [mem_blk0_4]
  intro a
  match a with
  | ⟨0, _⟩ =>
    show win0_4.index t (0 : Fin 2) * 2000 ≤ (i 0).val ∧ (i 0).val < win0_4.index t (0 : Fin 2) * 2000 + 2000
    omega
  | ⟨1, _⟩ =>
    show win0_4.index t (1 : Fin 2) * 32 ≤ (i 1).val ∧ (i 1).val < win0_4.index t (1 : Fin 2) * 32 + 32
    omega

/-- After the last tile output 4's array is `G0_4`. -/
private theorem final0_4 : (dat0 (F := Ideal) V c).arrAt 4 cfg0.N = G0_4 V c :=
  (dat0 (F := Ideal) V c).arrAt_eq_of_cover 4 (G0_4 V c) (fun t _ => flushed0_4_eq V c t) cover0_4

/-! ## The two arrays at an entry -/

/-- The projected array at `(i, d)`. -/
theorem arr0_3_apply (i : Fin 100000) (d : Fin 32) :
    ((dat0 (F := Ideal) V c).arrAt 3 cfg0.N : S100000x32.Idx → EReal) (ix2 i d)
      = ∑ k : Fin 128, a0_feat V c (ix2 i k) * a0_wts V c (ix2 k d) :=
  congrFun (final0_3 V c) (ix2 i d)

/-- The scaled array at `(i, d)`. -/
theorem arr0_4_apply (i : Fin 100000) (d : Fin 32) :
    ((dat0 (F := Ideal) V c).arrAt 4 cfg0.N : S100000x32.Idx → EReal) (ix2 i d)
      = (∑ k : Fin 128, a0_feat V c (ix2 i k) * a0_wts V c (ix2 k d))
        * a0_scale V c (ix2 i (0 : Fin 2)) :=
  congrFun (final0_4 V c) (ix2 i d)

end Cert.KernelIdeal.Val

end
-- ==== Proof.Val1.lean ====
/- # The second region's two output arrays, entry by entry

Each of the fifty tiles holds 2000 consecutive rows: tile `t` writes rows `2000 t … 2000 t + 1999` of both outputs. Row `i`
of the summed messages and of the first projection, scaled by the two entries of row `i` of the scale table, plus the bias
row, cut below at zero, is the finished first layer's row `i`; in the first output, entry `(i, d)` is that row contracted
with column `d` of the second weights, and in the second output it is that number times the first entry of row `i` of the
scale table. The tiles cover every row, so after the last tile the two arrays are these functions of the contents the
region found. -/
import proofs.«410742_j70944269795814_3_alg».proof.Proof.Reg1
import proofs.«410742_j70944269795814_3_alg».proof.Proof.LibMeanAggregate
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.TcCoe Idealize.SL.Sem
open Idealize.ShloMosaic.Pipeline (Dat)
open Cert.KernelIdeal Cert.KernelIdeal.Gen Cert.KernelIdeal.Hand Idealize.ShloMosaic.ValueIdx
open Idealize.ShloMosaic.MeanAggregate (plain_matmul_zero_apply)

/-! ## The tile's two payloads at an entry -/

private theorem mul_congr {a a' b b' : EReal} (h1 : a = a') (h2 : b = b') : a * b = a' * b' := by rw [h1, h2]
private theorem add_congr {a a' b b' : EReal} (h1 : a = a') (h2 : b = b') : a + b = a' + b' := by rw [h1, h2]
private theorem max_congr {a a' b b' : EReal} (h1 : a = a') (h2 : b = b') : max a b = max a' b' := by rw [h1, h2]

/-- A column `[a, 1]` repeated along the second axis to `[a, b]` reads, at `(p, q)`, the column's entry `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- Column `j` of a two-column tile, cut out and repeated along the row: at `(p, k)` it is the tile's entry `(p, j)`. -/
private theorem col_apply (x2 : FVec Ideal S2000x2 .f32) (o : ℕ) (j : Fin 2) (hj : j.val = o)
    (hc : S2000x2.ShapeCasts S2000x2) (hs : S2000x2.Slices ![0, o] S2000x1) (hb : S2000x1.Broadcasts S2000x32)
    (p : Fin 2000) (k : Fin 32) :
    broadcastTo S2000x32 (extractStridedSlice S2000x1 ![0, o] (shapeCast S2000x2 x2 hc) hs) hb (ix2 p k) = x2 (ix2 p j) := by
  refine (broadcastTo_a1_ab_apply _ hb p k).trans ?_
  refine (slice2_axis1_apply o _ hs p (0 : Fin 1) j (by show j.val = o + 0; omega)).trans ?_
  rw [shapeCast_self]

/-- The one bias row repeated down the tile: at `(p, k)` it is the row's entry `k`. -/
private theorem bias_apply (x3 : FVec Ideal S1x32 .f32) (hc : S1x32.ShapeCasts S1x32) (hb : S1x32.Broadcasts S2000x32)
    (p : Fin 2000) (k : Fin 32) :
    broadcastTo S2000x32 (shapeCast S1x32 x3 hc) hb (ix2 p k) = x3 (ix2 (0 : Fin 1) k) := by
  rw [shapeCast_self]
  exact broadcastTo_1b_ab_apply x3 hb p k

/-- A tile recast to its own shape is itself. -/
private theorem cast_apply (x : FVec Ideal S2000x32 .f32) (hc : S2000x32.ShapeCasts S2000x32) (p : Fin 2000) (k : Fin 32) :
    shapeCast S2000x32 x hc (ix2 p k) = x (ix2 p k) := by
  rw [shapeCast_self]

/-- The projected tile at `(p, q)`: the finished first layer's row `p` — messages and projection scaled by the two scale
    entries, plus the bias, cut below at zero — contracted with column `q` of the weights (the narrowing of the two
    operands is the identity on the extended reals, and the accumulator starts at zero). -/
private theorem pay3_apply (x2 : FVec Ideal S2000x2 .f32) (x0 x1 : FVec Ideal S2000x32 .f32) (x3 : FVec Ideal S1x32 .f32)
    (x4 : FVec Ideal S32x32 .f32) (p : Fin 2000) (q : Fin 32) :
    k1_pay3 (F := Ideal) x2 x0 x1 x3 x4 (ix2 p q)
      = ∑ k : Fin 32, max ((x0 (ix2 p k) * x2 (ix2 p (0 : Fin 2)) + x1 (ix2 p k) * x2 (ix2 p (1 : Fin 2)))
          + x3 (ix2 (0 : Fin 1) k)) 0 * x4 (ix2 k q) := by
  unfold k1_pay3
  refine (plain_matmul_zero_apply 2000 32 32 none _ _ p q).trans ?_
  refine Finset.sum_congr rfl fun k _ => ?_
  exact mul_congr
    (max_congr
      (add_congr
        (add_congr (mul_congr (cast_apply x0 shapeCasts_S2000x32_S2000x32 p k) (col_apply x2 0 0 rfl shapeCasts_S2000x2_S2000x2 slices_S2000x2_o0_0_S2000x1 broadcasts_S2000x1_S2000x32 p k))
          (mul_congr (cast_apply x1 shapeCasts_S2000x32_S2000x32 p k) (col_apply x2 1 1 rfl shapeCasts_S2000x2_S2000x2 slices_S2000x2_o0_1_S2000x1 broadcasts_S2000x1_S2000x32 p k)))
        (bias_apply x3 shapeCasts_S1x32_S1x32 broadcasts_S1x32_S2000x32 p k))
      Ideal.ofBits_zero_f32)
    rfl

/-- The scaled tile at `(p, q)`: the projected tile's entry times the first entry of row `p` of the scale tile. -/
private theorem pay4_apply (x2 : FVec Ideal S2000x2 .f32) (x0 x1 : FVec Ideal S2000x32 .f32) (x3 : FVec Ideal S1x32 .f32)
    (x4 : FVec Ideal S32x32 .f32) (p : Fin 2000) (q : Fin 32) :
    k1_pay4 (F := Ideal) x2 x0 x1 x3 x4 (ix2 p q)
      = (∑ k : Fin 32, max ((x0 (ix2 p k) * x2 (ix2 p (0 : Fin 2)) + x1 (ix2 p k) * x2 (ix2 p (1 : Fin 2)))
          + x3 (ix2 (0 : Fin 1) k)) 0 * x4 (ix2 k q)) * x2 (ix2 p (0 : Fin 2)) := by
  unfold k1_pay4
  exact mul_congr (pay3_apply x2 x0 x1 x3 x4 p q) (col_apply x2 0 0 rfl shapeCasts_S2000x2_S2000x2 slices_S2000x2_o0_0_S2000x1 broadcasts_S2000x1_S2000x32 p q)

/-- The finished entry times a weight depends only on its six numbers. -/
private theorem term_congr {a a' s0 s0' h h' s1 s1' b b' w w' : EReal} (ha : a = a') (hs0 : s0 = s0') (hh : h = h')
    (hs1 : s1 = s1') (hb : b = b') (hw : w = w') :
    max ((a * s0 + h * s1) + b) 0 * w = max ((a' * s0' + h' * s1') + b') 0 * w' := by
  rw [ha, hs0, hh, hs1, hb, hw]

/-! ## The tiles' blocks of the region's arrays -/

variable (V : (c : Dev nD) → (b : Ref sig .tc) → Buf (Elt Ideal) ((c : Thread nD τ).loc b)) (c : Dev nD)

/-- The five arrays the region reads, as it finds them, each at its own shape: the summed messages, the first projection,
    the two-column scale table, the bias row, the second weights. -/
abbrev a1_agg : S100000x32.Idx → EReal := V c main_v29
abbrev a1_h : S100000x32.Idx → EReal := V c main_v19_0
abbrev a1_scale : S100000x2.Idx → EReal := V c main_v14
abbrev a1_bias : S1x32.Idx → EReal := V c main_v15
abbrev a1_wts : S32x32.Idx → EReal := V c main_arg5

/-- The block index of every window at every tile: the row windows move with the tile, the bias and the weights stay. -/
private theorem idx1_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

/-! Row `p` of tile `t` of a row window is row `2000 t + p` of its array; the bias row and the weights are whole at every tile. -/

private theorem iblk1_0_apply (t : Fin cfg1.N) (p : Fin 2000) (k : Fin 32) (i : Fin 100000) (hi : i.val = t.val * 2000 + p.val) :
    (iblk1 V c 0 t : FVec Ideal S2000x32 .f32) (ix2 p k) = a1_agg V c (ix2 i k) := by
  obtain ⟨e00, e01, e10, e11, e20, e21, -⟩ := idx1_facts t
  show a1_agg V c (((cfg1.win 0).blk t).view.emb (ix2 p k)) = _
  refine congrArg (a1_agg V c) (funext fun a => Fin.ext ?_)
  match a with
  | ⟨0, _⟩ => show win1_0.index t (0 : Fin 2) * 2000 + 1 * p.val = i.val; omega
  | ⟨1, _⟩ => show win1_0.index t (1 : Fin 2) * 32 + 1 * k.val = k.val; omega

private theorem iblk1_1_apply (t : Fin cfg1.N) (p : Fin 2000) (k : Fin 32) (i : Fin 100000) (hi : i.val = t.val * 2000 + p.val) :
    (iblk1 V c 1 t : FVec Ideal S2000x32 .f32) (ix2 p k) = a1_h V c (ix2 i k) := by
  obtain ⟨e00, e01, e10, e11, e20, e21, -⟩ := idx1_facts t
  show a1_h V c (((cfg1.win 1).blk t).view.emb (ix2 p k)) = _
  refine congrArg (a1_h V c) (funext fun a => Fin.ext ?_)
  match a with
  | ⟨0, _⟩ => show win1_1.index t (0 : Fin 2) * 2000 + 1 * p.val = i.val; omega
  | ⟨1, _⟩ => show win1_1.index t (1 : Fin 2) * 32 + 1 * k.val = k.val; omega

private theorem iblk1_2_apply (t : Fin cfg1.N) (p : Fin 2000) (k : Fin 2) (i : Fin 100000) (hi : i.val = t.val * 2000 + p.val) :
    (iblk1 V c 2 t : FVec Ideal S2000x2 .f32) (ix2 p k) = a1_scale V c (ix2 i k) := by
  obtain ⟨e00, e01, e10, e11, e20, e21, -⟩ := idx1_facts t
  show a1_scale V c (((cfg1.win 2).blk t).view.emb (ix2 p k)) = _
  refine congrArg (a1_scale V c) (funext fun a => Fin.ext ?_)
  match a with
  | ⟨0, _⟩ => show win1_2.index t (0 : Fin 2) * 2000 + 1 * p.val = i.val; omega
  | ⟨1, _⟩ => show win1_2.index t (1 : Fin 2) * 2 + 1 * k.val = k.val; omega

private theorem iblk1_3_eq (t : Fin cfg1.N) (r : Fin 1) (k : Fin 32) :
    (iblk1 V c 3 t : FVec Ideal S1x32 .f32) (ix2 r k) = a1_bias V c (ix2 r k) := by
  obtain ⟨-, -, -, -, -, -, e30, e31, e40, e41, -⟩ := idx1_facts t
  show a1_bias V c (((cfg1.win 3).blk t).view.emb (ix2 r k)) = _
  refine congrArg (a1_bias V c) (funext fun a => Fin.ext ?_)
  match a with
  | ⟨0, _⟩ => show win1_3.index t (0 : Fin 2) * 1 + 1 * r.val = r.val; omega
  | ⟨1, _⟩ => show win1_3.index t (1 : Fin 2) * 32 + 1 * k.val = k.val; omega

private theorem iblk1_4_eq (t : Fin cfg1.N) (r : Fin 32) (k : Fin 32) :
    (iblk1 V c 4 t : FVec Ideal S32x32 .f32) (ix2 r k) = a1_wts V c (ix2 r k) := by
  obtain ⟨-, -, -, -, -, -, e30, e31, e40, e41, -⟩ := idx1_facts t
  show a1_wts V c (((cfg1.win 4).blk t).view.emb (ix2 r k)) = _
  refine congrArg (a1_wts V c) (funext fun a => Fin.ext ?_)
  match a with
  | ⟨0, _⟩ => show win1_4.index t (0 : Fin 2) * 32 + 1 * r.val = r.val; omega
  | ⟨1, _⟩ => show win1_4.index t (1 : Fin 2) * 32 + 1 * k.val = k.val; omega

/-! ## The two whole-array functions, and each tile's write-back as a block of them -/

/-- The finished first layer at node `i`, feature `k`: messages and projection scaled by the node's two scale entries, plus
    the bias, cut below at zero. -/
def o1 (i : Fin 100000) (k : Fin 32) : EReal :=
  max ((a1_agg V c (ix2 i k) * a1_scale V c (ix2 i (0 : Fin 2)) + a1_h V c (ix2 i k) * a1_scale V c (ix2 i (1 : Fin 2)))
    + a1_bias V c (ix2 (0 : Fin 1) k)) 0

/-- The projected array: the finished row `i` contracted with column `d` of the weights. -/
private def G1_5 : S100000x32.Idx → EReal := fun i => ∑ k : Fin 32, o1 V c (i 0) k * a1_wts V c (ix2 k (i 1))

/-- The scaled array: the projected array's entry times the first entry of row `i` of the scale table. -/
private def G1_6 : S100000x32.Idx → EReal := fun i =>
  (∑ k : Fin 32, o1 V c (i 0) k * a1_wts V c (ix2 k (i 1))) * a1_scale V c (ix2 (i 0) (0 : Fin 2))

/-- The product of tile `t`'s blocks at `(p, q)` is the projected array at row `2000 t + p`. -/
private theorem tile1_5 (t : Fin cfg1.N) (p : Fin 2000) (q : Fin 32) (i : Fin 100000) (hi : i.val = t.val * 2000 + p.val) :
    k1_pay3 (F := Ideal) (iblk1 V c 2 t) (iblk1 V c 0 t) (iblk1 V c 1 t) (iblk1 V c 3 t) (iblk1 V c 4 t) (ix2 p q)
      = G1_5 V c (ix2 i q) := by
  refine (pay3_apply (iblk1 V c 2 t) (iblk1 V c 0 t) (iblk1 V c 1 t) (iblk1 V c 3 t) (iblk1 V c 4 t) p q).trans ?_
  show _ = ∑ k : Fin 32, o1 V c i k * a1_wts V c (ix2 k q)
  exact Finset.sum_congr rfl fun k _ => term_congr (iblk1_0_apply V c t p k i hi) (iblk1_2_apply V c t p 0 i hi) (iblk1_1_apply V c t p k i hi)
      (iblk1_2_apply V c t p 1 i hi) (iblk1_3_eq V c t 0 k) (iblk1_4_eq V c t k q)

/-- The scaled product of tile `t`'s blocks at `(p, q)` is the scaled array at row `2000 t + p`. -/
private theorem tile1_6 (t : Fin cfg1.N) (p : Fin 2000) (q : Fin 32) (i : Fin 100000) (hi : i.val = t.val * 2000 + p.val) :
    k1_pay4 (F := Ideal) (iblk1 V c 2 t) (iblk1 V c 0 t) (iblk1 V c 1 t) (iblk1 V c 3 t) (iblk1 V c 4 t) (ix2 p q)
      = G1_6 V c (ix2 i q) := by
  refine (pay4_apply (iblk1 V c 2 t) (iblk1 V c 0 t) (iblk1 V c 1 t) (iblk1 V c 3 t) (iblk1 V c 4 t) p q).trans ?_
  show _ = (∑ k : Fin 32, o1 V c i k * a1_wts V c (ix2 k q)) * a1_scale V c (ix2 i (0 : Fin 2))
  exact mul_congr (Finset.sum_congr rfl fun k _ => term_congr (iblk1_0_apply V c t p k i hi) (iblk1_2_apply V c t p 0 i hi) (iblk1_1_apply V c t p k i hi)
      (iblk1_2_apply V c t p 1 i hi) (iblk1_3_eq V c t 0 k) (iblk1_4_eq V c t k q)) (iblk1_2_apply V c t p 0 i hi)

/-! ## The write-backs and the arrays after the last tile -/

/-- What tile `t` writes back to output 5 is block `t` of `G1_5`. -/
private theorem flushed1_5_eq (t : Fin cfg1.N) :
    (dat1 (F := Ideal) V c).flushed 5 t = ((cfg1.win 5).blk t).view.read (Elt Ideal) (G1_5 V c) := by
  show (cfg1.win 5).cut (grid1.coords t) ((dat1 (F := Ideal) V c).after 5 t) = _
  rw [after1_5, out1_5_eq]
  obtain ⟨-, -, -, -, -, -, -, -, -, -, e50, e51, e60, e61⟩ := idx1_facts t
  have hN : grid1.N = 50 := N_1
  have ht : t.val < grid1.N := t.isLt
  funext j
  have hj0 : (j 0).val < 2000 := (j 0).isLt
  have hj1 : (j 1).val < 32 := (j 1).isLt
  have hrow : t.val * 2000 + (j 0).val < 100000 := by omega
  have hx : (cfg1.win 5).xinj (grid1.coords t) j
      = (ix2 (⟨(j 0).val, hj0⟩ : Fin 2000) (⟨(j 1).val, hj1⟩ : Fin 32) : S2000x32.Idx) :=
    funext fun a => by match a with | ⟨0, _⟩ => rfl | ⟨1, _⟩ => rfl
  have he : ((cfg1.win 5).blk t).view.emb j
      = (ix2 (⟨t.val * 2000 + (j 0).val, hrow⟩ : Fin 100000) (⟨(j 1).val, hj1⟩ : Fin 32) : S100000x32.Idx) :=
    funext fun a => Fin.ext (by
      match a with
      | ⟨0, _⟩ => show win1_5.index t (0 : Fin 2) * 2000 + 1 * (j 0).val = t.val * 2000 + (j 0).val; omega
      | ⟨1, _⟩ => show win1_5.index t (1 : Fin 2) * 32 + 1 * (j 1).val = (j 1).val; omega)
  show k1_pay3 (F := Ideal) (iblk1 V c 2 t) (iblk1 V c 0 t) (iblk1 V c 1 t) (iblk1 V c 3 t) (iblk1 V c 4 t)
        ((cfg1.win 5).xinj (grid1.coords t) j)
      = G1_5 V c (((cfg1.win 5).blk t).view.emb j)
  rw [hx, he]
  exact tile1_5 V c t _ _ _ rfl

/-- An index of the array is in tile `t`'s block iff each coordinate is in the block's range on its axis. -/
private theorem mem_blk1_5 (t : Fin cfg1.N) (i : S100000x32.Idx) :
    i ∈ ((cfg1.win 5).blk t).view.set ↔ ∀ a : Fin 2, win1_5.index t a * S2000x32.size a ≤ (i a).val
      ∧ (i a).val < win1_5.index t a * S2000x32.size a + S2000x32.size a := by
  show i ∈ ((View.whole main_v30_0).slice (win1_5.rect t)).set ↔ _
  rw [View.set_slice_whole, Rect.mem_set_unit]
  exact Iff.rfl

/-- Row `r` lies in the block of tile `r / 2000`, which is written back: the blocks cover the array. -/
private theorem cover1_5 (i : S100000x32.Idx) :
    ∃ t : Fin cfg1.N, (cfg1.win 5).flush t = true ∧ i ∈ ((cfg1.win 5).blk t).view.set := by
  have hi0 : (i 0).val < 100000 := (i 0).isLt
  have hi1 : (i 1).val < 32 := (i 1).isLt
  have hN : grid1.N = 50 := N_1
  obtain ⟨t, ht⟩ : ∃ t : Fin cfg1.N, t.val = (i 0).val / 2000 :=
    ⟨⟨(i 0).val / 2000, by show (i 0).val / 2000 < grid1.N; omega⟩, rfl⟩
  obtain ⟨-, -, -, -, -, -, -, -, -, -, e50, e51, e60, e61⟩ := idx1_facts t
  refine ⟨t, flush1_5 t, ?_⟩
  rw [mem_blk1_5]
  intro a
  match a with
  | ⟨0, _⟩ =>
    show win1_5.index t (0 : Fin 2) * 2000 ≤ (i 0).val ∧ (i 0).val < win1_5.index t (0 : Fin 2) * 2000 + 2000
    omega
  | ⟨1, _⟩ =>
    show win1_5.index t (1 : Fin 2) * 32 ≤ (i 1).val ∧ (i 1).val < win1_5.index t (1 : Fin 2) * 32 + 32
    omega

/-- After the last tile output 5's array is `G1_5`. -/
private theorem final1_5 : (dat1 (F := Ideal) V c).arrAt 5 cfg1.N = G1_5 V c :=
  (dat1 (F := Ideal) V c).arrAt_eq_of_cover 5 (G1_5 V c) (fun t _ => flushed1_5_eq V c t) cover1_5

/-- What tile `t` writes back to output 6 is block `t` of `G1_6`. -/
private theorem flushed1_6_eq (t : Fin cfg1.N) :
    (dat1 (F := Ideal) V c).flushed 6 t = ((cfg1.win 6).blk t).view.read (Elt Ideal) (G1_6 V c) := by
  show (cfg1.win 6).cut (grid1.coords t) ((dat1 (F := Ideal) V c).after 6 t) = _
  rw [after1_6, out1_6_eq]
  obtain ⟨-, -, -, -, -, -, -, -, -, -, e50, e51, e60, e61⟩ := idx1_facts t
  have hN : grid1.N = 50 := N_1
  have ht : t.val < grid1.N := t.isLt
  funext j
  have hj0 : (j 0).val < 2000 := (j 0).isLt
  have hj1 : (j 1).val < 32 := (j 1).isLt
  have hrow : t.val * 2000 + (j 0).val < 100000 := by omega
  have hx : (cfg1.win 6).xinj (grid1.coords t) j
      = (ix2 (⟨(j 0).val, hj0⟩ : Fin 2000) (⟨(j 1).val, hj1⟩ : Fin 32) : S2000x32.Idx) :=
    funext fun a => by match a with | ⟨0, _⟩ => rfl | ⟨1, _⟩ => rfl
  have he : ((cfg1.win 6).blk t).view.emb j
      = (ix2 (⟨t.val * 2000 + (j 0).val, hrow⟩ : Fin 100000) (⟨(j 1).val, hj1⟩ : Fin 32) : S100000x32.Idx) :=
    funext fun a => Fin.ext (by
      match a with
      | ⟨0, _⟩ => show win1_6.index t (0 : Fin 2) * 2000 + 1 * (j 0).val = t.val * 2000 + (j 0).val; omega
      | ⟨1, _⟩ => show win1_6.index t (1 : Fin 2) * 32 + 1 * (j 1).val = (j 1).val; omega)
  show k1_pay4 (F := Ideal) (iblk1 V c 2 t) (iblk1 V c 0 t) (iblk1 V c 1 t) (iblk1 V c 3 t) (iblk1 V c 4 t)
        ((cfg1.win 6).xinj (grid1.coords t) j)
      = G1_6 V c (((cfg1.win 6).blk t).view.emb j)
  rw [hx, he]
  exact tile1_6 V c t _ _ _ rfl

/-- An index of the array is in tile `t`'s block iff each coordinate is in the block's range on its axis. -/
private theorem mem_blk1_6 (t : Fin cfg1.N) (i : S100000x32.Idx) :
    i ∈ ((cfg1.win 6).blk t).view.set ↔ ∀ a : Fin 2, win1_6.index t a * S2000x32.size a ≤ (i a).val
      ∧ (i a).val < win1_6.index t a * S2000x32.size a + S2000x32.size a := by
  show i ∈ ((View.whole main_v30_1).slice (win1_6.rect t)).set ↔ _
  rw [View.set_slice_whole, Rect.mem_set_unit]
  exact Iff.rfl

/-- Row `r` lies in the block of tile `r / 2000`, which is written back: the blocks cover the array. -/
private theorem cover1_6 (i : S100000x32.Idx) :
    ∃ t : Fin cfg1.N, (cfg1.win 6).flush t = true ∧ i ∈ ((cfg1.win 6).blk t).view.set := by
  have hi0 : (i 0).val < 100000 := (i 0).isLt
  have hi1 : (i 1).val < 32 := (i 1).isLt
  have hN : grid1.N = 50 := N_1
  obtain ⟨t, ht⟩ : ∃ t : Fin cfg1.N, t.val = (i 0).val / 2000 :=
    ⟨⟨(i 0).val / 2000, by show (i 0).val / 2000 < grid1.N; omega⟩, rfl⟩
  obtain ⟨-, -, -, -, -, -, -, -, -, -, e50, e51, e60, e61⟩ := idx1_facts t
  refine ⟨t, flush1_6 t, ?_⟩
  rw [mem_blk1_6]
  intro a
  match a with
  | ⟨0, _⟩ =>
    show win1_6.index t (0 : Fin 2) * 2000 ≤ (i 0).val ∧ (i 0).val < win1_6.index t (0 : Fin 2) * 2000 + 2000
    omega
  | ⟨1, _⟩ =>
    show win1_6.index t (1 : Fin 2) * 32 ≤ (i 1).val ∧ (i 1).val < win1_6.index t (1 : Fin 2) * 32 + 32
    omega

/-- After the last tile output 6's array is `G1_6`. -/
private theorem final1_6 : (dat1 (F := Ideal) V c).arrAt 6 cfg1.N = G1_6 V c :=
  (dat1 (F := Ideal) V c).arrAt_eq_of_cover 6 (G1_6 V c) (fun t _ => flushed1_6_eq V c t) cover1_6

/-! ## The two arrays at an entry -/

/-- The projected array at `(i, d)`. -/
theorem arr1_5_apply (i : Fin 100000) (d : Fin 32) :
    ((dat1 (F := Ideal) V c).arrAt 5 cfg1.N : S100000x32.Idx → EReal) (ix2 i d)
      = ∑ k : Fin 32, o1 V c i k * a1_wts V c (ix2 k d) :=
  congrFun (final1_5 V c) (ix2 i d)

/-- The scaled array at `(i, d)`. -/
theorem arr1_6_apply (i : Fin 100000) (d : Fin 32) :
    ((dat1 (F := Ideal) V c).arrAt 6 cfg1.N : S100000x32.Idx → EReal) (ix2 i d)
      = (∑ k : Fin 32, o1 V c i k * a1_wts V c (ix2 k d)) * a1_scale V c (ix2 i (0 : Fin 2)) :=
  congrFun (final1_6 V c) (ix2 i d)

end Cert.KernelIdeal.Val

end
-- ==== Proof.LibRealSums.lean ====
import Idealize.ShloMosaic.PureOps.Ideal

/-! # Finite sums of extended reals that are real numbers

On the extended reals a product does not distribute over a sum, and a factor does not move across a sum, once an
infinity is among the terms; among real numbers both hold. `IsReal x` says the extended real `x` is a real number; it is
kept by sums, products, maxima, inverses and by the quotient `Ideal.div` by a non-zero divisor. Two laws follow:

* `div_eq_mul_div_one`: dividing by a non-zero `c` is multiplying by the reciprocal `1 / c` (no finiteness needed);
* `sum_div_mul_eq`: for real terms `a e k` and real weights `w k`, summing over a finite set `E` first, dividing by
  `c ≠ 0` and contracting with `w` is the same as contracting each `a e ·` with `w`, summing over `E`, and multiplying by the
  reciprocal `1 / c` — the average of linear images is the linear image of the average. -/

open scoped BigOperators

namespace Idealize.ShloMosaic.RealSums

open Idealize.ShloMosaic

/-- The extended real `x` is a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy
  exact ⟨a + b, (EReal.coe_add a b).symm⟩

theorem IsReal.mul {x y : EReal} (hx : IsReal x) (hy : IsReal y) : IsReal (x * y) := by
  obtain ⟨a, rfl⟩ := hx; obtain ⟨b, rfl⟩ := hy
  exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

theorem IsReal.sum {ι : Type*} (s : Finset ι) (f : ι → EReal) (h : ∀ i ∈ s, IsReal (f i)) :
    IsReal (∑ i ∈ s, f i) :=
  Finset.sum_induction f IsReal (fun _ _ => IsReal.add) IsReal.zero h

/-- The inverse of ANY extended real is a real number: the infinities invert to zero. -/
theorem IsReal.inv (c : EReal) : IsReal c⁻¹ := by
  induction c using EReal.rec with
  | bot => exact ⟨0, EReal.inv_bot⟩
  | top => exact ⟨0, EReal.inv_top⟩
  | coe r => exact ⟨r⁻¹, (EReal.coe_inv r).symm⟩

theorem IsReal.div {x c : EReal} (hx : IsReal x) (hc : c ≠ 0) : IsReal (Ideal.div x c) := by
  rw [Ideal.div, if_neg hc]; exact hx.mul (IsReal.inv c)

/-- The coercion of a finite sum of reals is the sum of the coercions. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Dividing by a non-zero `c` is multiplying by its reciprocal. -/
theorem div_eq_mul_div_one (x : EReal) {c : EReal} (hc : c ≠ 0) : Ideal.div x c = x * Ideal.div 1 c := by
  rw [Ideal.div, if_neg hc, Ideal.div, if_neg hc, one_mul]

/-- THE AVERAGE OF LINEAR IMAGES: real terms summed over `E`, divided by `c ≠ 0`, contracted with real weights, against
    each term contracted first, then summed over `E`, then scaled by the reciprocal of `c`. -/
theorem sum_div_mul_eq {ι κ : Type*} [Fintype κ] (E : Finset ι) (a : ι → κ → EReal) (w : κ → EReal) (c : EReal)
    (ha : ∀ e k, IsReal (a e k)) (hw : ∀ k, IsReal (w k)) (hc : c ≠ 0) :
    ∑ k, Ideal.div (∑ e ∈ E, a e k) c * w k = (∑ e ∈ E, ∑ k, a e k * w k) * Ideal.div 1 c := by
  obtain ⟨r, hr⟩ := IsReal.inv c
  choose a' ha' using ha
  choose w' hw' using hw
  have hd : ∀ x, Ideal.div x c = x * (r : EReal) := fun x => by rw [Ideal.div, if_neg hc, hr]
  simp only [hd, ha', hw', one_mul, ← coe_sum, ← EReal.coe_mul]
  rw [EReal.coe_eq_coe_iff]
  simp only [Finset.sum_mul]
  rw [Finset.sum_comm]
  refine Finset.sum_congr rfl fun e _ => Finset.sum_congr rfl fun k _ => ?_
  ring

end Idealize.ShloMosaic.RealSums
-- ==== Proof.Spec.lean ====
import Idealize.ShloMosaic.PureOps.Ideal
import Idealize.ShloMosaic.Lib.ValueIdx
import proofs.«410742_j70944269795814_3_alg».proof.Proof.LibRealSums

/-! # Two layers of graph convolution, mean pooling over graphs and a linear head: the two results

Nodes `i < 100000` carry feature rows `x i`; edge `e < 1600000` has a source word and a destination word; node `r`
belongs to the graph its word `bi r` names. With `deg i = #{e | dst e = i} + 1` and `dis i = 1/√(deg i)`, one layer
sends node values `h` to `max (∑_{e → i} h(src e) · dis(src e) · dis i + h i · dis i² + b) 0`. The result is, per graph
`g < 512`, the mean over the graph's nodes of the second layer's rows, contracted with `Wo`, plus `bo`.

Both programs index as jnp does: a source word is wrapped when negative and clamped into the table (`node`), while a
scattered update whose destination word is no node (`onDst`), or whose graph word is no graph (`inGraph`), is dropped.

`k…` is the arrangement that factors `dis i` out of the sum over incoming edges and pools through 0/1 weights;
`r…` keeps the factor inside each message and pools by selecting the graph's nodes. -/

noncomputable section

open scoped BigOperators

namespace Cert.Gcn

open Idealize.ShloMosaic Idealize.ShloMosaic.ValueIdx Idealize.ShloMosaic.RealSums

/-- The nine argument arrays, at the ideal values. -/
structure Args where
  x  : (⟨2, ![100000, 128]⟩ : Shape).Idx → EReal
  ei : (⟨2, ![2, 1600000]⟩ : Shape).Idx → BitVec 32
  bi : (⟨1, ![100000]⟩ : Shape).Idx → BitVec 32
  W1 : (⟨2, ![128, 32]⟩ : Shape).Idx → EReal
  b1 : (⟨1, ![32]⟩ : Shape).Idx → EReal
  W2 : (⟨2, ![32, 32]⟩ : Shape).Idx → EReal
  b2 : (⟨1, ![32]⟩ : Shape).Idx → EReal
  Wo : (⟨2, ![32, 1]⟩ : Shape).Idx → EReal
  bo : (⟨1, ![1]⟩ : Shape).Idx → EReal

/-- Every float entry is a real number. -/
structure Args.Finite (a : Args) : Prop where
  x  : ∀ i, IsReal (a.x i)
  W1 : ∀ i, IsReal (a.W1 i)
  b1 : ∀ i, IsReal (a.b1 i)
  W2 : ∀ i, IsReal (a.W2 i)
  b2 : ∀ i, IsReal (a.b2 i)
  Wo : ∀ i, IsReal (a.Wo i)
  bo : ∀ i, IsReal (a.bo i)

/-- The float `1.0` as the two programs spell it: a 32-bit pattern, and a 16-bit one. -/
def one32 : EReal := Ideal.ofBits .f32 0x3F800000#32
def one16 : EReal := Ideal.ofBits .bf16 0x3F80#16

/-- jnp's index normalisation: a negative word has the table's length added. -/
def wrapW (v : BitVec 32) : BitVec 32 := Scalar.select (IntOp.cmpi .slt v 0#32) (IntOp.addi v 100000#32) v

/-- The node a gather reads for the word `v`: wrapped, read signed, clamped into the table. -/
def node (v : BitVec 32) : Fin 100000 := ⟨min (wrapW v).toInt.toNat (100000 - 1), by omega⟩

variable (a : Args)

def srcW (e : Fin 1600000) : BitVec 32 := a.ei (ix2 (0 : Fin 2) e)
def dstW (e : Fin 1600000) : BitVec 32 := a.ei (ix2 (1 : Fin 2) e)

/-- The edges whose destination word, read signed, is node `i`. -/
def onDst (i : Fin 100000) : Finset (Fin 1600000) :=
  Finset.univ.filter fun e => (dstW a e).toInt = (i.val : Int)

/-- The nodes whose graph word, read signed, is graph `g`. -/
def inGraph (g : Fin 512) : Finset (Fin 100000) :=
  Finset.univ.filter fun r => (a.bi (ix1 r)).toInt = (g.val : Int)

/-- In-degree plus the self loop, and its inverse square root. -/
def deg (i : Fin 100000) : EReal := (∑ _e ∈ onDst a i, one32) + one32
def dis (i : Fin 100000) : EReal := Ideal.rsqrt (deg a i)

/-- The first dense projection. -/
def lin1 (i : Fin 100000) (d : Fin 32) : EReal := ∑ k : Fin 128, a.x (ix2 i k) * a.W1 (ix2 k d)

/-! ## The arrangement that factors the destination's scale out -/

def kAgg (hs : Fin 100000 → Fin 32 → EReal) (i : Fin 100000) (d : Fin 32) : EReal :=
  ∑ e ∈ onDst a i, hs (node (srcW a e)) d

def kFin (agg h : Fin 100000 → Fin 32 → EReal) (b : (⟨1, ![32]⟩ : Shape).Idx → EReal) (i : Fin 100000) (d : Fin 32) : EReal :=
  max ((agg i d * dis a i + h i d * (dis a i * dis a i)) + b (ix1 d)) 0

def kOut1 : Fin 100000 → Fin 32 → EReal :=
  kFin a (kAgg a fun i d => lin1 a i d * dis a i) (lin1 a) a.b1

def kLin2 (i : Fin 100000) (d : Fin 32) : EReal := ∑ k : Fin 32, kOut1 a i k * a.W2 (ix2 k d)

def kOut2 : Fin 100000 → Fin 32 → EReal :=
  kFin a (kAgg a fun i d => kLin2 a i d * dis a i) (kLin2 a) a.b2

/-- The 0/1 weight of node `r` for graph `g`: the comparison bit of the node's word with `g`, widened, as a float. -/
def oh (r : Fin 100000) (g : Fin 512) : EReal :=
  ((((IntOp.cmpi .eq (a.bi (ix1 r)) (BitVec.ofNat 32 g.val)).setWidth 32).toInt : ℝ) : EReal)

def kSum (g : Fin 512) (d : Fin 32) : EReal := ∑ r : Fin 100000, oh a r g * kOut2 a r d
def kCnt (g : Fin 512) : EReal := ∑ r : Fin 100000, oh a r g * one16

def kRes (g : Fin 512) : EReal :=
  (∑ d : Fin 32, Ideal.div (kSum a g d) (max (kCnt a g) one32) * a.Wo (ix2 d (0 : Fin 1))) + a.bo (ix1 (0 : Fin 1))

/-! ## The arrangement that scales each message -/

def rAgg (h : Fin 100000 → Fin 32 → EReal) (i : Fin 100000) (d : Fin 32) : EReal :=
  ∑ e ∈ onDst a i, h (node (srcW a e)) d * (dis a (node (srcW a e)) * dis a (node (dstW a e)))

def rFin (agg h : Fin 100000 → Fin 32 → EReal) (b : (⟨1, ![32]⟩ : Shape).Idx → EReal) (i : Fin 100000) (d : Fin 32) : EReal :=
  max ((agg i d + h i d * (dis a i * dis a i)) + b (ix1 d)) 0

def rOut1 : Fin 100000 → Fin 32 → EReal := rFin a (rAgg a (lin1 a)) (lin1 a) a.b1

def rLin2 (i : Fin 100000) (d : Fin 32) : EReal := ∑ k : Fin 32, rOut1 a i k * a.W2 (ix2 k d)

def rOut2 : Fin 100000 → Fin 32 → EReal := rFin a (rAgg a (rLin2 a)) (rLin2 a) a.b2

def rSum (g : Fin 512) (d : Fin 32) : EReal := ∑ r ∈ inGraph a g, rOut2 a r d
def rCnt (g : Fin 512) : EReal := ∑ _r ∈ inGraph a g, one32

def rRes (g : Fin 512) : EReal :=
  (∑ d : Fin 32, Ideal.div (rSum a g d) (max (rCnt a g) one32) * a.Wo (ix2 d (0 : Fin 1))) + a.bo (ix1 (0 : Fin 1))

end Cert.Gcn

end
-- ==== Proof.Val2.lean ====
/- # The third region at the ideal values: the two accumulators after the last tile, and the result column

The region walks fifty tiles of 2000 node rows. Row `r'` of tile `n` is row `2000 · n + r'` of each row-tiled array (the
summed messages, the second projection, the two-column scale table, the graph words); the bias row, the head's weights and
the head's bias are read whole at every tile.

At a tile, the entry `(g, r')` of the transposed membership matrix is the comparison bit of the row's graph word with `g`,
widened and read as a float: `oh2` of the row. The tile's rows are `max (agg · dis + h · dis² + b) 0`: `o2` of the row. A
product with that matrix into a zero accumulator is a sum over the tile's 2000 rows, so a tile adds
`∑ r', oh2 · o2` to the sums and `∑ r', oh2 · 1` to the counts. By induction over the tiles, after tile `n` the accumulators
hold those sums over the rows of tiles `0 … n`; fifty tiles of 2000 rows are the 100000 rows, each once. The result column
divides the sums by `max count 1`, contracts with the head's weights and adds the head's bias. -/
import proofs.«410742_j70944269795814_3_alg».proof.Proof.Reg2Defs
import proofs.«410742_j70944269795814_3_alg».proof.Proof.Spec
import proofs.«410742_j70944269795814_3_alg».proof.Proof.LibMeanAggregate
import Idealize.ShloMosaic.Lib.ValueIdx
import Idealize.ShloMosaic.Lib.Pipeline.Value
import Idealize.ShloMosaic.Lib.ValueLayout
import Idealize.ShloMosaic.PureOps.Ideal.Laws
import Mathlib.Logic.Equiv.Fin.Basic
import Mathlib.Data.Fintype.BigOperators
import Mathlib.Algebra.BigOperators.Fin

set_option maxRecDepth 16384

noncomputable section

open scoped BigOperators

namespace Cert.KernelIdeal.Val

open Idealize.ShloMosaic Idealize.ShloMosaic.TcCoe
open Idealize.SL Idealize.SL.Sem
open Cert.KernelIdeal Cert.KernelIdeal.Gen Cert.KernelIdeal.Hand Idealize.ShloMosaic.ValueIdx
open Idealize.ShloMosaic.MeanAggregate

/-! ## One column broadcast over many -/

/-- An `[a, 1]` array broadcast to `[a, b]` reads, at `(p, q)`, the operand's one column at `p`. -/
private theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-! ## The three products are plain `M × K` by `K × N` -/

theorem dot2_sums : dot_S512x2000_S2000x32_S512x32_1_0_0_1_n_n = DotDims.plain 512 2000 32 := rfl
theorem dot2_counts : dot_S512x2000_S2000x1_S512x1_1_0_0_1_n_n = DotDims.plain 512 2000 1 := rfl
theorem dot2_head : dot_S512x32_S32x1_S512x1_1_0_0_1_n_n = DotDims.plain 512 32 1 := rfl

/-! ## A tile's payloads read at an index -/

/-- The 0/1 weight of row `r` of a tile for graph `g`: the comparison bit of the row's graph word with `g`, widened, as a float. -/
def memb2 (w : Vec Ideal S2000x1 .i32) (g : Fin 512) (r : Fin 2000) : EReal :=
  ((((IntOp.cmpi .eq ((w : S2000x1.Idx → BitVec 32) (ix2 r (0 : Fin 1))) (BitVec.ofNat 32 g.val)).setWidth 32).toInt : ℝ) : EReal)

/-- Row `r` of a tile's finished second layer at column `d`. -/
def row2 (x3 : Vec Ideal S2000x2 .f32) (x7 x11 : Vec Ideal S2000x32 .f32) (x16 : Vec Ideal S1x32 .f32) (r : Fin 2000) (d : Fin 32) : EReal :=
  max (((x7 : S2000x32.Idx → EReal) (ix2 r d) * (x3 : S2000x2.Idx → EReal) (ix2 r (0 : Fin 2))
      + (x11 : S2000x32.Idx → EReal) (ix2 r d) * (x3 : S2000x2.Idx → EReal) (ix2 r (1 : Fin 2)))
      + (x16 : S1x32.Idx → EReal) (ix2 (0 : Fin 1) d)) 0

/-- The transposed membership matrix is this tree of operations of the tile's graph words. -/
theorem k2_pay6_eq (w : Vec Ideal S2000x1 .i32) :
    k2_pay6 (F := Ideal) w
      = transpose S512x2000 [1, 0]
          (truncf .bf16
            (sitofp .f32
              (extui 32
                (cmpi .eq
                  (broadcastTo S2000x512 (shapeCast S2000x1 w shapeCasts_S2000x1_S2000x1) broadcasts_S2000x1_S2000x512)
                  (broadcastTo S2000x512 (iota .tc S1x512 32 [1] iota_S1x512_d1_w32) broadcasts_S1x512_S2000x512))
                natLt_1_32) : FVec Ideal S2000x512 .f32)
            bitsLt_bf16_f32)
          transposes_S2000x512_p1_0_S512x2000 := rfl

/-- Its entry `(g, r)`: the transpose reads `(r, g)`; there the words' column is broadcast along the graphs and the
    graphs' numbering along the rows; the comparison, the widening, the conversion and the narrowing are pointwise. -/
theorem k2_pay6_apply (w : Vec Ideal S2000x1 .i32) (g : Fin 512) (r : Fin 2000) :
    (k2_pay6 (F := Ideal) w : S512x2000.Idx → EReal) (ix2 g r) = memb2 w g r := by
  rw [k2_pay6_eq, transpose_ix2_apply]
  show ((((IntOp.cmpi .eq
      (broadcastTo S2000x512 (shapeCast S2000x1 w shapeCasts_S2000x1_S2000x1) broadcasts_S2000x1_S2000x512 (ix2 r g))
      (broadcastTo S2000x512 (iota .tc S1x512 32 [1] iota_S1x512_d1_w32) broadcasts_S1x512_S2000x512 (ix2 r g))).setWidth 32).toInt : ℝ) : EReal) = _
  rw [broadcastTo_a1_ab_apply, broadcastTo_1b_ab_apply, shapeCast_self, iota_single_apply]
  rfl

/-- The tile's rows, as the tree of operations they are. -/
def tileRows2 (x3 : Vec Ideal S2000x2 .f32) (x7 x11 : Vec Ideal S2000x32 .f32) (x16 : Vec Ideal S1x32 .f32) : FVec Ideal S2000x32 .f32 :=
  maximumf
    (addf
      (addf
        (mulf (shapeCast S2000x32 x7 shapeCasts_S2000x32_S2000x32)
          (broadcastTo S2000x32
            (extractStridedSlice S2000x1 ![0, 0] (shapeCast S2000x2 x3 shapeCasts_S2000x2_S2000x2) slices_S2000x2_o0_0_S2000x1)
            broadcasts_S2000x1_S2000x32))
        (mulf (shapeCast S2000x32 x11 shapeCasts_S2000x32_S2000x32)
          (broadcastTo S2000x32
            (extractStridedSlice S2000x1 ![0, 1] (shapeCast S2000x2 x3 shapeCasts_S2000x2_S2000x2) slices_S2000x2_o0_1_S2000x1)
            broadcasts_S2000x1_S2000x32)))
      (broadcastTo S2000x32 (shapeCast S1x32 x16 shapeCasts_S1x32_S1x32) broadcasts_S1x32_S2000x32))
    (broadcast S2000x32 (Scalar.ofBits (F := Ideal) .f32 0x00000000#32))

/-- At `(r, d)`: the two scale columns are cut from the table and broadcast along the features, the bias row along the
    rows; the casts to the same shape are the identity; the zero word is zero. -/
theorem tileRows2_apply (x3 : Vec Ideal S2000x2 .f32) (x7 x11 : Vec Ideal S2000x32 .f32) (x16 : Vec Ideal S1x32 .f32)
    (r : Fin 2000) (d : Fin 32) : tileRows2 x3 x7 x11 x16 (ix2 r d) = row2 x3 x7 x11 x16 r d := by
  unfold tileRows2 row2
  rw [maximumf_apply, addf_apply, addf_apply, mulf_apply, mulf_apply, broadcast_apply,
    broadcastTo_a1_ab_apply, broadcastTo_a1_ab_apply, broadcastTo_1b_ab_apply,
    slice2_axis1_apply 0 _ _ r (0 : Fin 1) (0 : Fin 2) rfl,
    slice2_axis1_apply 1 _ _ r (0 : Fin 1) (1 : Fin 2) rfl]
  simp only [shapeCast_self]
  rw [show Scalar.ofBits (F := Ideal) .f32 0x00000000#32 = (0 : EReal) from Ideal.ofBits_zero_f32]

/-- The sums' step is the previous sums plus the membership matrix times the tile's rows. -/
theorem k2_pay8_eq (x3 : Vec Ideal S2000x2 .f32) (x7 x11 : Vec Ideal S2000x32 .f32) (x16 : Vec Ideal S1x32 .f32)
    (w : Vec Ideal S2000x1 .i32) (acc : Vec Ideal S512x32 .f32) :
    k2_pay8 (F := Ideal) x3 x7 x11 x16 w acc
      = addf acc (matmul dot_S512x2000_S2000x32_S512x32_1_0_0_1_n_n none (k2_pay6 (F := Ideal) w)
          (truncf .bf16 (tileRows2 x3 x7 x11 x16) bitsLt_bf16_f32) (constant (F := Ideal) S512x32 .f32 0x00000000#32)) := rfl

/-- At `(g, d)`: a product into the zero accumulator is the sum over the tile's rows. -/
theorem k2_pay8_apply (x3 : Vec Ideal S2000x2 .f32) (x7 x11 : Vec Ideal S2000x32 .f32) (x16 : Vec Ideal S1x32 .f32)
    (w : Vec Ideal S2000x1 .i32) (acc : Vec Ideal S512x32 .f32) (g : Fin 512) (d : Fin 32) :
    (k2_pay8 (F := Ideal) x3 x7 x11 x16 w acc : S512x32.Idx → EReal) (ix2 g d)
      = (acc : S512x32.Idx → EReal) (ix2 g d) + ∑ r : Fin 2000, memb2 w g r * row2 x3 x7 x11 x16 r d := by
  rw [k2_pay8_eq, addf_apply, dot2_sums, plain_matmul_zero_apply]
  congr 1
  refine Finset.sum_congr rfl fun r _ => ?_
  rw [k2_pay6_apply, truncf_apply, tileRows2_apply]

/-- The counts' addend is the membership matrix times a column of ones. -/
theorem k2_pay7_eq (w : Vec Ideal S2000x1 .i32) :
    k2_pay7 (F := Ideal) w
      = matmul dot_S512x2000_S2000x1_S512x1_1_0_0_1_n_n none (k2_pay6 (F := Ideal) w)
          (broadcast S2000x1 (Scalar.ofBits (F := Ideal) .bf16 0x3F80#16)) (constant (F := Ideal) S512x1 .f32 0x00000000#32) := rfl

theorem k2_pay7_apply (w : Vec Ideal S2000x1 .i32) (g : Fin 512) :
    (k2_pay7 (F := Ideal) w : S512x1.Idx → EReal) (ix2 g (0 : Fin 1)) = ∑ r : Fin 2000, memb2 w g r * Cert.Gcn.one16 := by
  rw [k2_pay7_eq, dot2_counts, plain_matmul_zero_apply]
  refine Finset.sum_congr rfl fun r _ => ?_
  rw [k2_pay6_apply, broadcast_apply]
  rfl

/-- A cast to the same shape stores what it is given. -/
theorem k2_pay1_eq (s : FVec Ideal S512x32 .f32) : k2_pay1 (F := Ideal) s = s := shapeCast_self _ _

/-- The counts' step adds the addend to the previous counts. -/
theorem k2_pay2_apply (p : FVec Ideal S512x1 .f32) (n : Vec Ideal S512x1 .f32) (i : S512x1.Idx) :
    (k2_pay2 (F := Ideal) p n : S512x1.Idx → EReal) i = (n : S512x1.Idx → EReal) i + p i := by
  show shapeCast S512x1 (addf n p) shapeCasts_S512x1_S512x1 i = _
  rw [shapeCast_self]
  rfl

/-- Both accumulators are reset to zero. -/
theorem k2_pay4_apply (i : S512x32.Idx) : (k2_pay4 (F := Ideal) : S512x32.Idx → EReal) i = 0 := by
  show shapeCast S512x32 (broadcast S512x32 (Scalar.ofBits (F := Ideal) .f32 0x00000000#32)) shapeCasts_S512x32_S512x32 i = 0
  rw [shapeCast_self, broadcast_apply]
  exact Ideal.ofBits_zero_f32

theorem k2_pay5_apply (i : S512x1.Idx) : (k2_pay5 (F := Ideal) : S512x1.Idx → EReal) i = 0 := by
  show shapeCast S512x1 (broadcast S512x1 (Scalar.ofBits (F := Ideal) .f32 0x00000000#32)) shapeCasts_S512x1_S512x1 i = 0
  rw [shapeCast_self, broadcast_apply]
  exact Ideal.ofBits_zero_f32

/-- The result column, as the tree of operations it is. -/
theorem k2_pay3_eq (s : Vec Ideal S512x32 .f32) (n : Vec Ideal S512x1 .f32) (wo : Vec Ideal S32x1 .f32) (bo : Vec Ideal S1x1 .f32) :
    k2_pay3 (F := Ideal) s n wo bo
      = addf
          (matmul dot_S512x32_S32x1_S512x1_1_0_0_1_n_n none
            (truncf .bf16
              (divf s (broadcastTo S512x32
                (maximumf n (broadcast S512x1 (Scalar.ofBits (F := Ideal) .f32 0x3F800000#32))) broadcasts_S512x1_S512x32))
              bitsLt_bf16_f32)
            (truncf .bf16 wo bitsLt_bf16_f32) (constant (F := Ideal) S512x1 .f32 0x00000000#32))
          (broadcastTo S512x1 (shapeCast S1x1 bo shapeCasts_S1x1_S1x1) broadcasts_S1x1_S512x1) := rfl

/-- At `(g, 0)`: the sums over `max count 1` (the count's column broadcast along the features), contracted with the head's
    weights, plus the head's bias (its one entry broadcast along the graphs). -/
theorem k2_pay3_apply (s : Vec Ideal S512x32 .f32) (n : Vec Ideal S512x1 .f32) (wo : Vec Ideal S32x1 .f32) (bo : Vec Ideal S1x1 .f32)
    (g : Fin 512) :
    (k2_pay3 (F := Ideal) s n wo bo : S512x1.Idx → EReal) (ix2 g (0 : Fin 1))
      = (∑ d : Fin 32, Ideal.div ((s : S512x32.Idx → EReal) (ix2 g d)) (max ((n : S512x1.Idx → EReal) (ix2 g (0 : Fin 1))) Cert.Gcn.one32)
            * (wo : S32x1.Idx → EReal) (ix2 d (0 : Fin 1)))
        + (bo : S1x1.Idx → EReal) (ix2 (0 : Fin 1) (0 : Fin 1)) := by
  rw [k2_pay3_eq, addf_apply, dot2_head, plain_matmul_zero_apply, broadcastTo_1b_ab_apply, shapeCast_self]
  congr 1
  refine Finset.sum_congr rfl fun d _ => ?_
  rw [truncf_apply, truncf_apply, divf_apply, broadcastTo_a1_ab_apply, maximumf_apply, broadcast_apply]
  rfl

/-! ## A tile's blocks are rows of the arrays -/

/-- The block index of each input window at each tile: the tile's number along the rows for the row-tiled arrays, zero
    for the three read whole; zero along the columns for all. -/
theorem idx2 : ∀ t : Fin cfg2.N,
      win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- Row `r` of tile `s` as a row of the arrays: `2000 · s + r` (reduced below 100000, so that it is a row for every `s`;
    for a tile of the grid the reduction does nothing). -/
def rowOf2 (s : ℕ) (r : Fin 2000) : Fin 100000 := ⟨(2000 * s + r.val) % 100000, Nat.mod_lt _ (by decide)⟩

variable (V : (c : Dev nD) → (b : Ref sig .tc) → Buf (Elt Ideal) ((c : Thread nD τ).loc b)) (c : Dev nD)

/-! ## The region's input arrays as it finds them, each at its literal type -/

/-- The summed messages. -/
abbrev a2_agg : S100000x32.Idx → EReal := V c main_v40
/-- The second projection. -/
abbrev a2_h : S100000x32.Idx → EReal := V c main_v30_0
/-- The scale table: columns `dis` and `dis²`. -/
abbrev a2_scale : S100000x2.Idx → EReal := V c main_v14
/-- The second layer's bias row. -/
abbrev a2_bias : S1x32.Idx → EReal := V c main_v16
/-- The nodes' graph words. -/
abbrev a2_batch : S100000x1.Idx → BitVec 32 := V c main_v17
/-- The head's weights. -/
abbrev a2_wo : S32x1.Idx → EReal := V c main_arg7
/-- The head's bias. -/
abbrev a2_bo : S1x1.Idx → EReal := V c main_v18

/-- Row `r`'s finished second layer at column `d`. -/
def o2 (r : Fin 100000) (d : Fin 32) : EReal :=
  max ((a2_agg V c (ix2 r d) * a2_scale V c (ix2 r (0 : Fin 2)) + a2_h V c (ix2 r d) * a2_scale V c (ix2 r (1 : Fin 2)))
      + a2_bias V c (ix2 (0 : Fin 1) d)) 0

/-- Row `r`'s 0/1 weight for graph `g`: the comparison bit of its graph word with `g`, widened, as a float. -/
def oh2 (r : Fin 100000) (g : Fin 512) : EReal :=
  ((((IntOp.cmpi .eq (a2_batch V c (ix2 r (0 : Fin 1))) (BitVec.ofNat 32 g.val)).setWidth 32).toInt : ℝ) : EReal)

/-- The summed messages' block at tile `n`, read at `(r, d)`: row `2000 · n + r` of the array. -/
theorem iblk2_0_apply (n : ℕ) (hn : n < cfg2.N) (r : Fin 2000) (d : Fin 32) :
    (iblk2 (F := Ideal) V c 0 ⟨n, hn⟩ : S2000x32.Idx → EReal) (ix2 r d) = a2_agg V c (ix2 (rowOf2 n r) d) := by
  have e := idx2 ⟨n, hn⟩
  have e0 : win2_0.index ⟨n, hn⟩ (0 : Fin 2) = n := e.1
  have e1 : win2_0.index ⟨n, hn⟩ (1 : Fin 2) = 0 := e.2.1
  have h50 : n < 50 := lt_of_lt_of_eq hn N_2
  have hr := r.isLt
  show (V c main_v40 : S100000x32.Idx → EReal) (((cfg2.win 0).blk ⟨n, hn⟩).view.emb (ix2 r d))
    = (V c main_v40 : S100000x32.Idx → EReal) (ix2 (rowOf2 n r) d)
  refine congrArg _ (funext fun a => Fin.ext ?_)
  match a with
  | ⟨0, _⟩ =>
    show win2_0.index ⟨n, hn⟩ (0 : Fin 2) * 2000 + 1 * r.val = (2000 * n + r.val) % 100000
    omega
  | ⟨1, _⟩ =>
    show win2_0.index ⟨n, hn⟩ (1 : Fin 2) * 32 + 1 * d.val = d.val
    omega

/-- The second projection's block. -/
theorem iblk2_1_apply (n : ℕ) (hn : n < cfg2.N) (r : Fin 2000) (d : Fin 32) :
    (iblk2 (F := Ideal) V c 1 ⟨n, hn⟩ : S2000x32.Idx → EReal) (ix2 r d) = a2_h V c (ix2 (rowOf2 n r) d) := by
  have e := idx2 ⟨n, hn⟩
  have e0 : win2_1.index ⟨n, hn⟩ (0 : Fin 2) = n := e.2.2.1
  have e1 : win2_1.index ⟨n, hn⟩ (1 : Fin 2) = 0 := e.2.2.2.1
  have h50 : n < 50 := lt_of_lt_of_eq hn N_2
  have hr := r.isLt
  show (V c main_v30_0 : S100000x32.Idx → EReal) (((cfg2.win 1).blk ⟨n, hn⟩).view.emb (ix2 r d))
    = (V c main_v30_0 : S100000x32.Idx → EReal) (ix2 (rowOf2 n r) d)
  refine congrArg _ (funext fun a => Fin.ext ?_)
  match a with
  | ⟨0, _⟩ =>
    show win2_1.index ⟨n, hn⟩ (0 : Fin 2) * 2000 + 1 * r.val = (2000 * n + r.val) % 100000
    omega
  | ⟨1, _⟩ =>
    show win2_1.index ⟨n, hn⟩ (1 : Fin 2) * 32 + 1 * d.val = d.val
    omega

/-- The scale table's block. -/
theorem iblk2_2_apply (n : ℕ) (hn : n < cfg2.N) (r : Fin 2000) (k : Fin 2) :
    (iblk2 (F := Ideal) V c 2 ⟨n, hn⟩ : S2000x2.Idx → EReal) (ix2 r k) = a2_scale V c (ix2 (rowOf2 n r) k) := by
  have e := idx2 ⟨n, hn⟩
  have e0 : win2_2.index ⟨n, hn⟩ (0 : Fin 2) = n := e.2.2.2.2.1
  have e1 : win2_2.index ⟨n, hn⟩ (1 : Fin 2) = 0 := e.2.2.2.2.2.1
  have h50 : n < 50 := lt_of_lt_of_eq hn N_2
  have hr := r.isLt
  show (V c main_v14 : S100000x2.Idx → EReal) (((cfg2.win 2).blk ⟨n, hn⟩).view.emb (ix2 r k))
    = (V c main_v14 : S100000x2.Idx → EReal) (ix2 (rowOf2 n r) k)
  refine congrArg _ (funext fun a => Fin.ext ?_)
  match a with
  | ⟨0, _⟩ =>
    show win2_2.index ⟨n, hn⟩ (0 : Fin 2) * 2000 + 1 * r.val = (2000 * n + r.val) % 100000
    omega
  | ⟨1, _⟩ =>
    show win2_2.index ⟨n, hn⟩ (1 : Fin 2) * 2 + 1 * k.val = k.val
    omega

/-- The bias row's block is the bias row. -/
theorem iblk2_3_apply (n : ℕ) (hn : n < cfg2.N) (d : Fin 32) :
    (iblk2 (F := Ideal) V c 3 ⟨n, hn⟩ : S1x32.Idx → EReal) (ix2 (0 : Fin 1) d) = a2_bias V c (ix2 (0 : Fin 1) d) := by
  have e := idx2 ⟨n, hn⟩
  have e0 : win2_3.index ⟨n, hn⟩ (0 : Fin 2) = 0 := e.2.2.2.2.2.2.1
  have e1 : win2_3.index ⟨n, hn⟩ (1 : Fin 2) = 0 := e.2.2.2.2.2.2.2.1
  have h50 : n < 50 := lt_of_lt_of_eq hn N_2
  show (V c main_v16 : S1x32.Idx → EReal) (((cfg2.win 3).blk ⟨n, hn⟩).view.emb (ix2 (0 : Fin 1) d))
    = (V c main_v16 : S1x32.Idx → EReal) (ix2 (0 : Fin 1) d)
  refine congrArg _ (funext fun a => Fin.ext ?_)
  match a with
  | ⟨0, _⟩ =>
    show win2_3.index ⟨n, hn⟩ (0 : Fin 2) * 1 + 1 * 0 = 0
    omega
  | ⟨1, _⟩ =>
    show win2_3.index ⟨n, hn⟩ (1 : Fin 2) * 32 + 1 * d.val = d.val
    omega

/-- The graph words' block. -/
theorem iblk2_4_apply (n : ℕ) (hn : n < cfg2.N) (r : Fin 2000) :
    (iblk2 (F := Ideal) V c 4 ⟨n, hn⟩ : S2000x1.Idx → BitVec 32) (ix2 r (0 : Fin 1)) = a2_batch V c (ix2 (rowOf2 n r) (0 : Fin 1)) := by
  have e := idx2 ⟨n, hn⟩
  have e0 : win2_4.index ⟨n, hn⟩ (0 : Fin 2) = n := e.2.2.2.2.2.2.2.2.1
  have e1 : win2_4.index ⟨n, hn⟩ (1 : Fin 2) = 0 := e.2.2.2.2.2.2.2.2.2.1
  have h50 : n < 50 := lt_of_lt_of_eq hn N_2
  have hr := r.isLt
  show (V c main_v17 : S100000x1.Idx → BitVec 32) (((cfg2.win 4).blk ⟨n, hn⟩).view.emb (ix2 r (0 : Fin 1)))
    = (V c main_v17 : S100000x1.Idx → BitVec 32) (ix2 (rowOf2 n r) (0 : Fin 1))
  refine congrArg _ (funext fun a => Fin.ext ?_)
  match a with
  | ⟨0, _⟩ =>
    show win2_4.index ⟨n, hn⟩ (0 : Fin 2) * 2000 + 1 * r.val = (2000 * n + r.val) % 100000
    omega
  | ⟨1, _⟩ =>
    show win2_4.index ⟨n, hn⟩ (1 : Fin 2) * 1 + 1 * 0 = 0
    omega

/-- The head's weights' block is the head's weights. -/
theorem iblk2_5_apply (n : ℕ) (hn : n < cfg2.N) (d : Fin 32) :
    (iblk2 (F := Ideal) V c 5 ⟨n, hn⟩ : S32x1.Idx → EReal) (ix2 d (0 : Fin 1)) = a2_wo V c (ix2 d (0 : Fin 1)) := by
  have e := idx2 ⟨n, hn⟩
  have e0 : win2_5.index ⟨n, hn⟩ (0 : Fin 2) = 0 := e.2.2.2.2.2.2.2.2.2.2.1
  have e1 : win2_5.index ⟨n, hn⟩ (1 : Fin 2) = 0 := e.2.2.2.2.2.2.2.2.2.2.2.1
  have h50 : n < 50 := lt_of_lt_of_eq hn N_2
  show (V c main_arg7 : S32x1.Idx → EReal) (((cfg2.win 5).blk ⟨n, hn⟩).view.emb (ix2 d (0 : Fin 1)))
    = (V c main_arg7 : S32x1.Idx → EReal) (ix2 d (0 : Fin 1))
  refine congrArg _ (funext fun a => Fin.ext ?_)
  match a with
  | ⟨0, _⟩ =>
    show win2_5.index ⟨n, hn⟩ (0 : Fin 2) * 32 + 1 * d.val = d.val
    omega
  | ⟨1, _⟩ =>
    show win2_5.index ⟨n, hn⟩ (1 : Fin 2) * 1 + 1 * 0 = 0
    omega

/-- The head's bias' block is the head's bias. -/
theorem iblk2_6_apply (n : ℕ) (hn : n < cfg2.N) :
    (iblk2 (F := Ideal) V c 6 ⟨n, hn⟩ : S1x1.Idx → EReal) (ix2 (0 : Fin 1) (0 : Fin 1)) = a2_bo V c (ix2 (0 : Fin 1) (0 : Fin 1)) := by
  have e := idx2 ⟨n, hn⟩
  have e0 : win2_6.index ⟨n, hn⟩ (0 : Fin 2) = 0 := e.2.2.2.2.2.2.2.2.2.2.2.2.1
  have e1 : win2_6.index ⟨n, hn⟩ (1 : Fin 2) = 0 := e.2.2.2.2.2.2.2.2.2.2.2.2.2
  have h50 : n < 50 := lt_of_lt_of_eq hn N_2
  show (V c main_v18 : S1x1.Idx → EReal) (((cfg2.win 6).blk ⟨n, hn⟩).view.emb (ix2 (0 : Fin 1) (0 : Fin 1)))
    = (V c main_v18 : S1x1.Idx → EReal) (ix2 (0 : Fin 1) (0 : Fin 1))
  refine congrArg _ (funext fun a => Fin.ext ?_)
  match a with
  | ⟨0, _⟩ =>
    show win2_6.index ⟨n, hn⟩ (0 : Fin 2) * 1 + 1 * 0 = 0
    omega
  | ⟨1, _⟩ =>
    show win2_6.index ⟨n, hn⟩ (1 : Fin 2) * 1 + 1 * 0 = 0
    omega

/-- A tile's weights and rows are the arrays' at the tile's rows. -/
theorem memb2_iblk (n : ℕ) (hn : n < cfg2.N) (g : Fin 512) (r : Fin 2000) :
    memb2 (iblk2 (F := Ideal) V c 4 ⟨n, hn⟩) g r = oh2 V c (rowOf2 n r) g := by
  unfold memb2 oh2
  rw [iblk2_4_apply V c n hn r]

theorem row2_iblk (n : ℕ) (hn : n < cfg2.N) (r : Fin 2000) (d : Fin 32) :
    row2 (iblk2 (F := Ideal) V c 2 ⟨n, hn⟩) (iblk2 (F := Ideal) V c 0 ⟨n, hn⟩) (iblk2 (F := Ideal) V c 1 ⟨n, hn⟩) (iblk2 (F := Ideal) V c 3 ⟨n, hn⟩) r d
      = o2 V c (rowOf2 n r) d := by
  unfold row2 o2
  rw [iblk2_0_apply V c n hn r d, iblk2_1_apply V c n hn r d, iblk2_2_apply V c n hn r (0 : Fin 2),
    iblk2_2_apply V c n hn r (1 : Fin 2), iblk2_3_apply V c n hn d]

/-! ## The accumulators tile by tile -/

/-- What tile `s` adds to the sums at `(g, d)`, and to the counts at `g`. -/
def tileSum2 (g : Fin 512) (d : Fin 32) (s : ℕ) : EReal := ∑ r : Fin 2000, oh2 V c (rowOf2 s r) g * o2 V c (rowOf2 s r) d
def tileCnt2 (g : Fin 512) (s : ℕ) : EReal := ∑ r : Fin 2000, oh2 V c (rowOf2 s r) g * Cert.Gcn.one16

/-- The recursion's two cases, one component at a time. -/
theorem acc2_zero_fst (h0 : 0 < cfg2.N) :
    (acc2 (F := Ideal) V c 0 h0).1
      = k2_pay1 (k2_pay8 (iblk2 V c 2 ⟨0, h0⟩) (iblk2 V c 0 ⟨0, h0⟩) (iblk2 V c 1 ⟨0, h0⟩) (iblk2 V c 3 ⟨0, h0⟩) (iblk2 V c 4 ⟨0, h0⟩) (k2_pay4 (F := Ideal))) := rfl

theorem acc2_zero_snd (h0 : 0 < cfg2.N) :
    (acc2 (F := Ideal) V c 0 h0).2 = k2_pay2 (k2_pay7 (iblk2 V c 4 ⟨0, h0⟩)) (k2_pay5 (F := Ideal)) := rfl

theorem acc2_succ_fst (n : ℕ) (hn : n + 1 < cfg2.N) :
    (acc2 (F := Ideal) V c (n + 1) hn).1
      = k2_pay1 (k2_pay8 (iblk2 V c 2 ⟨n + 1, hn⟩) (iblk2 V c 0 ⟨n + 1, hn⟩) (iblk2 V c 1 ⟨n + 1, hn⟩) (iblk2 V c 3 ⟨n + 1, hn⟩) (iblk2 V c 4 ⟨n + 1, hn⟩)
          (acc2 V c n (Nat.lt_of_succ_lt hn)).1) := rfl

theorem acc2_succ_snd (n : ℕ) (hn : n + 1 < cfg2.N) :
    (acc2 (F := Ideal) V c (n + 1) hn).2 = k2_pay2 (k2_pay7 (iblk2 V c 4 ⟨n + 1, hn⟩)) (acc2 V c n (Nat.lt_of_succ_lt hn)).2 := rfl

/-- One step of the sums at `(g, d)`, from any previous sums. -/
theorem step2_sums (n : ℕ) (hn : n < cfg2.N) (acc : Vec Ideal S512x32 .f32) (g : Fin 512) (d : Fin 32) :
    (k2_pay1 (k2_pay8 (iblk2 (F := Ideal) V c 2 ⟨n, hn⟩) (iblk2 V c 0 ⟨n, hn⟩) (iblk2 V c 1 ⟨n, hn⟩) (iblk2 V c 3 ⟨n, hn⟩) (iblk2 V c 4 ⟨n, hn⟩) acc)
        : S512x32.Idx → EReal) (ix2 g d)
      = (acc : S512x32.Idx → EReal) (ix2 g d) + tileSum2 V c g d n := by
  rw [k2_pay1_eq]
  refine (k2_pay8_apply (iblk2 (F := Ideal) V c 2 ⟨n, hn⟩) (iblk2 V c 0 ⟨n, hn⟩) (iblk2 V c 1 ⟨n, hn⟩) (iblk2 V c 3 ⟨n, hn⟩)
    (iblk2 V c 4 ⟨n, hn⟩) acc g d).trans (congrArg (fun z => (acc : S512x32.Idx → EReal) (ix2 g d) + z) ?_)
  unfold tileSum2
  exact Finset.sum_congr rfl fun r _ => by rw [memb2_iblk V c n hn g r, row2_iblk V c n hn r d]

/-- One step of the counts at `g`, from any previous counts. -/
theorem step2_counts (n : ℕ) (hn : n < cfg2.N) (cnt : Vec Ideal S512x1 .f32) (g : Fin 512) :
    (k2_pay2 (k2_pay7 (iblk2 (F := Ideal) V c 4 ⟨n, hn⟩)) cnt : S512x1.Idx → EReal) (ix2 g (0 : Fin 1))
      = (cnt : S512x1.Idx → EReal) (ix2 g (0 : Fin 1)) + tileCnt2 V c g n := by
  refine (k2_pay2_apply (k2_pay7 (iblk2 (F := Ideal) V c 4 ⟨n, hn⟩)) cnt (ix2 g (0 : Fin 1))).trans
    (congrArg (fun z => (cnt : S512x1.Idx → EReal) (ix2 g (0 : Fin 1)) + z) ?_)
  refine (k2_pay7_apply (iblk2 (F := Ideal) V c 4 ⟨n, hn⟩) g).trans ?_
  unfold tileCnt2
  exact Finset.sum_congr rfl fun r _ => by rw [memb2_iblk V c n hn g r]

/-- After tile `n` the sums hold the tiles' addends up to `n`, and so do the counts. -/
theorem acc2_apply : ∀ (n : ℕ) (hn : n < cfg2.N) (g : Fin 512),
      (∀ d : Fin 32, ((acc2 (F := Ideal) V c n hn).1 : S512x32.Idx → EReal) (ix2 g d) = ∑ s ∈ Finset.range (n + 1), tileSum2 V c g d s)
    ∧ ((acc2 (F := Ideal) V c n hn).2 : S512x1.Idx → EReal) (ix2 g (0 : Fin 1)) = ∑ s ∈ Finset.range (n + 1), tileCnt2 V c g s
  | 0, hn, g => by
    refine ⟨fun d => ?_, ?_⟩
    · rw [acc2_zero_fst, step2_sums V c 0 hn _ g d, k2_pay4_apply, Finset.sum_range_succ, Finset.sum_range_zero]
    · rw [acc2_zero_snd, step2_counts V c 0 hn _ g, k2_pay5_apply, Finset.sum_range_succ, Finset.sum_range_zero]
  | n + 1, hn, g => by
    obtain ⟨hs, hc⟩ := acc2_apply n (Nat.lt_of_succ_lt hn) g
    refine ⟨fun d => ?_, ?_⟩
    · rw [acc2_succ_fst, step2_sums V c (n + 1) hn _ g d, hs d, Finset.sum_range_succ _ (n + 1)]
    · rw [acc2_succ_snd, step2_counts V c (n + 1) hn _ g, hc, Finset.sum_range_succ _ (n + 1)]

/-! ## Fifty tiles of 2000 rows are the 100000 rows -/

/-- Tile `a`, row `b` ↦ row `2000 · a + b`, a bijection onto the rows. -/
def rows2Equiv : Fin 50 × Fin 2000 ≃ Fin 100000 := finProdFinEquiv.trans (finCongr (rfl : 50 * 2000 = 100000))

theorem rows2Equiv_apply (a : Fin 50) (b : Fin 2000) : rows2Equiv (a, b) = rowOf2 a.val b := by
  apply Fin.ext
  show b.val + 2000 * a.val = (2000 * a.val + b.val) % 100000
  have := a.isLt; have := b.isLt
  omega

/-- A sum over the tiles of sums over a tile's rows is the sum over the rows. -/
theorem sum_tiles2 (f : Fin 100000 → EReal) :
    ∑ s ∈ Finset.range 50, ∑ r : Fin 2000, f (rowOf2 s r) = ∑ i : Fin 100000, f i := by
  rw [Finset.sum_range, ← Equiv.sum_comp rows2Equiv f, Fintype.sum_prod_type]
  exact Finset.sum_congr rfl fun a _ => Finset.sum_congr rfl fun b _ => by rw [rows2Equiv_apply]

/-! ## The result column -/

theorem out2_7_last_apply (g : Fin 512) :
    (out2_7 (F := Ideal) V c ⟨49, by decide⟩ : S512x1.Idx → EReal) (ix2 g (0 : Fin 1))
      = (∑ d : Fin 32, Ideal.div (∑ r : Fin 100000, oh2 V c r g * o2 V c r d)
            (max (∑ r : Fin 100000, oh2 V c r g * Cert.Gcn.one16) Cert.Gcn.one32)
          * a2_wo V c (ix2 d (0 : Fin 1)))
        + a2_bo V c (ix2 (0 : Fin 1) (0 : Fin 1)) := by
  have h49 : 49 < cfg2.N := by decide
  obtain ⟨hs, hc⟩ := acc2_apply V c 49 h49 g
  show (k2_pay3 (acc2 (F := Ideal) V c 49 h49).1 (acc2 (F := Ideal) V c 49 h49).2 (iblk2 V c 5 ⟨49, h49⟩) (iblk2 V c 6 ⟨49, h49⟩)
      : S512x1.Idx → EReal) (ix2 g (0 : Fin 1)) = _
  refine (k2_pay3_apply (acc2 (F := Ideal) V c 49 h49).1 (acc2 (F := Ideal) V c 49 h49).2 (iblk2 V c 5 ⟨49, h49⟩) (iblk2 V c 6 ⟨49, h49⟩) g).trans ?_
  have hcnt : ∑ s ∈ Finset.range (49 + 1), tileCnt2 V c g s = ∑ r : Fin 100000, oh2 V c r g * Cert.Gcn.one16 :=
    sum_tiles2 fun r => oh2 V c r g * Cert.Gcn.one16
  have hsum : ∀ d : Fin 32, ∑ s ∈ Finset.range (49 + 1), tileSum2 V c g d s = ∑ r : Fin 100000, oh2 V c r g * o2 V c r d :=
    fun d => sum_tiles2 fun r => oh2 V c r g * o2 V c r d
  have hwo : ∀ d : Fin 32, (iblk2 (F := Ideal) V c 5 ⟨49, h49⟩ : S32x1.Idx → EReal) (ix2 d (0 : Fin 1))
      = a2_wo V c (ix2 d (0 : Fin 1)) := iblk2_5_apply V c 49 h49
  rw [hc, hcnt, iblk2_6_apply V c 49 h49]
  simp only [hs, hsum, hwo]

end Cert.KernelIdeal.Val

end
-- ==== Proof.LibScatterAddRows.lean ====
import Idealize.ShloMosaic.PureOps.Ideal
import Idealize.ShloMosaic.PureOps.Contract
import Idealize.ShloMosaic.Lib.ValueIdx

/-! # A float scatter-add of rows, read at an index

The accumulating float scatter `Host.scatterAdd d x idx upd` at the ideal values is, at every operand element, that
element plus the sum of the update elements that land on it. Worked out here, at any extents, for ROWS added into a
rank-2 operand: operand `[N, C]`, scatter indices `[K, 1]` (the index vector on axis 1), updates `[K, C]`; update row `e`
is added, whole, to the operand row named by the scatter index `idx[e, 0]` read as a SIGNED integer, and is dropped when
that integer is not a row of the operand (jax's `.at[rows].add(updates)`, `jax.ops.segment_sum`). So operand entry
`(i, j)` receives exactly the entries `(e, j)` of the update rows `e` whose scatter index is `i`
(`hostScatterAdd_rows_apply`). Stated at the literal dimension-number record `rowAddDims` and for ANY record with these
fields (the field equations are `rfl` at a printed record). -/

open scoped BigOperators

namespace Idealize.ShloMosaic.ScatterAddRows

open Idealize.ShloMosaic Idealize.ShloMosaic.ValueIdx

/-- The dimension numbers of a row scatter: operand `[N, C]`, scatter indices `[K, 1]`, updates `[K, C]`; the update's
    axis 1 is its window axis and goes to the operand's axis 1, the operand's axis 0 is the inserted (scattered) axis. -/
abbrev rowAddDims (N K C : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

section
variable {N K C w : Nat} (wf : ScatterDims.WF ⟨2, ![N, C]⟩ ⟨2, ![K, 1]⟩ ⟨2, ![K, C]⟩ [1] [0] [0] 1)
  (idx : IVec ⟨2, ![K, 1]⟩ w) (e : Fin K) (b : Fin C)

/-- On the row axis the window of update `(e, b)` starts at the scatter index `idx[e, 0]`, read signed. -/
theorem start_row : (rowAddDims N K C wf).start (ix2 e b) idx (0 : Fin 2) = (idx (ix2 e (0 : Fin 1))).toInt := by
  unfold ScatterDims.start
  rw [dif_pos (show (0 : Fin 2) ∈ (rowAddDims N K C wf).scatterDimsToOperandDims from List.mem_singleton.mpr rfl)]
  have hsi : (rowAddDims N K C wf).siIdx (ix2 e b) ⟨List.idxOf (0 : Fin 2) (rowAddDims N K C wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- On the column axis the window starts at `0`: the scatter indices do not name that axis. -/
theorem start_col : (rowAddDims N K C wf).start (ix2 e b) idx (1 : Fin 2) = 0 := by
  unfold ScatterDims.start
  rw [dif_neg (show ¬ (1 : Fin 2) ∈ (rowAddDims N K C wf).scatterDimsToOperandDims from (by decide : ¬ (1 : Fin 2) ∈ [(0 : Fin 2)]))]

/-- The operand's axes that are not inserted: the column axis alone. -/
theorem sKept_eq : (rowAddDims N K C wf).sKept = [(1 : Fin 2)] := rfl

/-- The row axis is inserted: no window coordinate on it. -/
theorem window_row : (rowAddDims N K C wf).window (ix2 e b) (0 : Fin 2) = 0 := by
  unfold ScatterDims.window
  have h01 : (0 : Fin 2) ∉ [(1 : Fin 2)] := by decide
  rw [dif_neg (show ¬ (0 : Fin 2) ∈ (rowAddDims N K C wf).sKept from h01)]

/-- On the column axis the window coordinate is the update's own column. -/
theorem window_col : (rowAddDims N K C wf).window (ix2 e b) (1 : Fin 2) = b.val := by
  unfold ScatterDims.window
  have h11 : (1 : Fin 2) ∈ [(1 : Fin 2)] := by decide
  rw [dif_pos (show (1 : Fin 2) ∈ (rowAddDims N K C wf).sKept from h11)]
  rfl

/-- WHERE AN UPDATE LANDS: update `(e, b)` lands on operand entry `(i, j)` exactly when its scatter index is row `i`
    and its column is `j`. -/
theorem resultIdx?_eq_some_iff (i : Fin N) (j : Fin C) :
    (rowAddDims N K C wf).resultIdx? (ix2 e b) idx = some (ix2 i j)
      ↔ (idx (ix2 e (0 : Fin 1))).toInt = (i.val : Int) ∧ b = j := by
  have hi : i.val < N := i.isLt
  have hb : b.val < C := b.isLt
  unfold ScatterDims.resultIdx?
  split
  · rename_i h
    have h0 := h 0
    rw [start_row, window_row] at h0
    rw [Option.some.injEq]
    constructor
    · intro heq
      have e0 := congrArg (fun f : (⟨2, ![N, C]⟩ : Shape).Idx => (f (0 : Fin 2)).val) heq
      have e1 := congrArg (fun f : (⟨2, ![N, C]⟩ : Shape).Idx => (f (1 : Fin 2)).val) heq
      simp only [start_row, start_col, window_row, window_col] at e0 e1
      refine ⟨?_, Fin.ext ?_⟩
      · have : ((idx (ix2 e (0 : Fin 1))).toInt + ((0 : Nat) : Int)).toNat = i.val := e0
        omega
      · have : ((0 : Int) + (b.val : Int)).toNat = j.val := e1
        omega
    · rintro ⟨hrow, rfl⟩
      funext a; refine Fin.ext ?_
      match a with
      | ⟨0, _⟩ =>
        show ((rowAddDims N K C wf).start (ix2 e b) idx (0 : Fin 2) + (rowAddDims N K C wf).window (ix2 e b) (0 : Fin 2)).toNat = i.val
        rw [start_row, window_row]; omega
      | ⟨1, _⟩ =>
        show ((rowAddDims N K C wf).start (ix2 e b) idx (1 : Fin 2) + (rowAddDims N K C wf).window (ix2 e b) (1 : Fin 2)).toNat = b.val
        rw [start_col, window_col]; omega
  · rename_i h
    constructor
    · intro heq; exact absurd heq (by simp)
    · rintro ⟨hrow, rfl⟩
      exfalso; apply h; intro a
      match a with
      | ⟨0, _⟩ =>
        show 0 ≤ (rowAddDims N K C wf).start (ix2 e b) idx (0 : Fin 2) + (rowAddDims N K C wf).window (ix2 e b) (0 : Fin 2)
          ∧ (rowAddDims N K C wf).start (ix2 e b) idx (0 : Fin 2) + (rowAddDims N K C wf).window (ix2 e b) (0 : Fin 2) < (N : Int)
        rw [start_row, window_row]; omega
      | ⟨1, _⟩ =>
        show 0 ≤ (rowAddDims N K C wf).start (ix2 e b) idx (1 : Fin 2) + (rowAddDims N K C wf).window (ix2 e b) (1 : Fin 2)
          ∧ (rowAddDims N K C wf).start (ix2 e b) idx (1 : Fin 2) + (rowAddDims N K C wf).window (ix2 e b) (1 : Fin 2) < (C : Int)
        rw [start_col, window_col]; omega

end

/-- THE ROW SCATTER-ADD AT THE LITERAL RECORD, READ AT `(i, j)`: the operand's entry plus the sum, over the update rows
    `e` whose scatter index is `i`, of the update's entry `(e, j)`. -/
theorem hostScatterAdd_rowAddDims_apply {N K C w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd (rowAddDims N K C wf) x idx upd (ix2 i j)
      = x (ix2 i j) + ∑ e ∈ Finset.univ.filter (fun e : Fin K => (idx (ix2 e (0 : Fin 1))).toInt = (i.val : Int)), upd (ix2 e j) := by
  unfold Ideal.hostScatterAdd
  congr 1
  rw [Finset.sum_filter, sum_idx2, Finset.sum_filter]
  refine Finset.sum_congr rfl fun e _ => ?_
  by_cases ht : (idx (ix2 e (0 : Fin 1))).toInt = (i.val : Int)
  · rw [if_pos ht, Finset.sum_eq_single j]
    · rw [if_pos ((resultIdx?_eq_some_iff wf idx e j i j).mpr ⟨ht, rfl⟩)]
    · intro b _ hbj
      rw [if_neg (fun h => hbj ((resultIdx?_eq_some_iff wf idx e b i j).mp h).2)]
    · intro h; exact absurd (Finset.mem_univ j) h
  · rw [if_neg ht]
    refine Finset.sum_eq_zero fun b _ => ?_
    rw [if_neg (fun h => ht ((resultIdx?_eq_some_iff wf idx e b i j).mp h).1)]

/-- THE ROW SCATTER-ADD AT ANY RECORD WITH THESE FIELDS, READ AT `(i, j)`: a record is its fields, so it is the literal
    one. -/
theorem hostScatterAdd_rows_apply {N K C w : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : (⟨2, ![N, C]⟩ : Shape).Idx → EReal) (idx : IVec ⟨2, ![K, 1]⟩ w) (upd : (⟨2, ![K, C]⟩ : Shape).Idx → EReal)
    (i : Fin N) (j : Fin C) :
    Ideal.hostScatterAdd d x idx upd (ix2 i j)
      = x (ix2 i j) + ∑ e ∈ Finset.univ.filter (fun e : Fin K => (idx (ix2 e (0 : Fin 1))).toInt = (i.val : Int)), upd (ix2 e j) := by
  obtain ⟨uw, iw, sd, iv, wf⟩ := d
  simp only at hu hi hs hv
  subst hu hi hs hv
  exact hostScatterAdd_rowAddDims_apply wf x idx upd i j

end Idealize.ShloMosaic.ScatterAddRows
-- ==== Proof.LibScatterAddVec.lean ====
import Idealize.ShloMosaic.PureOps.Ideal
import Idealize.ShloMosaic.PureOps.Contract
import Idealize.ShloMosaic.Lib.ValueIdx

/-! # A float scatter-add of scalars into a flat array, read at an index

The accumulating float scatter `Host.scatterAdd d x idx upd` at the ideal values is, at every operand element, that
element plus the sum of the update elements that land on it. Worked out here, at any extents, for SCALARS added into a
rank-1 operand: operand `[N]`, scatter indices `[K, 1]` (the index vector on axis 1), updates `[K]`; update `e` is added
to the operand element named by the scatter index `idx[e, 0]` read as a SIGNED integer, and is dropped when that integer
is not a position of the operand (jax's `jax.ops.segment_sum` of a vector, `.at[ids].add(v)`). So operand element `i`
receives exactly the updates `e` whose scatter index is `i` (`hostScatterAdd_vec_apply`). Stated at the literal
dimension-number record `vecAddDims` and for ANY record with these fields. -/

open scoped BigOperators

namespace Idealize.ShloMosaic.ScatterAddVec

open Idealize.ShloMosaic Idealize.ShloMosaic.ValueIdx

/-- The dimension numbers of a scalar scatter into a vector: operand `[N]`, scatter indices `[K, 1]`, updates `[K]`; the
    update has no window axis, the operand's one axis is the inserted (scattered) axis. -/
abbrev vecAddDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

section
variable {N K w : Nat} (wf : ScatterDims.WF ⟨1, ![N]⟩ ⟨2, ![K, 1]⟩ ⟨1, ![K]⟩ [] [0] [0] 1)
  (idx : IVec ⟨2, ![K, 1]⟩ w) (e : Fin K)

/-- The window of update `e` starts at the scatter index `idx[e, 0]`, read signed. -/
theorem start_eq : (vecAddDims N K wf).start (ix1 e) idx (0 : Fin 1) = (idx (ix2 e (0 : Fin 1))).toInt := by
  unfold ScatterDims.start
  rw [dif_pos (show (0 : Fin 1) ∈ (vecAddDims N K wf).scatterDimsToOperandDims from List.mem_singleton.mpr rfl)]
  have hsi : (vecAddDims N K wf).siIdx (ix1 e) ⟨List.idxOf (0 : Fin 1) (vecAddDims N K wf).scatterDimsToOperandDims,
      List.idxOf_lt_length_iff.2 (List.mem_singleton.mpr rfl)⟩ = ix2 e (0 : Fin 1) := by
    funext a; refine Fin.ext ?_
    match a with
    | ⟨0, _⟩ => rfl
    | ⟨1, _⟩ => rfl
  rw [hsi]

/-- The one operand axis is inserted: no window coordinate on it. -/
theorem window_eq : (vecAddDims N K wf).window (ix1 e) (0 : Fin 1) = 0 := by
  unfold ScatterDims.window
  have hk : (vecAddDims N K wf).sKept = [] := rfl
  rw [dif_neg (show ¬ (0 : Fin 1) ∈ (vecAddDims N K wf).sKept from hk ▸ List.not_mem_nil)]

/-- WHERE AN UPDATE LANDS: update `e` lands on operand element `i` exactly when its scatter index reads `i`. -/
theorem resultIdx?_eq_some_iff (i : Fin N) :
    (vecAddDims N K wf).resultIdx? (ix1 e) idx = some (ix1 i) ↔ (idx (ix2 e (0 : Fin 1))).toInt = (i.val : Int) := by
  have hi : i.val < N := i.isLt
  unfold ScatterDims.resultIdx?
  split
  · rename_i h
    have h0 := h 0
    rw [start_eq, window_eq] at h0
    rw [Option.some.injEq]
    constructor
    · intro heq
      have e0 := congrArg (fun f : (⟨1, ![N]⟩ : Shape).Idx => (f (0 : Fin 1)).val) heq
      simp only [start_eq, window_eq] at e0
      have : ((idx (ix2 e (0 : Fin 1))).toInt + ((0 : Nat) : Int)).toNat = i.val := e0
      omega
    · intro hrow
      funext a; refine Fin.ext ?_
      match a with
      | ⟨0, _⟩ =>
        show ((vecAddDims N K wf).start (ix1 e) idx (0 : Fin 1) + (vecAddDims N K wf).window (ix1 e) (0 : Fin 1)).toNat = i.val
        rw [start_eq, window_eq]; omega
  · rename_i h
    constructor
    · intro heq; exact absurd heq (by simp)
    · intro hrow
      exfalso; apply h; intro a
      match a with
      | ⟨0, _⟩ =>
        show 0 ≤ (vecAddDims N K wf).start (ix1 e) idx (0 : Fin 1) + (vecAddDims N K wf).window (ix1 e) (0 : Fin 1)
          ∧ (vecAddDims N K wf).start (ix1 e) idx (0 : Fin 1) + (vecAddDims N K wf).window (ix1 e) (0 : Fin 1) < (N : Int)
        rw [start_eq, window_eq]; omega

end

/-- A sum over the indices of a flat array is the sum over its positions. -/
theorem sum_idx1 {M : Type*} [AddCommMonoid M] {n : Nat} (f : (⟨1, ![n]⟩ : Shape).Idx → M) :
    ∑ i, f i = ∑ a : Fin n, f (ix1 a) := by
  refine Fintype.sum_equiv ⟨fun i => i 0, fun a => ix1 a, fun i => (eq_ix1 i).symm, fun a => rfl⟩ _ _ fun i => ?_
  exact congrArg f (eq_ix1 i)

/-- THE SCALAR SCATTER-ADD AT THE LITERAL RECORD, READ AT `i`: the operand's element plus the sum, over the updates `e`
    whose scatter index is `i`, of the update `e`. -/
theorem hostScatterAdd_vecAddDims_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal)
    (i : Fin N) :
    Ideal.hostScatterAdd (vecAddDims N K wf) x idx upd (ix1 i)
      = x (ix1 i) + ∑ e ∈ Finset.univ.filter (fun e : Fin K => (idx (ix2 e (0 : Fin 1))).toInt = (i.val : Int)), upd (ix1 e) := by
  unfold Ideal.hostScatterAdd
  congr 1
  rw [Finset.sum_filter, sum_idx1, Finset.sum_filter]
  refine Finset.sum_congr rfl fun e _ => ?_
  by_cases ht : (idx (ix2 e (0 : Fin 1))).toInt = (i.val : Int)
  · rw [if_pos ht, if_pos ((resultIdx?_eq_some_iff wf idx e i).mpr ht)]
  · rw [if_neg ht, if_neg (fun h => ht ((resultIdx?_eq_some_iff wf idx e i).mp h))]

/-- THE SCALAR SCATTER-ADD AT ANY RECORD WITH THESE FIELDS, READ AT `i`: a record is its fields, so it is the literal
    one. -/
theorem hostScatterAdd_vec_apply {N K w : Nat} (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (x : (⟨1, ![N]⟩ : Shape).Idx → EReal) (idx : IVec ⟨2, ![K, 1]⟩ w) (upd : (⟨1, ![K]⟩ : Shape).Idx → EReal)
    (i : Fin N) :
    Ideal.hostScatterAdd d x idx upd (ix1 i)
      = x (ix1 i) + ∑ e ∈ Finset.univ.filter (fun e : Fin K => (idx (ix2 e (0 : Fin 1))).toInt = (i.val : Int)), upd (ix1 e) := by
  obtain ⟨uw, iw, sd, iv, wf⟩ := d
  simp only at hu hi hs hv
  subst hu hi hs hv
  exact hostScatterAdd_vecAddDims_apply wf x idx upd i

end Idealize.ShloMosaic.ScatterAddVec
-- ==== Proof.LibGatherRow.lean ====
import Idealize.ShloMosaic.PureOps.ShapeOps
import Idealize.ShloMosaic.Lib.ValueIdx

/-! # A gather that takes rows of a table, read at an index

`Host.gather d x idx j = x (d.operandIdx j idx)`: on each operand axis the operand index is the clamped start plus the
batching coordinate plus the offset coordinate. Worked out here, at any extents, for the rows of a rank-2 table: operand
`[N, C]`, start indices `[K, 1]` (the index vector on axis 1), result `[K, C]`; the row axis is gathered (collapsed, one
row per start index) and the column axis is the one offset axis, read whole. Result entry `(k, j)` is the table's entry
`(r, j)` with `r` the start index `idx[k, 0]` read as a SIGNED integer and CLAMPED into `[0, N − 1]`
(`gather_rowTake_apply`); for a start index already inside the table the clamp does nothing
(`gather_rowTake_apply_of_lt`). Both are stated for ANY dimension-number record with these fields, the field equations
taken as hypotheses (each is `rfl` at a literal record), and again at the literal record `rowTakeDims`. -/

namespace Idealize.ShloMosaic.GatherRow

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- The dimension numbers of a row take: operand `[N, C]`, start indices `[K, 1]`, result `[K, C]`; axis 0 of the operand
    is gathered (collapsed, slice size 1), axis 1 is the offset axis (slice size `C`). Their conditions `wf` are decided
    on a program's literal shapes. -/
abbrev rowTakeDims (N K C : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- The operand index of a row take on the row axis: the start index `idx[k, 0]` read signed and clamped into
    `[0, N − 1]` (the axis is in the start index map, its slice size is `1`), with no batching and no offset coordinate
    (the axis is collapsed). -/
theorem operandIdx_row {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (0 : Fin 2) + (rowTakeDims N K C wf).batchCoord (ix2 k j) (0 : Fin 2)
      + (rowTakeDims N K C wf).offCoord (ix2 k j) (0 : Fin 2) = min (idx (ix2 k (0 : Fin 1))).toInt.toNat (N - 1) := by
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowTakeDims N K C wf).startIndexMap from List.mem_singleton.mpr rfl)]
  have hsi : (rowTakeDims N K C wf).siIdx (ix2 k j) ⟨List.idxOf (0 : Fin 2) (rowTakeDims N K C wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The operand index of a row take on the column axis: the result's own column `j` (the axis is the one the offset axis
    reads), with start `0` (the start index map does not name the axis) and no batching coordinate. -/
theorem operandIdx_col {N K C w : Nat}
    (wf : GatherDims.WF ⟨2, ![N, C]⟩ ⟨2, ![K, 1]⟩ ⟨2, ![K, C]⟩ [1] [0] [] [0] [] 1 ![1, C])
    (idx : IVec ⟨2, ![K, 1]⟩ w) (k : Fin K) (j : Fin C) :
    (rowTakeDims N K C wf).start (ix2 k j) idx (1 : Fin 2) + (rowTakeDims N K C wf).batchCoord (ix2 k j) (1 : Fin 2)
      + (rowTakeDims N K C wf).offCoord (ix2 k j) (1 : Fin 2) = j.val := by
  have h10 : (1 : Fin 2) ∉ [(0 : Fin 2)] := by decide
  have hst : (rowTakeDims N K C wf).start (ix2 k j) idx (1 : Fin 2) = 0 := by
    unfold GatherDims.start
    rw [dif_neg (show ¬ (1 : Fin 2) ∈ (rowTakeDims N K C wf).startIndexMap from h10)]
  have hoff : (rowTakeDims N K C wf).offCoord (ix2 k j) (1 : Fin 2) = j.val := by
    unfold GatherDims.offCoord
    rw [dif_pos ((GatherDims.mem_sKept _ _).mpr ⟨h10, List.not_mem_nil⟩)]
    rfl
  rw [GatherDims.batchCoord_eq_zero _ _ _ List.not_mem_nil, hst, hoff, Nat.add_zero, Nat.zero_add]

/-- THE ROW TAKE AT THE LITERAL RECORD, READ AT `(k, j)`: the operand's entry `(r, j)`, `r` the start index `idx[k, 0]`
    read signed and clamped into `[0, N − 1]`: the operand index coordinate by coordinate. -/
theorem gather_rowTakeDims_apply {N K C w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (j : Fin C) :
    Host.gather (rowTakeDims N K C wf) x idx (ix2 k j)
      = x (ix2 ⟨min (idx (ix2 k (0 : Fin 1))).toInt.toNat (N - 1), by omega⟩ j) := by
  unfold Host.gather
  congr 1
  funext a
  refine Fin.ext ?_
  match a with
  | ⟨0, _⟩ => exact operandIdx_row wf idx k j
  | ⟨1, _⟩ => exact operandIdx_col wf idx k j

/-- THE ROW TAKE AT ANY RECORD WITH THESE FIELDS, READ AT `(k, j)`: a record is its fields, so it is the literal one. -/
theorem gather_rowTake_apply {N K C w : Nat} (hN : 0 < N)
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C) :
    Host.gather d x idx (ix2 k j)
      = x (ix2 ⟨min (idx (ix2 k (0 : Fin 1))).toInt.toNat (N - 1), by omega⟩ j) := by
  obtain ⟨od, cd, ob, sb, sm, iv, ss, wf⟩ := d
  simp only at ho hc hb hsb hm hv hs
  subst ho hc hb hsb hm hv hs
  exact gather_rowTakeDims_apply hN wf x idx k j

/-- The same for a start index inside the table: the clamp does nothing, and the row read is the one the index names. -/
theorem gather_rowTake_apply_of_lt {N K C w : Nat}
    (d : GatherDims ⟨2, ![N, C]⟩ ⟨2, ![K, 1]⟩ ⟨2, ![K, C]⟩)
    (ho : d.offsetDims = [1]) (hc : d.collapsedSliceDims = [0]) (hb : d.operandBatchingDims = [])
    (hsb : d.startIndicesBatchingDims = []) (hm : d.startIndexMap = [0]) (hv : d.indexVectorDim = 1)
    (hs : d.sliceSizes = ![1, C])
    (x : (⟨2, ![N, C]⟩ : Shape).Idx → α) (idx : IVec ⟨2, ![K, 1]⟩ w) (k : Fin K) (j : Fin C)
    (h0 : 0 ≤ (idx (ix2 k (0 : Fin 1))).toInt) (hlt : (idx (ix2 k (0 : Fin 1))).toInt < (N : Int)) :
    Host.gather d x idx (ix2 k j) = x (ix2 ⟨(idx (ix2 k (0 : Fin 1))).toInt.toNat, by omega⟩ j) := by
  rw [gather_rowTake_apply (by omega) d ho hc hb hsb hm hv hs x idx k j]
  congr 2
  exact Fin.ext (clamp_of_lt _ h0 hlt)

end

end Idealize.ShloMosaic.GatherRow
-- ==== Proof.LibReshapeRows.lean ====
/-
  A one-axis array given a unit axis: the same elements, read at an index of the two-axis shape.
  An [a] array cast to the row [1, a] reads its operand at the index's column; cast to the column [a, 1], at the
  index's row. Stated for any element type, over any proof of the cast's side condition, at a general extent and at
  the literal extents 64, 32 and 100000.
-/
import Idealize.ShloMosaic.Lib.Pipeline.Value
import Idealize.ShloMosaic.Lib.ValueIdx
import Idealize.ShloMosaic.Lib.ValueLayout

namespace Cert.LibReshapeRows

open Idealize.ShloMosaic Idealize.ShloMosaic.ValueIdx

variable {α : Type}

/-- An `[a]` array cast to the one-row shape `[1, a]` is, index by index, the operand at the index's column:
    the row-major position of `(u, i)` in `[1, a]` is `i`. -/
theorem reshape_row {a : ℕ} (x : (⟨1, ![a]⟩ : Shape).Idx → α) (h : (⟨1, ![a]⟩ : Shape).ShapeCasts ⟨2, ![1, a]⟩) :
    shapeCast ⟨2, ![1, a]⟩ x h = fun j => x (ix1 (j 1)) := by
  funext j
  obtain ⟨u, i, rfl⟩ : ∃ (u : Fin 1) (i : Fin a), j = ix2 u i := ⟨j 0, j 1, eq_ix2 j⟩
  exact shapeCast_a_1a_apply x h u i

/-- An `[a]` array cast to the one-column shape `[a, 1]` is, index by index, the operand at the index's row:
    the row-major position of `(i, u)` in `[a, 1]` is `i · 1 + u` with `u = 0`. -/
theorem reshape_column {a : ℕ} (x : (⟨1, ![a]⟩ : Shape).Idx → α) (h : (⟨1, ![a]⟩ : Shape).ShapeCasts ⟨2, ![a, 1]⟩) :
    shapeCast ⟨2, ![a, 1]⟩ x h = fun j => x (ix1 (j 0)) := by
  funext j
  refine shapeCast_apply x h j (ix1 (j 0)) ?_
  rw [Shape.rowMajor_val_two, Shape.rowMajor_val_one]
  have h1 : (j 1).val < 1 := idx2_lt1 j
  show (j 0).val = (j 0).val * 1 + (j 1).val
  omega

/-- A 64-element array as the row `[1, 64]`: entry `(u, i)` is element `i`. -/
theorem reshape_row64 (x : (⟨1, ![64]⟩ : Shape).Idx → α) (h : (⟨1, ![64]⟩ : Shape).ShapeCasts ⟨2, ![1, 64]⟩) :
    shapeCast ⟨2, ![1, 64]⟩ x h = fun j => x (ix1 (j 1)) := reshape_row x h

/-- A 32-element array as the row `[1, 32]`: entry `(u, i)` is element `i`. -/
theorem reshape_row32 (x : (⟨1, ![32]⟩ : Shape).Idx → α) (h : (⟨1, ![32]⟩ : Shape).ShapeCasts ⟨2, ![1, 32]⟩) :
    shapeCast ⟨2, ![1, 32]⟩ x h = fun j => x (ix1 (j 1)) := reshape_row x h

/-- A 100000-element array as the column `[100000, 1]`: entry `(i, u)` is element `i`. -/
theorem reshape_col (x : (⟨1, ![100000]⟩ : Shape).Idx → α) (h : (⟨1, ![100000]⟩ : Shape).ShapeCasts ⟨2, ![100000, 1]⟩) :
    shapeCast ⟨2, ![100000, 1]⟩ x h = fun j => x (ix1 (j 0)) := reshape_column x h

end Cert.LibReshapeRows
-- ==== Proof.HostVal.lean ====
/- # What the three host stretches leave, entry by entry

Between its regions the program runs plain array operations: the first stretch counts each node's incoming edges by a
scatter-add of ones, adds the self loop, takes the inverse square root and lays the scale and its square side by side
as a two-column table, and gives the flat arguments their unit axes; the second and third gather a table's rows by the
wrapped, clamped source word and add them onto the destination rows. Here each such array is read at an index, over an
arbitrary valuation of the buffers the stretch starts from. -/
import proofs.«410742_j70944269795814_3_alg».proof.Proof.Gen.KernelIdeal.Launch
import proofs.«410742_j70944269795814_3_alg».proof.Proof.Spec
import proofs.«410742_j70944269795814_3_alg».proof.Proof.LibScatterAddRows
import proofs.«410742_j70944269795814_3_alg».proof.Proof.LibScatterAddVec
import proofs.«410742_j70944269795814_3_alg».proof.Proof.LibGatherRow
import proofs.«410742_j70944269795814_3_alg».proof.Proof.LibReshapeRows
import proofs.«410742_j70944269795814_3_alg».proof.Proof.LibMeanAggregate
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.Val

open Idealize.ShloMosaic Idealize.ShloMosaic.TcCoe
open Cert.KernelIdeal Cert.KernelIdeal.Gen Idealize.ShloMosaic.ValueIdx

/-! ## The whole arrays, as the operations compose them (any float family) -/

section Whole
variable {F : FTy → Type} [FloatOps F] (W : Valuation τ sig (Elt F))

/-- Row `0` of the edge words, flat: the source words. -/
def srcFlat (E : IVec S2x1600000 32) : IVec S1600000 32 :=
  shapeCast S1600000 (extractStridedSlice S1x1600000 ![0, 0] E slices_S2x1600000_S1x1600000_0_0) shapeCasts_S1x1600000_S1600000
/-- Row `1` of the edge words, flat: the destination words. -/
def dstFlat (E : IVec S2x1600000 32) : IVec S1600000 32 :=
  shapeCast S1600000 (extractStridedSlice S1x1600000 ![1, 0] E slices_S2x1600000_S1x1600000_1_0) shapeCasts_S1x1600000_S1600000

theorem after0_v1 : (StableHlo.after hostOps0 W main_v1 : IVec S1600000 32) = srcFlat (W main_arg1) := by
  show StableHlo.after hostOps0 W (Proc.devRef .tc main_v1) = _
  dsimp only [hostOps0]
  after_results
  rfl
theorem after0_v3 : (StableHlo.after hostOps0 W main_v3 : IVec S1600000 32) = dstFlat (W main_arg1) := by
  show StableHlo.after hostOps0 W (Proc.devRef .tc main_v3) = _
  dsimp only [hostOps0]
  after_results
  rfl
theorem after0_v15 : (StableHlo.after hostOps0 W main_v15 : FVec F S1x32 .f32)
    = shapeCast S1x32 (W main_arg4 : FVec F S32 .f32) shapeCasts_S32_S1x32 := by
  show StableHlo.after hostOps0 W (Proc.devRef .tc main_v15) = _
  dsimp only [hostOps0]
  after_results
  rfl
theorem after0_v16 : (StableHlo.after hostOps0 W main_v16 : FVec F S1x32 .f32)
    = shapeCast S1x32 (W main_arg6 : FVec F S32 .f32) shapeCasts_S32_S1x32 := by
  show StableHlo.after hostOps0 W (Proc.devRef .tc main_v16) = _
  dsimp only [hostOps0]
  after_results
  rfl
theorem after0_v17 : (StableHlo.after hostOps0 W main_v17 : IVec S100000x1 32)
    = shapeCast S100000x1 (W main_arg2 : IVec S100000 32) shapeCasts_S100000_S100000x1 := by
  show StableHlo.after hostOps0 W (Proc.devRef .tc main_v17) = _
  dsimp only [hostOps0]
  after_results
  rfl
theorem after0_v18 : (StableHlo.after hostOps0 W main_v18 : FVec F S1x1 .f32)
    = shapeCast S1x1 (W main_arg8 : FVec F S1 .f32) shapeCasts_S1_S1x1 := by
  show StableHlo.after hostOps0 W (Proc.devRef .tc main_v18) = _
  dsimp only [hostOps0]
  after_results
  rfl

end Whole

/-! ## Read at an index (the ideal values) -/

variable (W : Valuation τ sig (Elt Ideal))

/-- A flat row of the edge words at `e` is the edge array's entry `(o, e)`. -/
theorem srcFlat_apply (E : IVec S2x1600000 32) (e : Fin 1600000) : srcFlat E (ix1 e) = E (ix2 (0 : Fin 2) e) := by
  unfold srcFlat
  rw [shapeCast_1a_a_apply]
  exact slice2_axis0_apply 0 E _ (0 : Fin 1) e (0 : Fin 2) rfl
theorem dstFlat_apply (E : IVec S2x1600000 32) (e : Fin 1600000) : dstFlat E (ix1 e) = E (ix2 (1 : Fin 2) e) := by
  unfold dstFlat
  rw [shapeCast_1a_a_apply]
  exact slice2_axis0_apply 1 E _ (0 : Fin 1) e (1 : Fin 2) rfl

theorem ops0_v1 (e : Fin 1600000) :
    (StableHlo.after hostOps0 W main_v1 : S1600000.Idx → BitVec 32) (ix1 e) = (W main_arg1 : S2x1600000.Idx → BitVec 32) (ix2 (0 : Fin 2) e) :=
  (congrFun (after0_v1 W) (ix1 e)).trans (srcFlat_apply _ e)
theorem ops0_v3 (e : Fin 1600000) :
    (StableHlo.after hostOps0 W main_v3 : S1600000.Idx → BitVec 32) (ix1 e) = (W main_arg1 : S2x1600000.Idx → BitVec 32) (ix2 (1 : Fin 2) e) :=
  (congrFun (after0_v3 W) (ix1 e)).trans (dstFlat_apply _ e)
theorem ops0_v15 (k : Fin 32) :
    (StableHlo.after hostOps0 W main_v15 : S1x32.Idx → EReal) (ix2 (0 : Fin 1) k) = (W main_arg4 : S32.Idx → EReal) (ix1 k) :=
  (congrFun (after0_v15 W) (ix2 (0 : Fin 1) k)).trans (shapeCast_a_1a_apply _ _ _ _)
theorem ops0_v16 (k : Fin 32) :
    (StableHlo.after hostOps0 W main_v16 : S1x32.Idx → EReal) (ix2 (0 : Fin 1) k) = (W main_arg6 : S32.Idx → EReal) (ix1 k) :=
  (congrFun (after0_v16 W) (ix2 (0 : Fin 1) k)).trans (shapeCast_a_1a_apply _ _ _ _)
theorem ops0_v17 (r : Fin 100000) :
    (StableHlo.after hostOps0 W main_v17 : S100000x1.Idx → BitVec 32) (ix2 r (0 : Fin 1)) = (W main_arg2 : S100000.Idx → BitVec 32) (ix1 r) :=
  (congrFun (after0_v17 W) (ix2 r (0 : Fin 1))).trans (congrFun (Cert.LibReshapeRows.reshape_col _ _) (ix2 r (0 : Fin 1)))
theorem ops0_v18 :
    (StableHlo.after hostOps0 W main_v18 : S1x1.Idx → EReal) (ix2 (0 : Fin 1) (0 : Fin 1)) = (W main_arg8 : S1.Idx → EReal) (ix1 (0 : Fin 1)) :=
  (congrFun (after0_v18 W) (ix2 (0 : Fin 1) (0 : Fin 1))).trans (shapeCast_a_1a_apply _ _ _ _)

/-! ## The degree table (the first stretch) -/

section Whole
variable {F : FTy → Type} [FloatOps F] (W : Valuation τ sig (Elt F))

/-- A flat word array as a one-column matrix. -/
def colOf (v : IVec S1600000 32) : IVec S1600000x1 32 :=
  (broadcastInDim S1600000x1 ![0] bcast_S1600000_S1600000x1_0 : IVec S1600000 32 → IVec S1600000x1 32) v
/-- A flat float array over the nodes as a one-column matrix. -/
def colF (v : FVec F S100000 .f32) : FVec F S100000x1 .f32 :=
  (broadcastInDim S100000x1 ![0] bcast_S100000_S100000x1_0 : FVec F S100000 .f32 → FVec F S100000x1 .f32) v
/-- One `1.0` per edge, one `0.0` per node, one `1.0` per node. -/
def onesE : FVec F S1600000 .f32 :=
  (broadcastInDim S1600000 ![] bcast_S_S1600000 : FVec F S_ .f32 → FVec F S1600000 .f32) (constant S_ .f32 0x3F800000#32)
def zerosN : FVec F S100000 .f32 :=
  (broadcastInDim S100000 ![] bcast_S_S100000 : FVec F S_ .f32 → FVec F S100000 .f32) (constant S_ .f32 0x00000000#32)
def onesN : FVec F S100000 .f32 :=
  (broadcastInDim S100000 ![] bcast_S_S100000 : FVec F S_ .f32 → FVec F S100000 .f32) (constant S_ .f32 0x3F800000#32)
/-- The count of incoming edges by a scatter-add of ones, plus the self loop. -/
def degArr (E : IVec S2x1600000 32) : FVec F S100000 .f32 :=
  addf (Host.scatterAdd scatter_S100000_S1600000x1_S1600000_n_0_0_1 zerosN (colOf (dstFlat E)) onesE) onesN
/-- Its inverse square root. -/
def disArr (E : IVec S2x1600000 32) : FVec F S100000 .f32 := Host.rsqrt (degArr E)
/-- The scale and its square, side by side. -/
def tblArr (E : IVec S2x1600000 32) : FVec F S100000x2 .f32 :=
  concatenate S100000x2 1 [⟨S100000x1, colF (disArr E)⟩, ⟨S100000x1, colF (mulf (disArr E) (disArr E))⟩]
    concatenates_S100000x1_S100000x1_S100000x2_d1

theorem after0_v14 : (StableHlo.after hostOps0 W main_v14 : FVec F S100000x2 .f32) = tblArr (W main_arg1) := by
  show StableHlo.after hostOps0 W (Proc.devRef .tc main_v14) = _
  dsimp only [hostOps0]
  after_results
  rfl

end Whole

/-- At the ideal values the host's accumulating scatter is the exact sum, and its inverse square root the real one. -/
theorem hostScatterAdd_ideal {s si u : Shape} {φ : FTy} {w : Nat} (d : ScatterDims s si u) (x : FVec Ideal s φ) (idx : IVec si w)
    (upd : FVec Ideal u φ) : Host.scatterAdd d x idx upd = Ideal.hostScatterAdd d x idx upd := rfl
theorem hostRsqrt_ideal_apply {s : Shape} {φ : FTy} (x : FVec Ideal s φ) (i : s.Idx) : Host.rsqrt x i = Ideal.rsqrt (x i) := rfl

/-- In-degree plus the self loop, from the edge words. -/
def degW (E : S2x1600000.Idx → BitVec 32) (i : Fin 100000) : EReal :=
  (∑ _e ∈ Finset.univ.filter (fun e : Fin 1600000 => (E (ix2 (1 : Fin 2) e)).toInt = (i.val : Int)), Cert.Gcn.one32) + Cert.Gcn.one32

theorem colOf_apply (v : IVec S1600000 32) (e : Fin 1600000) (u : Fin 1) : colOf v (ix2 e u) = v (ix1 e) := by
  unfold colOf
  refine broadcastInDim_apply _ _ v _ _ fun a => ?_
  match a with
  | ⟨0, _⟩ => first | rfl | exact (if_neg (show ¬ (1600000 : Nat) = 1 by decide)).symm
theorem colF_apply (v : FVec Ideal S100000 .f32) (i : Fin 100000) (u : Fin 1) : colF v (ix2 i u) = v (ix1 i) := by
  unfold colF
  refine broadcastInDim_apply _ _ v _ _ fun a => ?_
  match a with
  | ⟨0, _⟩ => first | rfl | exact (if_neg (show ¬ (100000 : Nat) = 1 by decide)).symm
theorem onesE_apply (j : S1600000.Idx) : onesE (F := Ideal) j = Cert.Gcn.one32 := by
  unfold onesE Cert.Gcn.one32
  rw [broadcastInDim_apply ![] bcast_S_S1600000 _ j ix0 (fun a => a.elim0), constant_apply]
theorem zerosN_apply (j : S100000.Idx) : zerosN (F := Ideal) j = 0 := by
  unfold zerosN
  rw [broadcastInDim_apply ![] bcast_S_S100000 _ j ix0 (fun a => a.elim0), constant_apply, Ideal.ofBits_zero_f32]
theorem onesN_apply (j : S100000.Idx) : onesN (F := Ideal) j = Cert.Gcn.one32 := by
  unfold onesN Cert.Gcn.one32
  rw [broadcastInDim_apply ![] bcast_S_S100000 _ j ix0 (fun a => a.elim0), constant_apply]

/-- The scatter-add of ones gives node `i` one `1.0` per edge whose destination word reads `i`. -/
theorem countArr_apply (E : IVec S2x1600000 32) (i : Fin 100000) :
    Host.scatterAdd (F := Ideal) scatter_S100000_S1600000x1_S1600000_n_0_0_1 zerosN (colOf (dstFlat E)) onesE (ix1 i)
      = ∑ _e ∈ Finset.univ.filter (fun e : Fin 1600000 => (E (ix2 (1 : Fin 2) e)).toInt = (i.val : Int)), Cert.Gcn.one32 := by
  rw [hostScatterAdd_ideal, ScatterAddVec.hostScatterAdd_vec_apply scatter_S100000_S1600000x1_S1600000_n_0_0_1 rfl rfl rfl rfl,
    zerosN_apply, zero_add]
  refine Finset.sum_congr (Finset.filter_congr fun e _ => ?_) fun e _ => onesE_apply _
  rw [colOf_apply, dstFlat_apply]
theorem degArr_apply (E : IVec S2x1600000 32) (i : Fin 100000) : degArr (F := Ideal) E (ix1 i) = degW E i := by
  unfold degArr degW
  rw [addf_apply, onesN_apply, countArr_apply]
theorem disArr_apply (E : IVec S2x1600000 32) (i : Fin 100000) : disArr (F := Ideal) E (ix1 i) = Ideal.rsqrt (degW E i) := by
  unfold disArr
  rw [hostRsqrt_ideal_apply, degArr_apply]
theorem tblArr_apply0 (E : IVec S2x1600000 32) (i : Fin 100000) :
    tblArr (F := Ideal) E (ix2 i (0 : Fin 2)) = Ideal.rsqrt (degW E i) := by
  unfold tblArr
  rw [MeanAggregate.concat_cols_apply 100000 1 1 2 rfl, dif_pos (show ((0 : Fin 2) : Nat) < 1 by decide), colF_apply, disArr_apply]
theorem tblArr_apply1 (E : IVec S2x1600000 32) (i : Fin 100000) :
    tblArr (F := Ideal) E (ix2 i (1 : Fin 2)) = Ideal.rsqrt (degW E i) * Ideal.rsqrt (degW E i) := by
  unfold tblArr
  rw [MeanAggregate.concat_cols_apply 100000 1 1 2 rfl, dif_neg (show ¬ ((1 : Fin 2) : Nat) < 1 by decide), colF_apply, mulf_apply,
    disArr_apply]

theorem ops0_v14_0 (i : Fin 100000) :
    (StableHlo.after hostOps0 W main_v14 : S100000x2.Idx → EReal) (ix2 i (0 : Fin 2))
      = Ideal.rsqrt (degW (W main_arg1 : S2x1600000.Idx → BitVec 32) i) :=
  (congrFun (after0_v14 W) (ix2 i (0 : Fin 2))).trans (tblArr_apply0 _ i)
theorem ops0_v14_1 (i : Fin 100000) :
    (StableHlo.after hostOps0 W main_v14 : S100000x2.Idx → EReal) (ix2 i (1 : Fin 2))
      = Ideal.rsqrt (degW (W main_arg1 : S2x1600000.Idx → BitVec 32) i) * Ideal.rsqrt (degW (W main_arg1 : S2x1600000.Idx → BitVec 32) i) :=
  (congrFun (after0_v14 W) (ix2 i (1 : Fin 2))).trans (tblArr_apply1 _ i)

end Cert.KernelIdeal.Val

end
-- ==== Proof.HostVal12.lean ====
/- # The two gather / scatter-add stretches of the host program, read at an entry

Between the regions the host gathers, for every edge, the row of a 32-column node table at the edge's source word —
wrapped when negative, read signed, clamped into the table — and adds the gathered rows onto the rows their
destination words name, starting from zero; an edge whose destination word is no row adds nothing. So entry `(i, d)` of
the result is the sum, over the edges whose destination word reads `i`, of the table's entry `(node (source word), d)`.
Stated over any contents of the buffers before the stretch. -/
import proofs.«410742_j70944269795814_3_alg».proof.Proof.Gen.KernelIdeal.Launch
import proofs.«410742_j70944269795814_3_alg».proof.Proof.Spec
import proofs.«410742_j70944269795814_3_alg».proof.Proof.LibScatterAddRows
import proofs.«410742_j70944269795814_3_alg».proof.Proof.LibGatherRow
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.KernelIdeal.Val

open Idealize.ShloMosaic Idealize.ShloMosaic.StableHlo
open Cert.KernelIdeal Cert.KernelIdeal.Gen Idealize.ShloMosaic.ValueIdx Idealize.ShloMosaic.TcCoe

/-! ## The operations read at a general index -/

/-- A word read signed and clamped into the node table: the row a gather reads for that word. -/
private def clampNode (v : BitVec 32) : Fin 100000 := ⟨min v.toInt.toNat (100000 - 1), by omega⟩

/-- A row gather from a 32-column node table: column `i 1` of the row at the index word, read signed and clamped. -/
private theorem gatherRows_at {α : Type} (x : S100000x32.Idx → α) (idx : IVec S1600000x1 32) (i : S1600000x32.Idx) :
    Host.gather gather_S100000x32_S1600000x1_S1600000x32_1_0_n_n_0_1_132 x idx i
      = x (ix2 (clampNode (idx (ix2 (i 0) (0 : Fin 1)))) (i 1)) := by
  obtain ⟨e, d, rfl⟩ : ∃ (e : Fin 1600000) (d : Fin 32), i = ix2 e d := ⟨i 0, i 1, eq_ix2 i⟩
  exact GatherRow.gather_rowTake_apply (by decide) _ rfl rfl rfl rfl rfl rfl rfl x idx e d

/-- A scatter-add of rows, at the ideal values: the operand's entry plus the entries, in the same column, of the update
    rows whose index word reads the row. -/
private theorem scatterRows_at {N K C : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : FVec Ideal ⟨2, ![N, C]⟩ .f32) (idx : IVec ⟨2, ![K, 1]⟩ 32) (upd : FVec Ideal ⟨2, ![K, C]⟩ .f32)
    (i : (⟨2, ![N, C]⟩ : Shape).Idx) :
    Host.scatterAdd d x idx upd i
      = x i + ∑ e ∈ Finset.univ.filter (fun e : Fin K => (idx (ix2 e (0 : Fin 1))).toInt = ((i 0).val : Int)), upd (ix2 e (i 1)) := by
  obtain ⟨r, c, rfl⟩ : ∃ (r : Fin N) (c : Fin C), i = ix2 r c := ⟨i 0, i 1, eq_ix2 i⟩
  exact ScatterAddRows.hostScatterAdd_rows_apply d hu hi hs hv x idx upd r c

/-- A vector of edge words as a one-column array, read at a row: the vector's entry. -/
private theorem col_at {α : Type} (v : S1600000.Idx → α) (j : S1600000x1.Idx) :
    broadcastInDim S1600000x1 ![0] bcast_S1600000_S1600000x1_0 v j = v (ix1 (j 0)) :=
  broadcastInDim_apply _ bcast_S1600000_S1600000x1_0 v j (ix1 (j 0)) (fun a => match a with
    | ⟨0, _⟩ => by show (j 0).val = if (1600000 : Nat) = 1 then 0 else (j 0).val; rw [if_neg (by decide)])

/-- A scalar spread over an array reads the scalar everywhere. -/
private theorem splat_at {α : Type} {t : Shape} (h : S_.BroadcastsInDim t (![] : Fin S_.rank → Fin t.rank)) (c : S_.Idx → α)
    (j : t.Idx) : broadcastInDim t ![] h c j = c ix0 :=
  broadcastInDim_apply _ h c j ix0 (fun a => a.elim0)

/-- The index normalisation at an edge: the word, with the table's length added when it is negative. -/
private theorem wrap_at (sw : IVec S1600000 32) (j : S1600000.Idx) :
    select (cmpi .slt sw (broadcastInDim S1600000 ![] bcast_S_S1600000 (constantI S_ 32 0#32)))
        (addi sw (broadcastInDim S1600000 ![] bcast_S_S1600000 (constantI S_ 32 100000#32))) sw j
      = Gcn.wrapW (sw j) := by
  show Scalar.select (IntOp.cmpi .slt (sw j) (broadcastInDim S1600000 ![] bcast_S_S1600000 (constantI S_ 32 0#32) j))
      (IntOp.addi (sw j) (broadcastInDim S1600000 ![] bcast_S_S1600000 (constantI S_ 32 100000#32) j)) (sw j) = _
  rewrite [splat_at, splat_at]
  rfl

/-! ## The pair of operations as one term of the table and the two word vectors -/

/-- Gather the table's rows at the normalised source words, then add them onto the rows the destination words name,
    from zero. -/
private def gatherScatter (tbl : FVec Ideal S100000x32 .f32) (sw dw : IVec S1600000 32) : FVec Ideal S100000x32 .f32 :=
  Host.scatterAdd scatter_S100000x32_S1600000x1_S1600000x32_1_0_0_1
    (broadcastInDim S100000x32 ![] bcast_S_S100000x32 (constant (F := Ideal) S_ .f32 0x00000000#32))
    (broadcastInDim S1600000x1 ![0] bcast_S1600000_S1600000x1_0 dw)
    (Host.gather gather_S100000x32_S1600000x1_S1600000x32_1_0_n_n_0_1_132 tbl
      (broadcastInDim S1600000x1 ![0] bcast_S1600000_S1600000x1_0
        (select (cmpi .slt sw (broadcastInDim S1600000 ![] bcast_S_S1600000 (constantI S_ 32 0#32)))
          (addi sw (broadcastInDim S1600000 ![] bcast_S_S1600000 (constantI S_ 32 100000#32))) sw)))

/-- Entry `(i, d)`: the sum, over the edges whose destination word reads `i`, of the table at the source's node. -/
private theorem gatherScatter_at (tbl : FVec Ideal S100000x32 .f32) (sw dw : IVec S1600000 32) (i : Fin 100000) (d : Fin 32) :
    gatherScatter tbl sw dw (ix2 i d)
      = ∑ e ∈ Finset.univ.filter (fun e : Fin 1600000 => (dw (ix1 e)).toInt = (i.val : Int)),
          tbl (ix2 (Gcn.node (sw (ix1 e))) d) := by
  unfold gatherScatter
  rewrite [scatterRows_at scatter_S100000x32_S1600000x1_S1600000x32_1_0_0_1 rfl rfl rfl rfl, splat_at, constant_apply,
    Ideal.ofBits_zero_f32, zero_add]
  refine Finset.sum_congr (Finset.filter_congr fun e _ => ?_) fun e _ => ?_
  · rewrite [col_at]
    exact Iff.rfl
  · rewrite [gatherRows_at, col_at, wrap_at]
    rfl

/-! ## The two stretches -/

/-- After the second host stretch, from any contents `W`: the aggregate of the first layer's scaled rows. -/
theorem ops1_v29 (W : Valuation τ sig (Elt Ideal)) (i : Fin 100000) (d : Fin 32) :
    (StableHlo.after hostOps1 W main_v29 : S100000x32.Idx → EReal) (ix2 i d)
      = (∑ e ∈ Finset.univ.filter (fun e : Fin 1600000 =>
            ((W main_v3 : S1600000.Idx → BitVec 32) (ix1 e)).toInt = (i.val : Int)),
          (W main_v19_1 : S100000x32.Idx → EReal)
            (ix2 (Cert.Gcn.node ((W main_v1 : S1600000.Idx → BitVec 32) (ix1 e))) d) : EReal) := by
  have e : (StableHlo.after (hostOps1 (F := Ideal)) W (Proc.devRef .tc main_v29) : S100000x32.Idx → EReal)
      = gatherScatter (W (Proc.devRef .tc main_v19_1)) (W (Proc.devRef .tc main_v1)) (W (Proc.devRef .tc main_v3)) := by
    dsimp only [hostOps1]
    after_results
    rfl
  exact (congrFun e (ix2 i d)).trans (gatherScatter_at _ _ _ i d)

/-- After the third host stretch, from any contents `W`: the aggregate of the second layer's scaled rows. -/
theorem ops2_v40 (W : Valuation τ sig (Elt Ideal)) (i : Fin 100000) (d : Fin 32) :
    (StableHlo.after hostOps2 W main_v40 : S100000x32.Idx → EReal) (ix2 i d)
      = (∑ e ∈ Finset.univ.filter (fun e : Fin 1600000 =>
            ((W main_v3 : S1600000.Idx → BitVec 32) (ix1 e)).toInt = (i.val : Int)),
          (W main_v30_1 : S100000x32.Idx → EReal)
            (ix2 (Cert.Gcn.node ((W main_v1 : S1600000.Idx → BitVec 32) (ix1 e))) d) : EReal) := by
  have e : (StableHlo.after (hostOps2 (F := Ideal)) W (Proc.devRef .tc main_v40) : S100000x32.Idx → EReal)
      = gatherScatter (W (Proc.devRef .tc main_v30_1)) (W (Proc.devRef .tc main_v1)) (W (Proc.devRef .tc main_v3)) := by
    dsimp only [hostOps2]
    after_results
    rfl
  exact (congrFun e (ix2 i d)).trans (gatherScatter_at _ _ _ i d)

end Cert.KernelIdeal.Val

end
-- ==== Proof.KernelVal.lean ====
/- # What the three-region program leaves in its result buffer

The run ends with every unscoped buffer at the last boundary's contents. Here the result buffer's contents there are read
back, boundary by boundary, to the launch memory: a region's output array holds what its write-backs left, a host
stretch's result is its operations' value of what it read, and what each of them read was left by the one before. The end
of the chain is the specification's `kRes` of the argument arrays. -/
import proofs.«410742_j70944269795814_3_alg».proof.Proof.Reads
import proofs.«410742_j70944269795814_3_alg».proof.Proof.Val0
import proofs.«410742_j70944269795814_3_alg».proof.Proof.Val1
import proofs.«410742_j70944269795814_3_alg».proof.Proof.Val2
import proofs.«410742_j70944269795814_3_alg».proof.Proof.HostVal
import proofs.«410742_j70944269795814_3_alg».proof.Proof.HostVal12
import proofs.«410742_j70944269795814_3_alg».proof.Proof.Spec

set_option maxRecDepth 16384

noncomputable section

namespace Cert.KernelIdeal.Val

open Idealize.ShloMosaic Idealize.ShloMosaic.TcCoe Idealize.ShloMosaic.ValueIdx
open Idealize.SL Idealize.SL.Sem
open Cert.KernelIdeal Cert.KernelIdeal.Hand Cert.Gcn

variable (m : (ℓ : Loc nD τ sig) → Buf (Elt Ideal) ℓ) (c : Dev nD)

/-- The argument arrays of the program's memory on core `c`, as the specification's record. -/
def argsK : Cert.Gcn.Args where
  x := m ((c : Thread nD τ).loc main_arg0)
  ei := m ((c : Thread nD τ).loc main_arg1)
  bi := m ((c : Thread nD τ).loc main_arg2)
  W1 := m ((c : Thread nD τ).loc main_arg3)
  b1 := m ((c : Thread nD τ).loc main_arg4)
  W2 := m ((c : Thread nD τ).loc main_arg5)
  b2 := m ((c : Thread nD τ).loc main_arg6)
  Wo := m ((c : Thread nD τ).loc main_arg7)
  bo := m ((c : Thread nD τ).loc main_arg8)

/-- Rows of a table summed over the edges into node `i`, the table, the source words and the destination words each given
    entry by entry: the specification's sum over incoming edges. -/
theorem agg_of_entries (a : Cert.Gcn.Args) (T : S100000x32.Idx → EReal) (s t : S1600000.Idx → BitVec 32)
    (hs : Fin 100000 → Fin 32 → EReal) (hsrc : ∀ e, s (ix1 e) = srcW a e) (hdst : ∀ e, t (ix1 e) = dstW a e)
    (hT : ∀ n d, T (ix2 n d) = hs n d) (i : Fin 100000) (d : Fin 32) :
    (∑ e ∈ Finset.univ.filter (fun e : Fin 1600000 => (t (ix1 e)).toInt = (i.val : Int)), T (ix2 (node (s (ix1 e))) d))
      = kAgg a hs i d := by
  unfold kAgg onDst
  refine Finset.sum_congr (Finset.filter_congr fun e _ => by rw [hdst]) fun e _ => ?_
  rw [hsrc, hT]

/-- A contraction whose left factors are given entry by entry. -/
theorem lin_of_entries (o : Fin 32 → EReal) (o' : Fin 32 → EReal) (w : S32x32.Idx → EReal) (d : Fin 32) (h : ∀ k, o k = o' k) :
    (∑ k : Fin 32, o k * w (ix2 k d)) = ∑ k : Fin 32, o' k * w (ix2 k d) :=
  Finset.sum_congr rfl fun k _ => by rw [h]

/-! ## After the first host stretch -/

/-- The degree count of the stretch is the specification's. -/
theorem degW_eq (i : Fin 100000) : degW (W0 m c main_arg1 : S2x1600000.Idx → BitVec 32) i = deg (argsK m c) i := rfl

theorem pack0 (i : Fin 100000) : (V1 m c main_v14 : S100000x2.Idx → EReal) (ix2 i (0 : Fin 2)) = dis (argsK m c) i :=
  (ops0_v14_0 (W0 m c) i).trans (congrArg Ideal.rsqrt (degW_eq m c i))
theorem pack1 (i : Fin 100000) :
    (V1 m c main_v14 : S100000x2.Idx → EReal) (ix2 i (1 : Fin 2)) = dis (argsK m c) i * dis (argsK m c) i :=
  (ops0_v14_1 (W0 m c) i).trans (by rw [degW_eq]; rfl)
theorem src1 (e : Fin 1600000) : (V1 m c main_v1 : S1600000.Idx → BitVec 32) (ix1 e) = srcW (argsK m c) e := ops0_v1 (W0 m c) e
theorem dst1 (e : Fin 1600000) : (V1 m c main_v3 : S1600000.Idx → BitVec 32) (ix1 e) = dstW (argsK m c) e := ops0_v3 (W0 m c) e
theorem bias1 (k : Fin 32) : (V1 m c main_v15 : S1x32.Idx → EReal) (ix2 (0 : Fin 1) k) = (argsK m c).b1 (ix1 k) := ops0_v15 (W0 m c) k
theorem bias2 (k : Fin 32) : (V1 m c main_v16 : S1x32.Idx → EReal) (ix2 (0 : Fin 1) k) = (argsK m c).b2 (ix1 k) := ops0_v16 (W0 m c) k
theorem graph1 (r : Fin 100000) : (V1 m c main_v17 : S100000x1.Idx → BitVec 32) (ix2 r (0 : Fin 1)) = (argsK m c).bi (ix1 r) := ops0_v17 (W0 m c) r
theorem headb1 : (V1 m c main_v18 : S1x1.Idx → EReal) (ix2 (0 : Fin 1) (0 : Fin 1)) = (argsK m c).bo (ix1 (0 : Fin 1)) := ops0_v18 (W0 m c)

/-! ## The first region: the projection and its scaled rows -/

theorem h1_eq (i : Fin 100000) (d : Fin 32) :
    ((dat0 (F := Ideal) (V1 m) c).arrAt 3 cfg0.N : S100000x32.Idx → EReal) (ix2 i d) = lin1 (argsK m c) i d := by
  have e0 : a0_feat (V1 m) c = (argsK m c).x := rd0_arg0 m c
  have e1 : a0_wts (V1 m) c = (argsK m c).W1 := rd0_arg3 m c
  rw [arr0_3_apply, e0, e1]; rfl
theorem hs1_eq (i : Fin 100000) (d : Fin 32) :
    ((dat0 (F := Ideal) (V1 m) c).arrAt 4 cfg0.N : S100000x32.Idx → EReal) (ix2 i d) = lin1 (argsK m c) i d * dis (argsK m c) i := by
  have e0 : a0_feat (V1 m) c = (argsK m c).x := rd0_arg0 m c
  have e1 : a0_wts (V1 m) c = (argsK m c).W1 := rd0_arg3 m c
  have e2 : a0_scale (V1 m) c (ix2 i (0 : Fin 2)) = dis (argsK m c) i := pack0 m c i
  rw [arr0_4_apply, e0, e1, e2]; rfl

/-! ## The second host stretch: messages summed onto their destinations -/

theorem agg1_eq (i : Fin 100000) (d : Fin 32) :
    (V3 m c main_v29 : S100000x32.Idx → EReal) (ix2 i d)
      = kAgg (argsK m c) (fun i d => lin1 (argsK m c) i d * dis (argsK m c) i) i d :=
  (ops1_v29 (W2 m c) i d).trans
    (agg_of_entries (argsK m c) (W2 m c main_v19_1) (W2 m c main_v1) (W2 m c main_v3) _
      (fun e => (congrFun (rd1_v1 m c) (ix1 e)).trans (src1 m c e))
      (fun e => (congrFun (rd1_v3 m c) (ix1 e)).trans (dst1 m c e))
      (fun n d => (congrFun (rd1_v19_1 m c) (ix2 n d)).trans (hs1_eq m c n d)) i d)

/-! ## The second region: the first layer finished, projected, scaled -/

theorem o1_eq (i : Fin 100000) (k : Fin 32) : o1 (V3 m) c i k = kOut1 (argsK m c) i k := by
  have e0 : a1_agg (V3 m) c (ix2 i k) = kAgg (argsK m c) (fun i d => lin1 (argsK m c) i d * dis (argsK m c) i) i k := agg1_eq m c i k
  have e1 : a1_h (V3 m) c (ix2 i k) = lin1 (argsK m c) i k := (congrFun (rd2_v19_0 m c) (ix2 i k)).trans (h1_eq m c i k)
  have e2 : a1_scale (V3 m) c (ix2 i (0 : Fin 2)) = dis (argsK m c) i := (congrFun (rd2_v14 m c) _).trans (pack0 m c i)
  have e3 : a1_scale (V3 m) c (ix2 i (1 : Fin 2)) = dis (argsK m c) i * dis (argsK m c) i := (congrFun (rd2_v14 m c) _).trans (pack1 m c i)
  have e4 : a1_bias (V3 m) c (ix2 (0 : Fin 1) k) = (argsK m c).b1 (ix1 k) := (congrFun (rd2_v15 m c) _).trans (bias1 m c k)
  unfold o1 kOut1 kFin
  rw [e0, e1, e2, e3, e4]
theorem h2_eq (i : Fin 100000) (d : Fin 32) :
    ((dat1 (F := Ideal) (V3 m) c).arrAt 5 cfg1.N : S100000x32.Idx → EReal) (ix2 i d) = kLin2 (argsK m c) i d := by
  have e5 : a1_wts (V3 m) c = (argsK m c).W2 := rd2_arg5 m c
  rw [arr1_5_apply, e5]
  exact lin_of_entries _ _ _ d (o1_eq m c i)
theorem hs2_eq (i : Fin 100000) (d : Fin 32) :
    ((dat1 (F := Ideal) (V3 m) c).arrAt 6 cfg1.N : S100000x32.Idx → EReal) (ix2 i d) = kLin2 (argsK m c) i d * dis (argsK m c) i := by
  have e5 : a1_wts (V3 m) c = (argsK m c).W2 := rd2_arg5 m c
  have e2 : a1_scale (V3 m) c (ix2 i (0 : Fin 2)) = dis (argsK m c) i := (congrFun (rd2_v14 m c) _).trans (pack0 m c i)
  rw [arr1_6_apply, e5, e2, lin_of_entries _ _ _ d (o1_eq m c i)]; rfl

/-! ## The third host stretch -/

theorem agg2_eq (i : Fin 100000) (d : Fin 32) :
    (V5 m c main_v40 : S100000x32.Idx → EReal) (ix2 i d)
      = kAgg (argsK m c) (fun i d => kLin2 (argsK m c) i d * dis (argsK m c) i) i d :=
  (ops2_v40 (W4 m c) i d).trans
    (agg_of_entries (argsK m c) (W4 m c main_v30_1) (W4 m c main_v1) (W4 m c main_v3) _
      (fun e => (congrFun (rd3_v1 m c) (ix1 e)).trans (src1 m c e))
      (fun e => (congrFun (rd3_v3 m c) (ix1 e)).trans (dst1 m c e))
      (fun n d => (congrFun (rd3_v30_1 m c) (ix2 n d)).trans (hs2_eq m c n d)) i d)

/-! ## The third region: the second layer finished, pooled, and the head -/

theorem o2_eq (r : Fin 100000) (d : Fin 32) : o2 (V5 m) c r d = kOut2 (argsK m c) r d := by
  have e0 : a2_agg (V5 m) c (ix2 r d) = kAgg (argsK m c) (fun i d => kLin2 (argsK m c) i d * dis (argsK m c) i) r d := agg2_eq m c r d
  have e1 : a2_h (V5 m) c (ix2 r d) = kLin2 (argsK m c) r d := (congrFun (rd4_v30_0 m c) (ix2 r d)).trans (h2_eq m c r d)
  have e2 : a2_scale (V5 m) c (ix2 r (0 : Fin 2)) = dis (argsK m c) r := (congrFun (rd4_v14 m c) _).trans (pack0 m c r)
  have e3 : a2_scale (V5 m) c (ix2 r (1 : Fin 2)) = dis (argsK m c) r * dis (argsK m c) r := (congrFun (rd4_v14 m c) _).trans (pack1 m c r)
  have e4 : a2_bias (V5 m) c (ix2 (0 : Fin 1) d) = (argsK m c).b2 (ix1 d) := (congrFun (rd4_v16 m c) _).trans (bias2 m c d)
  unfold o2 kOut2 kFin
  rw [e0, e1, e2, e3, e4]
theorem oh2_eq (r : Fin 100000) (g : Fin 512) : oh2 (V5 m) c r g = oh (argsK m c) r g := by
  have e0 : a2_batch (V5 m) c (ix2 r (0 : Fin 1)) = (argsK m c).bi (ix1 r) := (congrFun (rd4_v17 m c) _).trans (graph1 m c r)
  unfold oh2 oh
  rw [e0]

/-- The result buffer at the last boundary is the specification's result, graph by graph. -/
theorem result_eq : (W6 m c (Proc.devRef .tc main_v41) : S512x1.Idx → EReal) = fun j => kRes (argsK m c) (j 0) := by
  funext j
  obtain ⟨g, u, rfl⟩ : ∃ (g : Fin 512) (u : Fin 1), j = ix2 g u := ⟨j 0, j 1, eq_ix2 j⟩
  obtain rfl : u = 0 := Subsingleton.elim _ _
  have e0 : a2_wo (V5 m) c = (argsK m c).Wo := rd4_arg7 m c
  have e1 : a2_bo (V5 m) c (ix2 (0 : Fin 1) (0 : Fin 1)) = (argsK m c).bo (ix1 (0 : Fin 1)) := (congrFun (rd4_v18 m c) _).trans (headb1 m c)
  refine (congrFun ((rd_v41 m c).trans (arr2_7 (V5 m) c)) (ix2 g (0 : Fin 1))).trans ?_
  rw [out2_7_last_apply, e0, e1]
  unfold kRes kSum kCnt
  simp only [o2_eq, oh2_eq]
  rfl

/-- From any memory with zero counters every weakly fair execution of the program ends, nothing faulting, with the
    result buffer at the specification's result of the argument arrays and every argument array as launched. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v41) = (fun j => kRes (argsK m c) (j 0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_v41 (by decide))).trans (result_eq m c),
     (h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c),
     (h c _ (mem_uc main_arg6 (by decide))).trans (W6_main_arg6 m c),
     (h c _ (mem_uc main_arg7 (by decide))).trans (W6_main_arg7 m c),
     (h c _ (mem_uc main_arg8 (by decide))).trans (W6_main_arg8 m c)⟩)
    (run_all m ρ)

end Cert.KernelIdeal.Val

end
-- ==== Proof.LibGather.lean ====
import Idealize.ShloMosaic.PureOps.ShapeOps
import Idealize.ShloMosaic.Lib.ValueIdx

/-! # A gather that takes entries of a flat array, read at an index

`Host.gather d x idx j = x (d.operandIdx j idx)`: the operand index has, on the gathered axis, the start index read as a SIGNED
integer and CLAMPED into the axis. Worked out here, at any extents, for entries of a flat array: operand `[N]`, start indices
`[K, 1]`, result `[K]` (`flatTakeDims`, `gather_flatTake_apply`), with the corollary for a start index already inside the array
(`gather_flatTake_apply_of_lt`): the clamp does nothing and the entry read is the one the index names. -/

namespace Idealize.ShloMosaic.GatherTake

open Idealize.ShloMosaic Idealize.ShloMosaic.ValueIdx

/-- A signed word that is non-negative and below `N`, clamped into `[0, N - 1]`, is its own value. -/
theorem clamp_of_lt {w : Nat} (v : BitVec w) {N : Nat} (h0 : 0 ≤ v.toInt) (hN : v.toInt < (N : Int)) :
    min v.toInt.toNat (N - 1) = v.toInt.toNat := by
  apply Nat.min_eq_left
  omega

section
variable {α : Type}

/-- Operand `[N]`, start indices `[K, 1]`, result `[K]`: the one axis is gathered (collapsed, one entry). -/
abbrev flatTakeDims (N K : Nat)
    (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE GATHER READ AT `k`: the operand at the start index `idx[k, 0]`, read signed and clamped into `[0, N − 1]`. -/
theorem gather_flatTake_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K) :
    Host.gather (flatTakeDims N K wf) x idx (ix1 k)
      = x (ix1 ⟨min (idx (ix2 k (0 : Fin 1))).toInt.toNat (N - 1), by omega⟩) := by
  unfold Host.gather
  congr 1
  funext c
  obtain rfl : c = 0 := Subsingleton.elim _ _
  refine Fin.ext ?_
  show (flatTakeDims N K wf).start (ix1 k) idx 0 + (flatTakeDims N K wf).batchCoord (ix1 k) 0
    + (flatTakeDims N K wf).offCoord (ix1 k) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (flatTakeDims N K wf).startIndexMap from List.mem_singleton.mpr rfl)]
  have hsi : (flatTakeDims N K wf).siIdx (ix1 k) ⟨List.idxOf (0 : Fin 1) (flatTakeDims N K wf).startIndexMap,
      List.idxOf_lt_length_iff.2 (List.mem_singleton.mpr rfl)⟩ = ix2 k (0 : Fin 1) := by
    funext e; refine Fin.ext ?_
    match e with
    | ⟨0, _⟩ => rfl
    | ⟨1, _⟩ => rfl
  rw [hsi]
  rfl

/-- The same for a start index inside the array: the entry it names. -/
theorem gather_flatTake_apply_of_lt {N K w : Nat}
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (k : Fin K)
    (h0 : 0 ≤ (idx (ix2 k (0 : Fin 1))).toInt) (hlt : (idx (ix2 k (0 : Fin 1))).toInt < (N : Int)) :
    Host.gather (flatTakeDims N K wf) x idx (ix1 k)
      = x (ix1 ⟨(idx (ix2 k (0 : Fin 1))).toInt.toNat, by omega⟩) := by
  rw [gather_flatTake_apply (by omega) wf x idx k]
  congr 2
  exact Fin.ext (clamp_of_lt _ h0 hlt)

end

end Idealize.ShloMosaic.GatherTake
-- ==== Proof.RefVal.lean ====
/- # The reference program's result is the scaled-message arrangement

The host program computes, with whole-array operations only: the in-degree count by a scatter-add of ones and its
inverse square root; the first projection; for each edge the source's projected row times the product of the two ends'
scales; the sum of these messages onto their destinations; the self term and the bias under a maximum with zero; the
second layer likewise; per graph the sum of the rows and the count of the nodes, their quotient, and the head.
Every stage is read here at an index, bottom-up, until the last one is `Cert.Gcn.rRes` at the graph. A source word
is wrapped when negative and clamped into the table by the gather; a scattered row whose word is no row is dropped by
the scatter-add, which is what the index sets `onDst` and `inGraph` of the specification say. -/
import proofs.«410742_j70944269795814_3_alg».proof.Proof.Gen.ReferenceIdeal.Read
import proofs.«410742_j70944269795814_3_alg».proof.Proof.Spec
import proofs.«410742_j70944269795814_3_alg».proof.Proof.LibScatterAddRows
import proofs.«410742_j70944269795814_3_alg».proof.Proof.LibScatterAddVec
import proofs.«410742_j70944269795814_3_alg».proof.Proof.LibGatherRow
import proofs.«410742_j70944269795814_3_alg».proof.Proof.LibGather
import proofs.«410742_j70944269795814_3_alg».proof.Proof.LibMeanAggregate
import proofs.«410742_j70944269795814_3_alg».proof.Proof.LibReshapeRows
import Idealize.ShloMosaic.Lib.ValueIdx
import Idealize.ShloMosaic.Lib.Pipeline.Value
import Idealize.ShloMosaic.Lib.ValueLayout
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx
open Idealize.SL.Sem
open Cert.ReferenceIdeal Cert.ReferenceIdeal.Read

/-- the argument arrays of the reference's memory on core c, as the specification's record -/
def argsR (m : (ℓ : Loc Cert.ReferenceIdeal.nD Cert.ReferenceIdeal.τ Cert.ReferenceIdeal.sig) → Buf (Elt Ideal) ℓ) (c : Dev Cert.ReferenceIdeal.nD) : Cert.Gcn.Args :=
  { x  := m ((c.tc : Thread Cert.ReferenceIdeal.nD Cert.ReferenceIdeal.τ).loc Cert.ReferenceIdeal.main_arg0)
    ei := m ((c.tc : Thread Cert.ReferenceIdeal.nD Cert.ReferenceIdeal.τ).loc Cert.ReferenceIdeal.main_arg1)
    bi := m ((c.tc : Thread Cert.ReferenceIdeal.nD Cert.ReferenceIdeal.τ).loc Cert.ReferenceIdeal.main_arg2)
    W1 := m ((c.tc : Thread Cert.ReferenceIdeal.nD Cert.ReferenceIdeal.τ).loc Cert.ReferenceIdeal.main_arg3)
    b1 := m ((c.tc : Thread Cert.ReferenceIdeal.nD Cert.ReferenceIdeal.τ).loc Cert.ReferenceIdeal.main_arg4)
    W2 := m ((c.tc : Thread Cert.ReferenceIdeal.nD Cert.ReferenceIdeal.τ).loc Cert.ReferenceIdeal.main_arg5)
    b2 := m ((c.tc : Thread Cert.ReferenceIdeal.nD Cert.ReferenceIdeal.τ).loc Cert.ReferenceIdeal.main_arg6)
    Wo := m ((c.tc : Thread Cert.ReferenceIdeal.nD Cert.ReferenceIdeal.τ).loc Cert.ReferenceIdeal.main_arg7)
    bo := m ((c.tc : Thread Cert.ReferenceIdeal.nD Cert.ReferenceIdeal.τ).loc Cert.ReferenceIdeal.main_arg8) }

/-! ## The data-dependent operations read at a general index -/

/-- A word read signed and clamped into the node table: the row a gather reads for that word. -/
private def clampNode (v : BitVec 32) : Fin 100000 := ⟨min v.toInt.toNat (100000 - 1), by omega⟩

/-- An entry gather from the node table: the entry at the index word, read signed and clamped into the table. -/
private theorem gatherFlat_at {α : Type} (x : S100000.Idx → α) (idx : IVec S1600000x1 32) (i : S1600000.Idx) :
    Host.gather gather_S100000_S1600000x1_S1600000_n_0_n_n_0_1_1 x idx i
      = x (ix1 (clampNode (idx (ix2 (i 0) (0 : Fin 1))))) := by
  obtain ⟨e, rfl⟩ : ∃ e : Fin 1600000, i = ix1 e := ⟨i 0, eq_ix1 i⟩
  exact GatherTake.gather_flatTake_apply (by decide) _ x idx e

/-- A row gather from a 32-column node table: column `i 1` of the row at the index word, read signed and clamped. -/
private theorem gatherRows_at {α : Type} (x : S100000x32.Idx → α) (idx : IVec S1600000x1 32) (i : S1600000x32.Idx) :
    Host.gather gather_S100000x32_S1600000x1_S1600000x32_1_0_n_n_0_1_132 x idx i
      = x (ix2 (clampNode (idx (ix2 (i 0) (0 : Fin 1)))) (i 1)) := by
  obtain ⟨e, d, rfl⟩ : ∃ (e : Fin 1600000) (d : Fin 32), i = ix2 e d := ⟨i 0, i 1, eq_ix2 i⟩
  exact GatherRow.gather_rowTake_apply (by decide) _ rfl rfl rfl rfl rfl rfl rfl x idx e d

/-- A scatter-add of rows, at the ideal values: the operand's entry plus the entries, in the same column, of the update
    rows whose index word reads the row. -/
private theorem scatterRows_at {N K C : Nat} (d : ScatterDims ⟨2, ![N, C]⟩ ⟨2, ![K, 1]⟩ ⟨2, ![K, C]⟩)
    (hu : d.updateWindowDims = [1]) (hi : d.insertedWindowDims = [0]) (hs : d.scatterDimsToOperandDims = [0])
    (hv : d.indexVectorDim = 1)
    (x : FVec Ideal ⟨2, ![N, C]⟩ .f32) (idx : IVec ⟨2, ![K, 1]⟩ 32) (upd : FVec Ideal ⟨2, ![K, C]⟩ .f32)
    (i : (⟨2, ![N, C]⟩ : Shape).Idx) :
    Host.scatterAdd d x idx upd i
      = x i + ∑ e ∈ Finset.univ.filter (fun e : Fin K => (idx (ix2 e (0 : Fin 1))).toInt = ((i 0).val : Int)), upd (ix2 e (i 1)) := by
  obtain ⟨r, c, rfl⟩ : ∃ (r : Fin N) (c : Fin C), i = ix2 r c := ⟨i 0, i 1, eq_ix2 i⟩
  exact ScatterAddRows.hostScatterAdd_rows_apply d hu hi hs hv x idx upd r c

/-- A scatter-add of scalars, at the ideal values: the operand's entry plus the updates whose index word reads the
    position. -/
private theorem scatterVec_at {N K : Nat} (d : ScatterDims ⟨1, ![N]⟩ ⟨2, ![K, 1]⟩ ⟨1, ![K]⟩)
    (hu : d.updateWindowDims = []) (hi : d.insertedWindowDims = [0]) (hs : d.scatterDimsToOperandDims = [0])
    (hv : d.indexVectorDim = 1)
    (x : FVec Ideal ⟨1, ![N]⟩ .f32) (idx : IVec ⟨2, ![K, 1]⟩ 32) (upd : FVec Ideal ⟨1, ![K]⟩ .f32)
    (i : (⟨1, ![N]⟩ : Shape).Idx) :
    Host.scatterAdd d x idx upd i
      = x i + ∑ e ∈ Finset.univ.filter (fun e : Fin K => (idx (ix2 e (0 : Fin 1))).toInt = ((i 0).val : Int)), upd (ix1 e) := by
  obtain ⟨r, rfl⟩ : ∃ r : Fin N, i = ix1 r := ⟨i 0, eq_ix1 i⟩
  exact ScatterAddVec.hostScatterAdd_vec_apply d hu hi hs hv x idx upd r

variable (a : Gcn.Args)

/-! ## The edge words -/

/-- Row 0 of the edge array, flattened: the source word of the edge. -/
private theorem v1_at (i : S1600000.Idx) : val_main_v1 (F := Ideal) a.ei i = Gcn.srcW a (i 0) := by
  rewrite [val_main_v1_apply, val_main_v0_apply]
  show a.ei _ = a.ei (ix2 (0 : Fin 2) (i 0))
  refine congrArg a.ei (funext fun b => ?_)
  match b with
  | ⟨0, _⟩ => rfl
  | ⟨1, _⟩ => exact Fin.ext (Nat.mod_eq_of_lt (i 0).isLt)

/-- Row 1 of the edge array, flattened: the destination word of the edge. -/
private theorem v3_at (i : S1600000.Idx) : val_main_v3 (F := Ideal) a.ei i = Gcn.dstW a (i 0) := by
  rewrite [val_main_v3_apply, val_main_v2_apply]
  show a.ei _ = a.ei (ix2 (1 : Fin 2) (i 0))
  refine congrArg a.ei (funext fun b => ?_)
  match b with
  | ⟨0, _⟩ => rfl
  | ⟨1, _⟩ => exact Fin.ext (Nat.mod_eq_of_lt (i 0).isLt)

/-! ## The words the gathers and the scatter-adds read -/

/-- The destination words as a one-column array. -/
private theorem v6_at (i : S1600000x1.Idx) : val_main_v6 (F := Ideal) a.ei i = Gcn.dstW a (i 0) := by
  rewrite [val_main_v6_apply, v3_at a]
  rfl

/-- The destination words as a one-column array. -/
private theorem v38_at (i : S1600000x1.Idx) : val_main_v38 (F := Ideal) a.ei i = Gcn.dstW a (i 0) := by
  rewrite [val_main_v38_apply, v3_at a]
  rfl

/-- The destination words as a one-column array. -/
private theorem v76_at (i : S1600000x1.Idx) : val_main_v76 (F := Ideal) a.ei i = Gcn.dstW a (i 0) := by
  rewrite [val_main_v76_apply, v3_at a]
  rfl

/-- The graph words as a one-column array. -/
private theorem v88_at (i : S100000x1.Idx) : val_main_v88 (F := Ideal) a.bi i = a.bi (ix1 (i 0)) := by
  rewrite [val_main_v88_apply]
  refine congrArg a.bi (funext fun b => ?_)
  match b with
  | ⟨0, _⟩ => rfl

/-- The graph words as a one-column array. -/
private theorem v92_at (i : S100000x1.Idx) : val_main_v92 (F := Ideal) a.bi i = a.bi (ix1 (i 0)) := by
  rewrite [val_main_v92_apply]
  refine congrArg a.bi (funext fun b => ?_)
  match b with
  | ⟨0, _⟩ => rfl

/-- The source word, with the table's length added when it is negative. -/
private theorem v16_at (i : S1600000.Idx) : val_main_v16 (F := Ideal) a.ei i = Gcn.wrapW (Gcn.srcW a (i 0)) := by
  rewrite [val_main_v16_apply, val_main_v13_apply, val_main_v15_apply, val_main_v12_apply, val_main_v14_apply,
    val_main_c_apply, val_main_c_2_apply, v1_at a]
  rfl

/-- The same as a one-column array. -/
private theorem v17_at (i : S1600000x1.Idx) : val_main_v17 (F := Ideal) a.ei i = Gcn.wrapW (Gcn.srcW a (i 0)) := by
  rewrite [val_main_v17_apply, v16_at a]
  rfl

/-- The destination word, with the table's length added when it is negative. -/
private theorem v23_at (i : S1600000.Idx) : val_main_v23 (F := Ideal) a.ei i = Gcn.wrapW (Gcn.dstW a (i 0)) := by
  rewrite [val_main_v23_apply, val_main_v20_apply, val_main_v22_apply, val_main_v19_apply, val_main_v21_apply,
    val_main_c_3_apply, val_main_c_4_apply, v3_at a]
  rfl

/-- The same as a one-column array. -/
private theorem v24_at (i : S1600000x1.Idx) : val_main_v24 (F := Ideal) a.ei i = Gcn.wrapW (Gcn.dstW a (i 0)) := by
  rewrite [val_main_v24_apply, v23_at a]
  rfl

/-- The source word, with the table's length added when it is negative. -/
private theorem v31_at (i : S1600000.Idx) : val_main_v31 (F := Ideal) a.ei i = Gcn.wrapW (Gcn.srcW a (i 0)) := by
  rewrite [val_main_v31_apply, val_main_v28_apply, val_main_v30_apply, val_main_v27_apply, val_main_v29_apply,
    val_main_c_5_apply, val_main_c_6_apply, v1_at a]
  rfl

/-- The same as a one-column array. -/
private theorem v32_at (i : S1600000x1.Idx) : val_main_v32 (F := Ideal) a.ei i = Gcn.wrapW (Gcn.srcW a (i 0)) := by
  rewrite [val_main_v32_apply, v31_at a]
  rfl

/-- The source word, with the table's length added when it is negative. -/
private theorem v54_at (i : S1600000.Idx) : val_main_v54 (F := Ideal) a.ei i = Gcn.wrapW (Gcn.srcW a (i 0)) := by
  rewrite [val_main_v54_apply, val_main_v51_apply, val_main_v53_apply, val_main_v50_apply, val_main_v52_apply,
    val_main_c_8_apply, val_main_c_9_apply, v1_at a]
  rfl

/-- The same as a one-column array. -/
private theorem v55_at (i : S1600000x1.Idx) : val_main_v55 (F := Ideal) a.ei i = Gcn.wrapW (Gcn.srcW a (i 0)) := by
  rewrite [val_main_v55_apply, v54_at a]
  rfl

/-- The destination word, with the table's length added when it is negative. -/
private theorem v61_at (i : S1600000.Idx) : val_main_v61 (F := Ideal) a.ei i = Gcn.wrapW (Gcn.dstW a (i 0)) := by
  rewrite [val_main_v61_apply, val_main_v58_apply, val_main_v60_apply, val_main_v57_apply, val_main_v59_apply,
    val_main_c_10_apply, val_main_c_11_apply, v3_at a]
  rfl

/-- The same as a one-column array. -/
private theorem v62_at (i : S1600000x1.Idx) : val_main_v62 (F := Ideal) a.ei i = Gcn.wrapW (Gcn.dstW a (i 0)) := by
  rewrite [val_main_v62_apply, v61_at a]
  rfl

/-- The source word, with the table's length added when it is negative. -/
private theorem v69_at (i : S1600000.Idx) : val_main_v69 (F := Ideal) a.ei i = Gcn.wrapW (Gcn.srcW a (i 0)) := by
  rewrite [val_main_v69_apply, val_main_v66_apply, val_main_v68_apply, val_main_v65_apply, val_main_v67_apply,
    val_main_c_12_apply, val_main_c_13_apply, v1_at a]
  rfl

/-- The same as a one-column array. -/
private theorem v70_at (i : S1600000x1.Idx) : val_main_v70 (F := Ideal) a.ei i = Gcn.wrapW (Gcn.srcW a (i 0)) := by
  rewrite [val_main_v70_apply, v69_at a]
  rfl

/-! ## The degree and its inverse square root -/

/-- The scatter-add of ones along the destination words: one per edge into the node. -/
private theorem v7_at (i : S100000.Idx) : val_main_v7 (F := Ideal) a.ei i = ∑ _e ∈ Gcn.onDst a (i 0), Gcn.one32 := by
  unfold val_main_v7
  rewrite [scatterVec_at scatter_S100000_S1600000x1_S1600000_n_0_0_1 rfl rfl rfl rfl, val_main_v5_apply,
    val_main_cst_0_apply, Ideal.ofBits_def, Ideal.ofBits_zero_f32, zero_add]
  unfold Gcn.onDst
  refine Finset.sum_congr (Finset.filter_congr fun e _ => ?_) fun e _ => ?_
  · rewrite [v6_at a]
    exact Iff.rfl
  · rewrite [val_main_v4_apply, val_main_cst_apply]
    rfl

/-- The inverse square root of the count plus one. -/
private theorem v10_at (i : S100000.Idx) : val_main_v10 (F := Ideal) a.ei i = Gcn.dis a (i 0) := by
  rewrite [val_main_v10_apply, val_main_v9_apply, v7_at a, val_main_v8_apply, val_main_cst_1_apply,
    Ideal.hostUnary_rsqrt_def, Ideal.addf_def, Ideal.ofBits_def]
  unfold Gcn.dis Gcn.deg Gcn.one32
  rfl

/-! ## The first projection -/

/-- The contraction of a feature row with a column of the first weight matrix. -/
private theorem v11_at (i : S100000x32.Idx) : val_main_v11 (F := Ideal) a.x a.W1 i = Gcn.lin1 a (i 0) (i 1) := by
  rewrite [val_main_v11_apply]
  unfold Gcn.lin1
  refine Finset.sum_congr rfl fun k _ => ?_
  have hl : lidx_main_v11 i k = ix2 (i 0) k := Shape.idx_ext₂ rfl rfl
  have hr : ridx_main_v11 i k = ix2 k (i 1) := Shape.idx_ext₂ rfl rfl
  rewrite [hl, hr]
  rfl

/-! ## Layer 1 -/

/-- The scale of an edge's source: the scale table read at the wrapped, clamped source word. -/
private theorem v18_at (i : S1600000.Idx) :
    val_main_v18 (F := Ideal) a.ei i = Gcn.dis a (Gcn.node (Gcn.srcW a (i 0))) := by
  unfold val_main_v18
  rewrite [gatherFlat_at, v10_at a, v17_at a]
  rfl

/-- The scale of an edge's destination, read the same way. -/
private theorem v25_at (i : S1600000.Idx) :
    val_main_v25 (F := Ideal) a.ei i = Gcn.dis a (Gcn.node (Gcn.dstW a (i 0))) := by
  unfold val_main_v25
  rewrite [gatherFlat_at, v10_at a, v24_at a]
  rfl

/-- The product of the two ends' scales. -/
private theorem v26_at (i : S1600000.Idx) :
    val_main_v26 (F := Ideal) a.ei i
      = Gcn.dis a (Gcn.node (Gcn.srcW a (i 0))) * Gcn.dis a (Gcn.node (Gcn.dstW a (i 0))) := by
  rewrite [val_main_v26_apply, v18_at a, v25_at a]
  rfl

/-- The source's projected row. -/
private theorem v33_at (i : S1600000x32.Idx) :
    val_main_v33 (F := Ideal) a.x a.ei a.W1 i = Gcn.lin1 a (Gcn.node (Gcn.srcW a (i 0))) (i 1) := by
  unfold val_main_v33
  rewrite [gatherRows_at, v11_at a, v32_at a]
  rfl

/-- The product of the scales, once per column. -/
private theorem v35_at (i : S1600000x32.Idx) :
    val_main_v35 (F := Ideal) a.ei i
      = Gcn.dis a (Gcn.node (Gcn.srcW a (i 0))) * Gcn.dis a (Gcn.node (Gcn.dstW a (i 0))) := by
  rewrite [val_main_v35_apply, val_main_v34_apply, v26_at a]
  rfl

/-- The message of an edge. -/
private theorem v36_at (i : S1600000x32.Idx) :
    val_main_v36 (F := Ideal) a.x a.ei a.W1 i
      = Gcn.lin1 a (Gcn.node (Gcn.srcW a (i 0))) (i 1)
          * (Gcn.dis a (Gcn.node (Gcn.srcW a (i 0))) * Gcn.dis a (Gcn.node (Gcn.dstW a (i 0)))) := by
  rewrite [val_main_v36_apply, v33_at a, v35_at a]
  rfl

/-- The messages summed onto their destinations: an edge whose destination word is no node adds nothing. -/
private theorem v39_at (i : S100000x32.Idx) :
    val_main_v39 (F := Ideal) a.x a.ei a.W1 i = Gcn.rAgg a (Gcn.lin1 a) (i 0) (i 1) := by
  unfold val_main_v39
  rewrite [scatterRows_at scatter_S100000x32_S1600000x1_S1600000x32_1_0_0_1 rfl rfl rfl rfl, val_main_v37_apply,
    val_main_cst_7_apply, Ideal.ofBits_def, Ideal.ofBits_zero_f32, zero_add]
  unfold Gcn.rAgg Gcn.onDst
  refine Finset.sum_congr (Finset.filter_congr fun e _ => ?_) fun e _ => ?_
  · rewrite [v38_at a]
    exact Iff.rfl
  · rewrite [v36_at a]
    rfl

/-- The self term: the node's own projected row times its scale squared. -/
private theorem v43_at (i : S100000x32.Idx) :
    val_main_v43 (F := Ideal) a.x a.ei a.W1 i = Gcn.lin1 a (i 0) (i 1) * (Gcn.dis a (i 0) * Gcn.dis a (i 0)) := by
  rewrite [val_main_v43_apply, v11_at a, val_main_v42_apply, val_main_v41_apply, val_main_v40_apply,
    v10_at a]
  rfl

/-- The bias, once per row. -/
private theorem v46_at (i : S100000x32.Idx) : val_main_v46 (F := Ideal) a.b1 i = a.b1 (ix1 (i 1)) := by
  rewrite [val_main_v46_apply, val_main_v45_apply]
  refine congrArg a.b1 (funext fun b => ?_)
  match b with
  | ⟨0, _⟩ => rfl

/-- The layer's rows: messages plus self term plus bias, under a maximum with zero. -/
private theorem v48_at (i : S100000x32.Idx) :
    val_main_v48 (F := Ideal) a.x a.ei a.W1 a.b1 i = Gcn.rOut1 a (i 0) (i 1) := by
  rewrite [val_main_v48_apply, val_main_v47_apply, val_main_v44_apply, v39_at a, v43_at a,
    v46_at a, val_main_call0_v0_apply, val_main_call0_cst_apply, Ideal.ofBits_def, Ideal.ofBits_zero_f32]
  rfl

/-! ## The second projection -/

/-- The contraction of a first-layer row with a column of the second weight matrix. -/
private theorem v49_at (i : S100000x32.Idx) :
    val_main_v49 (F := Ideal) a.x a.ei a.W1 a.b1 a.W2 i = Gcn.rLin2 a (i 0) (i 1) := by
  rewrite [val_main_v49_apply]
  unfold Gcn.rLin2
  refine Finset.sum_congr rfl fun k _ => ?_
  have hr : ridx_main_v49 i k = ix2 k (i 1) := Shape.idx_ext₂ rfl rfl
  rewrite [v48_at a, hr]
  rfl

/-! ## Layer 2 -/

/-- The scale of an edge's source: the scale table read at the wrapped, clamped source word. -/
private theorem v56_at (i : S1600000.Idx) :
    val_main_v56 (F := Ideal) a.ei i = Gcn.dis a (Gcn.node (Gcn.srcW a (i 0))) := by
  unfold val_main_v56
  rewrite [gatherFlat_at, v10_at a, v55_at a]
  rfl

/-- The scale of an edge's destination, read the same way. -/
private theorem v63_at (i : S1600000.Idx) :
    val_main_v63 (F := Ideal) a.ei i = Gcn.dis a (Gcn.node (Gcn.dstW a (i 0))) := by
  unfold val_main_v63
  rewrite [gatherFlat_at, v10_at a, v62_at a]
  rfl

/-- The product of the two ends' scales. -/
private theorem v64_at (i : S1600000.Idx) :
    val_main_v64 (F := Ideal) a.ei i
      = Gcn.dis a (Gcn.node (Gcn.srcW a (i 0))) * Gcn.dis a (Gcn.node (Gcn.dstW a (i 0))) := by
  rewrite [val_main_v64_apply, v56_at a, v63_at a]
  rfl

/-- The source's projected row. -/
private theorem v71_at (i : S1600000x32.Idx) :
    val_main_v71 (F := Ideal) a.x a.ei a.W1 a.b1 a.W2 i = Gcn.rLin2 a (Gcn.node (Gcn.srcW a (i 0))) (i 1) := by
  unfold val_main_v71
  rewrite [gatherRows_at, v49_at a, v70_at a]
  rfl

/-- The product of the scales, once per column. -/
private theorem v73_at (i : S1600000x32.Idx) :
    val_main_v73 (F := Ideal) a.ei i
      = Gcn.dis a (Gcn.node (Gcn.srcW a (i 0))) * Gcn.dis a (Gcn.node (Gcn.dstW a (i 0))) := by
  rewrite [val_main_v73_apply, val_main_v72_apply, v64_at a]
  rfl

/-- The message of an edge. -/
private theorem v74_at (i : S1600000x32.Idx) :
    val_main_v74 (F := Ideal) a.x a.ei a.W1 a.b1 a.W2 i
      = Gcn.rLin2 a (Gcn.node (Gcn.srcW a (i 0))) (i 1)
          * (Gcn.dis a (Gcn.node (Gcn.srcW a (i 0))) * Gcn.dis a (Gcn.node (Gcn.dstW a (i 0)))) := by
  rewrite [val_main_v74_apply, v71_at a, v73_at a]
  rfl

/-- The messages summed onto their destinations: an edge whose destination word is no node adds nothing. -/
private theorem v77_at (i : S100000x32.Idx) :
    val_main_v77 (F := Ideal) a.x a.ei a.W1 a.b1 a.W2 i = Gcn.rAgg a (Gcn.rLin2 a) (i 0) (i 1) := by
  unfold val_main_v77
  rewrite [scatterRows_at scatter_S100000x32_S1600000x1_S1600000x32_1_0_0_1 rfl rfl rfl rfl, val_main_v75_apply,
    val_main_cst_14_apply, Ideal.ofBits_def, Ideal.ofBits_zero_f32, zero_add]
  unfold Gcn.rAgg Gcn.onDst
  refine Finset.sum_congr (Finset.filter_congr fun e _ => ?_) fun e _ => ?_
  · rewrite [v76_at a]
    exact Iff.rfl
  · rewrite [v74_at a]
    rfl

/-- The self term: the node's own projected row times its scale squared. -/
private theorem v81_at (i : S100000x32.Idx) :
    val_main_v81 (F := Ideal) a.x a.ei a.W1 a.b1 a.W2 i = Gcn.rLin2 a (i 0) (i 1) * (Gcn.dis a (i 0) * Gcn.dis a (i 0)) := by
  rewrite [val_main_v81_apply, v49_at a, val_main_v80_apply, val_main_v79_apply, val_main_v78_apply,
    v10_at a]
  rfl

/-- The bias, once per row. -/
private theorem v84_at (i : S100000x32.Idx) : val_main_v84 (F := Ideal) a.b2 i = a.b2 (ix1 (i 1)) := by
  rewrite [val_main_v84_apply, val_main_v83_apply]
  refine congrArg a.b2 (funext fun b => ?_)
  match b with
  | ⟨0, _⟩ => rfl

/-- The layer's rows: messages plus self term plus bias, under a maximum with zero. -/
private theorem v86_at (i : S100000x32.Idx) :
    val_main_v86 (F := Ideal) a.x a.ei a.W1 a.b1 a.W2 a.b2 i = Gcn.rOut2 a (i 0) (i 1) := by
  rewrite [val_main_v86_apply, val_main_v85_apply, val_main_v82_apply, v77_at a, v81_at a,
    v84_at a, val_main_call1_v0_apply, val_main_call1_cst_apply, Ideal.ofBits_def, Ideal.ofBits_zero_f32]
  rfl

/-! ## Pooling over graphs and the head -/

/-- The second layer's rows summed per graph: a node whose graph word is no graph adds nothing. -/
private theorem v89_at (i : S512x32.Idx) :
    val_main_v89 (F := Ideal) a.x a.ei a.bi a.W1 a.b1 a.W2 a.b2 i = Gcn.rSum a (i 0) (i 1) := by
  unfold val_main_v89
  rewrite [scatterRows_at scatter_S512x32_S100000x1_S100000x32_1_0_0_1 rfl rfl rfl rfl, val_main_v87_apply,
    val_main_cst_15_apply, Ideal.ofBits_def, Ideal.ofBits_zero_f32, zero_add]
  unfold Gcn.rSum Gcn.inGraph
  refine Finset.sum_congr (Finset.filter_congr fun r _ => ?_) fun r _ => ?_
  · rewrite [v88_at a]
    exact Iff.rfl
  · rewrite [v86_at a]
    rfl

/-- The number of nodes per graph, as a sum of ones. -/
private theorem v93_at (i : S512.Idx) : val_main_v93 (F := Ideal) a.bi i = Gcn.rCnt a (i 0) := by
  unfold val_main_v93
  rewrite [scatterVec_at scatter_S512_S100000x1_S100000_n_0_0_1 rfl rfl rfl rfl, val_main_v91_apply,
    val_main_cst_17_apply, Ideal.ofBits_def, Ideal.ofBits_zero_f32, zero_add]
  unfold Gcn.rCnt Gcn.inGraph
  refine Finset.sum_congr (Finset.filter_congr fun r _ => ?_) fun r _ => ?_
  · rewrite [v92_at a]
    exact Iff.rfl
  · rewrite [val_main_v90_apply, val_main_cst_16_apply]
    rfl

/-- The mean: the sum over the count, the count raised to at least one. -/
private theorem v98_at (i : S512x32.Idx) :
    val_main_v98 (F := Ideal) a.x a.ei a.bi a.W1 a.b1 a.W2 a.b2 i
      = Ideal.div (Gcn.rSum a (i 0) (i 1)) (max (Gcn.rCnt a (i 0)) Gcn.one32) := by
  rewrite [val_main_v98_apply, v89_at a, val_main_v97_apply, val_main_v96_apply, val_main_v95_apply, v93_at a,
    val_main_v94_apply, val_main_cst_18_apply]
  rfl

/-- The head: the mean row contracted with the output weights, plus the output bias. -/
private theorem v102_at (i : S512x1.Idx) :
    val_main_v102 (F := Ideal) a.x a.ei a.bi a.W1 a.b1 a.W2 a.b2 a.Wo a.bo i = Gcn.rRes a (i 0) := by
  rewrite [val_main_v102_apply, val_main_v99_apply, val_main_v101_apply, val_main_v100_apply, Ideal.addf_def]
  unfold Gcn.rRes
  have h1 : (i 1).val < 1 := (i 1).isLt
  have hb : idx_main_v100 (idx_main_v101 i) = ix1 (0 : Fin 1) := funext fun b => by
    match b with
    | ⟨0, _⟩ => rfl
  rewrite [hb]
  refine congrArg (· + a.bo (ix1 (0 : Fin 1))) (Finset.sum_congr rfl fun k _ => ?_)
  have hr : ridx_main_v99 i k = ix2 k (0 : Fin 1) :=
    Shape.idx_ext₂ rfl (by show (i 1).val = 0; omega)
  rewrite [v98_at a, hr]
  rfl

/-! ## The run -/

/-- Every weakly fair execution of the reference ends with its result, at graph `g`, the scaled-message arrangement's
    value at `g`, and the nine arguments unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => ∀ c : Dev Cert.ReferenceIdeal.nD,
        r.2.mem ((c.tc : Thread Cert.ReferenceIdeal.nD Cert.ReferenceIdeal.τ).loc Cert.ReferenceIdeal.main_v102) = (fun j => Cert.Gcn.rRes (argsR m c) (j 0))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)) :=
  (θ_run (Cert.ReferenceIdeal.defs (F := Ideal)) _ _).mono
    (fun _ h c => ⟨(h c).1.trans ((val_main_v102_eq (F := Ideal) m c).trans (funext fun j => v102_at (argsR m c) j)), (h c).2⟩)
    (Cert.ReferenceIdeal.Value.run (F := Ideal) m ρ)

end Cert.ReferenceIdeal.RefValue

end
-- ==== Proof.Algebra.lean ====
import proofs.«410742_j70944269795814_3_alg».proof.Proof.Spec
import proofs.«410742_j70944269795814_3_alg».proof.Proof.LibRealSums
import Idealize.ShloMosaic.PureOps.Ideal
import Idealize.ShloMosaic.PureOps.Ideal.Laws
import Idealize.ShloMosaic.Lib.ValueIdx
import Mathlib.Data.EReal.Basic
import Mathlib.Algebra.BigOperators.Ring.Finset
import Mathlib.Tactic.Ring
import Mathlib.Tactic.NormNum.Basic
import Mathlib.Tactic.SplitIfs

/-! # The two arrangements agree on real arguments

`deg i` is a natural number at least one, so `dis i` is a positive real. With every argument a real number, every
intermediate value is real, and among reals the destination's scale moves out of the sum over incoming edges. A 0/1 weight
that is one exactly on a graph's nodes turns the weighted sum over all nodes into the sum over the graph's nodes. -/

noncomputable section

open scoped BigOperators

namespace Cert.Gcn

open Idealize.ShloMosaic Idealize.ShloMosaic.ValueIdx Idealize.ShloMosaic.RealSums

/-! ## The constant one -/

/-- Sign 0, exponent field 127 (the bias), fraction 0: `2^23 · 2^(127 - 127 - 23) = 1`. -/
theorem one32_eq : one32 = 1 := by
  unfold one32
  simp [Ideal.ofBits, Ideal.ieee]
  norm_num
  rw [← EReal.coe_mul]
  norm_num

/-- Sign 0, exponent field 127, fraction 0 with seven fraction bits: `2^7 · 2^(127 - 127 - 7) = 1`. -/
theorem one16_eq : one16 = 1 := by
  unfold one16
  simp [Ideal.ofBits, Ideal.ieee]
  norm_num
  rw [← EReal.coe_mul]
  norm_num

variable {a : Args}

/-! ## The degree is a positive natural number; its inverse square root is real -/

/-- The inverse square root of a positive real is the real `1/√r`. -/
theorem rsqrt_coe_pos {r : ℝ} (hr : 0 < r) : Ideal.rsqrt (r : EReal) = (((Real.sqrt r)⁻¹ : ℝ) : EReal) := by
  show (if r < 0 then ⊥ else if r = 0 then ⊤ else _) = _
  rw [if_neg (not_lt.mpr hr.le), if_neg hr.ne']

/-- A sum of ones over the incoming edges, plus one: the in-degree plus one. -/
theorem deg_eq (i : Fin 100000) : deg a i = ((((onDst a i).card + 1 : ℕ) : ℝ) : EReal) := by
  unfold deg
  rw [one32_eq, Finset.sum_const, nsmul_one, EReal.coe_natCast, Nat.cast_add, Nat.cast_one]

theorem dis_isReal (i : Fin 100000) : IsReal (dis a i) := by
  unfold dis
  rw [deg_eq, rsqrt_coe_pos (Nat.cast_pos.mpr (Nat.succ_pos _))]
  exact IsReal.coe _

/-! ## A destination word that is a node is read as that node -/

/-- A word that is not negative is left alone by the wrap. -/
theorem wrapW_of_nonneg {v : BitVec 32} (h : 0 ≤ v.toInt) : wrapW v = v := by
  have hs : v.slt 0#32 = false := by
    simp [BitVec.slt]; exact h
  unfold wrapW IntOp.cmpi Scalar.select
  simp [hs]

/-- A word whose signed value is the node `i` is neither wrapped nor clamped. -/
theorem node_of_toInt {v : BitVec 32} {i : Fin 100000} (h : v.toInt = (i.val : Int)) : node v = i := by
  have h0 : 0 ≤ v.toInt := by rw [h]; exact Int.natCast_nonneg _
  have hi := i.isLt
  apply Fin.ext
  show min (wrapW v).toInt.toNat (100000 - 1) = i.val
  rw [wrapW_of_nonneg h0, h, Int.toNat_natCast]
  omega

/-! ## Every intermediate value is real -/

theorem lin1_isReal (hf : a.Finite) (i : Fin 100000) (d : Fin 32) : IsReal (lin1 a i d) := by
  unfold lin1
  exact IsReal.sum _ _ fun k _ => (hf.x _).mul (hf.W1 _)

theorem rAgg_isReal {h : Fin 100000 → Fin 32 → EReal} (hh : ∀ j d, IsReal (h j d)) (i : Fin 100000) (d : Fin 32) :
    IsReal (rAgg a h i d) := by
  unfold rAgg
  exact IsReal.sum _ _ fun e _ => (hh _ _).mul ((dis_isReal _).mul (dis_isReal _))

theorem rFin_isReal {agg h : Fin 100000 → Fin 32 → EReal} {b : (⟨1, ![32]⟩ : Shape).Idx → EReal}
    (hagg : ∀ i d, IsReal (agg i d)) (hh : ∀ i d, IsReal (h i d)) (hb : ∀ d, IsReal (b d))
    (i : Fin 100000) (d : Fin 32) : IsReal (rFin a agg h b i d) := by
  unfold rFin
  exact (((hagg i d).add ((hh i d).mul ((dis_isReal i).mul (dis_isReal i)))).add (hb _)).max IsReal.zero

/-! ## One layer: the destination's scale moves out of the sum over incoming edges -/

/-- Among reals `(∑_e h(s e)·dis(s e))·dis i = ∑_e h(s e)·(dis(s e)·dis i)`; each edge of the sum has destination `i`. -/
theorem agg_eq {h : Fin 100000 → Fin 32 → EReal} (hh : ∀ j d, IsReal (h j d)) (i : Fin 100000) (d : Fin 32) :
    kAgg a (fun j d => h j d * dis a j) i d * dis a i = rAgg a h i d := by
  unfold kAgg rAgg
  have hnode : ∀ e ∈ onDst a i, node (dstW a e) = i := fun e he =>
    node_of_toInt (Finset.mem_filter.mp he).2
  have hR : ∑ e ∈ onDst a i, h (node (srcW a e)) d * (dis a (node (srcW a e)) * dis a (node (dstW a e)))
      = ∑ e ∈ onDst a i, h (node (srcW a e)) d * (dis a (node (srcW a e)) * dis a i) :=
    Finset.sum_congr rfl fun e he => by rw [hnode e he]
  rw [hR]
  choose h' hh' using hh
  choose s hs using (dis_isReal (a := a))
  simp only [hh', hs, ← EReal.coe_mul, ← coe_sum]
  rw [EReal.coe_eq_coe_iff, Finset.sum_mul]
  refine Finset.sum_congr rfl fun e _ => ?_
  ring

theorem fin_eq {h : Fin 100000 → Fin 32 → EReal} (hh : ∀ j d, IsReal (h j d)) (b : (⟨1, ![32]⟩ : Shape).Idx → EReal) :
    kFin a (kAgg a fun j d => h j d * dis a j) h b = rFin a (rAgg a h) h b := by
  funext i d
  unfold kFin rFin
  rw [agg_eq hh]

/-! ## The two layers -/

theorem kOut1_eq (hf : a.Finite) : kOut1 a = rOut1 a := by
  show kFin a (kAgg a fun j d => lin1 a j d * dis a j) (lin1 a) a.b1 = rFin a (rAgg a (lin1 a)) (lin1 a) a.b1
  exact fin_eq (h := lin1 a) (lin1_isReal hf) a.b1

theorem rOut1_isReal (hf : a.Finite) (i : Fin 100000) (d : Fin 32) : IsReal (rOut1 a i d) := by
  unfold rOut1
  exact rFin_isReal (rAgg_isReal (lin1_isReal hf)) (lin1_isReal hf) hf.b1 i d

theorem kLin2_eq (hf : a.Finite) : kLin2 a = rLin2 a := by
  funext i d
  unfold kLin2 rLin2
  rw [kOut1_eq hf]

theorem rLin2_isReal (hf : a.Finite) (i : Fin 100000) (d : Fin 32) : IsReal (rLin2 a i d) := by
  unfold rLin2
  exact IsReal.sum _ _ fun k _ => (rOut1_isReal hf i k).mul (hf.W2 _)

theorem kOut2_eq (hf : a.Finite) : kOut2 a = rOut2 a := by
  show kFin a (kAgg a fun j d => kLin2 a j d * dis a j) (kLin2 a) a.b2 = rFin a (rAgg a (rLin2 a)) (rLin2 a) a.b2
  rw [kLin2_eq hf]
  exact fin_eq (h := rLin2 a) (rLin2_isReal hf) a.b2

/-! ## Pooling: the comparison bit is one exactly on the graph's nodes -/

/-- A graph number below 512, as a 32-bit word, reads back signed as itself. -/
theorem toInt_ofNat_graph (g : Fin 512) : (BitVec.ofNat 32 g.val).toInt = (g.val : Int) := by
  have hg := g.isLt
  have hn : (BitVec.ofNat 32 g.val).toNat = g.val := by
    rw [BitVec.toNat_ofNat]; omega
  rw [BitVec.toInt_eq_toNat_of_lt (by rw [hn]; omega), hn]

theorem cmpi_eq_self (w : BitVec 32) : IntOp.cmpi .eq w w = 1#1 := by
  simp [IntOp.cmpi]

theorem cmpi_eq_of_ne {v w : BitVec 32} (h : v ≠ w) : IntOp.cmpi .eq v w = 0#1 := by
  have hb : (v == w) = false := beq_false_of_ne h
  simp [IntOp.cmpi, hb]

theorem widen_one : ((1#1 : BitVec 1).setWidth 32).toInt = 1 := by decide

theorem widen_zero : ((0#1 : BitVec 1).setWidth 32).toInt = 0 := by decide

/-- The weight of node `r` for graph `g` is one when the node's word names `g`, zero otherwise. -/
theorem oh_eq (r : Fin 100000) (g : Fin 512) :
    oh a r g = if (a.bi (ix1 r)).toInt = (g.val : Int) then 1 else 0 := by
  unfold oh
  by_cases h : (a.bi (ix1 r)).toInt = (g.val : Int)
  · have hw : a.bi (ix1 r) = BitVec.ofNat 32 g.val :=
      BitVec.eq_of_toInt_eq (h.trans (toInt_ofNat_graph g).symm)
    rw [if_pos h, hw, cmpi_eq_self, widen_one]
    simp
  · have hw : a.bi (ix1 r) ≠ BitVec.ofNat 32 g.val := fun e => h (e ▸ toInt_ofNat_graph g)
    rw [if_neg h, cmpi_eq_of_ne hw, widen_zero]
    simp

/-- A sum over all nodes weighted by the 0/1 weight is the sum over the graph's nodes (`0 · x = 0` for every extended real). -/
theorem pool_eq (g : Fin 512) (f : Fin 100000 → EReal) :
    ∑ r : Fin 100000, oh a r g * f r = ∑ r ∈ inGraph a g, f r := by
  unfold inGraph
  rw [Finset.sum_filter]
  refine Finset.sum_congr rfl fun r _ => ?_
  rw [oh_eq]
  split_ifs <;> simp

theorem kSum_eq (hf : a.Finite) (g : Fin 512) (d : Fin 32) : kSum a g d = rSum a g d := by
  unfold kSum rSum
  rw [← kOut2_eq hf]
  exact pool_eq g fun r => kOut2 a r d

theorem kCnt_eq (g : Fin 512) : kCnt a g = rCnt a g := by
  unfold kCnt rCnt
  rw [one16_eq, one32_eq]
  exact pool_eq g fun _ => 1

/-! ## The result -/

theorem kRes_eq_rRes (a : Args) (h : a.Finite) (g : Fin 512) : kRes a g = rRes a g := by
  unfold kRes rRes
  rw [kCnt_eq]
  simp only [kSum_eq h]

end Cert.Gcn

end
-- ==== Proof.Finite.lean ====
/- # Finite inputs are real numbers

The printed precondition is the conjunction, over the seven float arguments, of "every entry's absolute value is below
+∞". On the extended reals that says every entry is a real number. -/
import proofs.«410742_j70944269795814_3_alg».proof.Pre_finite_inputs
import proofs.«410742_j70944269795814_3_alg».proof.Proof.Spec
import Idealize.ShloMosaic.Lib.ReduceAll
import Idealize.ShloMosaic.Lib.Affine
import Idealize.ShloMosaic.Lib.ValueIdx
import Idealize.ShloMosaic.PureOps.Ideal

noncomputable section

namespace Cert.Gcn

open Idealize.ShloMosaic Idealize.ShloMosaic.ValueIdx Idealize.ShloMosaic.RealSums

/-- An extended real whose absolute value compares below the pattern of +∞ is a real number. -/
theorem isReal_of_abs_lt (x : EReal)
    (h : FloatOps.cmpf (F := Ideal) (φ := .f32) .olt (FloatOps.hostAbsf (F := Ideal) (φ := .f32) x) (FloatOps.ofBits (F := Ideal) .f32 0x7F800000#32) = 1#1) :
    IsReal x := by
  induction x using EReal.rec with
  | bot => exact absurd h (by simp [FloatOps.cmpf, FloatOps.hostAbsf, FloatOps.absf, Ideal.cmp, Ideal.ofBits, Ideal.ieee])
  | top => exact absurd h (by simp [FloatOps.cmpf, FloatOps.hostAbsf, FloatOps.absf, Ideal.cmp, Ideal.ofBits, Ideal.ieee])
  | coe r => exact ⟨r, rfl⟩

instance : Subsingleton (Cert.Pre_finite_inputs.S_.Idx) := ⟨fun a b => funext fun d => d.elim0⟩

variable [hP : Cert.Pre_finite_inputs.Facts]

/-- The precondition at the ideal values makes every float argument entry a real number. -/
theorem finite_of_pre (a0 : FVec Ideal Cert.Pre_finite_inputs.S100000x128 .f32) (a1 : IVec Cert.Pre_finite_inputs.S2x1600000 32)
    (a2 : IVec Cert.Pre_finite_inputs.S100000 32) (a3 : FVec Ideal Cert.Pre_finite_inputs.S128x32 .f32)
    (a4 : FVec Ideal Cert.Pre_finite_inputs.S32 .f32) (a5 : FVec Ideal Cert.Pre_finite_inputs.S32x32 .f32)
    (a6 : FVec Ideal Cert.Pre_finite_inputs.S32 .f32) (a7 : FVec Ideal Cert.Pre_finite_inputs.S32x1 .f32)
    (a8 : FVec Ideal Cert.Pre_finite_inputs.S1 .f32)
    (h : Cert.Pre_finite_inputs.fn (F := Ideal) a0 a1 a2 a3 a4 a5 a6 a7 a8 = fun _ => 1#1) :
    Args.Finite { x := a0, ei := a1, bi := a2, W1 := a3, b1 := a4, W2 := a5, b2 := a6, Wo := a7, bo := a8 } := by
  have h0 := congrFun h ix0
  dsimp only [Cert.Pre_finite_inputs.fn, Cert.Pre_finite_inputs.fn_part1, andi] at h0
  obtain ⟨h0, h8⟩ := IntOp.andi_eq_one.1 h0
  obtain ⟨h0, h7⟩ := IntOp.andi_eq_one.1 h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  exact
    { x := fun i => isReal_of_abs_lt _ (Host.reduce_andi_all _ _ _ _ _ h0 i)
      W1 := fun i => isReal_of_abs_lt _ (Host.reduce_andi_all _ _ _ _ _ h3 i)
      b1 := fun i => isReal_of_abs_lt _ (Host.reduce_andi_all _ _ _ _ _ h4 i)
      W2 := fun i => isReal_of_abs_lt _ (Host.reduce_andi_all _ _ _ _ _ h5 i)
      b2 := fun i => isReal_of_abs_lt _ (Host.reduce_andi_all _ _ _ _ _ h6 i)
      Wo := fun i => isReal_of_abs_lt _ (Host.reduce_andi_all _ _ _ _ _ h7 i)
      bo := fun i => isReal_of_abs_lt _ (Host.reduce_andi_all _ _ _ _ _ h8 i) }

end Cert.Gcn

end
-- ==== Proof.lean ====
/- The five claims of the certificate.

Both kernel programs are the same text read at two instances, and their frames are one argument: the program is a list of
segments — host stretches and three pipelined regions — each entered from the contents the one before left, so every
execution ends, nothing faults, and no segment writes an argument array. The reference is a straight line of host
operations. At the ideal instance the kernel program's result buffer ends at the specification's `kRes` of the argument
arrays and the reference's at `rRes`; for arguments that are real numbers — what the precondition says — the two are
equal: the kernel only factors the destination node's scale out of a finite sum of real messages and pools through a 0/1
matrix instead of selecting a graph's nodes. -/
import proofs.«410742_j70944269795814_3_alg».proof.Defs
import proofs.«410742_j70944269795814_3_alg».proof.Proof.Gen.Kernel
import proofs.«410742_j70944269795814_3_alg».proof.Proof.Gen.KernelIdeal
import proofs.«410742_j70944269795814_3_alg».proof.Proof.Gen.ReferenceIdeal
import proofs.«410742_j70944269795814_3_alg».proof.Proof.Gen.Pre_finite_inputs
import proofs.«410742_j70944269795814_3_alg».proof.Proof.KKeep
import proofs.«410742_j70944269795814_3_alg».proof.Proof.KernelVal
import proofs.«410742_j70944269795814_3_alg».proof.Proof.RefVal
import proofs.«410742_j70944269795814_3_alg».proof.Proof.Algebra
import proofs.«410742_j70944269795814_3_alg».proof.Proof.Finite

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.RefValue.ref_run m ρ)

theorem preserves : Cert.preserves_Kernel_KernelIdeal := trivial

/-- Memories that agree on the arguments give the two specifications the same record. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) :
    Cert.ReferenceIdeal.RefValue.argsR m' c = Cert.KernelIdeal.Val.argsK m c := by
  obtain ⟨h0, h1, h2, h3, h4, h5, h6, h7, h8⟩ := h
  unfold Cert.ReferenceIdeal.RefValue.argsR Cert.KernelIdeal.Val.argsK
  rw [h0, h1, h2, h3, h4, h5, h6, h7, h8]

theorem algebraic : Cert.algebraic_KernelIdeal_ReferenceIdeal := by
  intro m ρ m' ρ' hpre hagree
  refine ⟨fun c => (fun j => Cert.Gcn.kRes (Cert.KernelIdeal.Val.argsK m c) (j 0)), Cert.KernelIdeal.Val.kernel_run m ρ, ?_⟩
  refine (θ_run Cert.ReferenceIdeal.defs _ _).mono (fun r h c => ⟨(h c).1.trans ?_, (h c).2⟩)
    (Cert.ReferenceIdeal.RefValue.ref_run m' ρ')
  have hfin : (Cert.KernelIdeal.Val.argsK m c).Finite := Cert.Gcn.finite_of_pre _ _ _ _ _ _ _ _ _ (hpre c)
  funext j
  rw [args_eq m m' c (hagree c)]
  exact (Cert.Gcn.kRes_eq_rRes _ hfin (j 0)).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
